-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S256x512 .f32 .bf16
  ∧ IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S8192x512 : Shape := ⟨2, ![8192, 512]⟩
abbrev S8192 : Shape := ⟨1, ![8192]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512 : S_.BroadcastsInDim S512 (![] : Fin 0 → Fin S512.rank)
  reducesTo_S512_S_d0 : S512.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg3 main_v16
  let main_c_6 : IVec S_ 32 := constantI S_ 32 255#32
  let main_v18 : IVec S8192 32 := broadcastInDim S8192 ![] bcast_S_S8192 main_c_6
  let main_v19 : IVec S8192 1 := cmpi .sle main_arg3 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S512x512 .f32) (main_arg1 : IVec S512 32) (main_arg2 : FVec F S8192x512 .f32) (main_arg3 : IVec S8192 32) (main_arg4 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg4 main_v9
  let main_c_3 : IVec S_ 32 := constantI S_ 32 8191#32
  let main_v11 : IVec S512 32 := broadcastInDim S512 ![] bcast_S_S512 main_c_3
  let main_v12 : IVec S512 1 := cmpi .sle main_arg4 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S512x512 : Shape := ⟨2, ![512, 512]⟩
abbrev S512 : Shape := ⟨1, ![512]⟩
abbrev S8192x512 : Shape := ⟨2, ![8192, 512]⟩
abbrev S8192 : Shape := ⟨1, ![8192]⟩
abbrev S_ : Shape := ⟨0, ![]⟩
abbrev S512x1 : Shape := ⟨2, ![512, 1]⟩
abbrev S1 : Shape := ⟨1, ![1]⟩
abbrev S1x1 : Shape := ⟨2, ![1, 1]⟩
abbrev S8192x1 : Shape := ⟨2, ![8192, 1]⟩
abbrev S2048x512 : Shape := ⟨2, ![2048, 512]⟩
abbrev S2048x1 : Shape := ⟨2, ![2048, 1]⟩
abbrev S256x512 : Shape := ⟨2, ![256, 512]⟩
abbrev S1x256 : Shape := ⟨2, ![1, 256]⟩
abbrev S2048x256 : Shape := ⟨2, ![2048, 256]⟩
abbrev S256 : Shape := ⟨1, ![256]⟩
abbrev S512x256 : Shape := ⟨2, ![512, 256]⟩
abbrev S256x1 : Shape := ⟨2, ![256, 1]⟩

abbrev nBuf : Space → Nat
  | .hbm => 34
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S8192x512, .f32⟩
  | .hbm, ⟨3, _⟩ => ⟨S8192, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S1, .i32⟩
  | .hbm, ⟨14, _⟩ => ⟨S_, .i32⟩
  | .hbm, ⟨15, _⟩ => ⟨S512x1, .i32⟩
  | .hbm, ⟨16, _⟩ => ⟨S512x1, .i1⟩
  | .hbm, ⟨17, _⟩ => ⟨S1x1, .i32⟩
  | .hbm, ⟨18, _⟩ => ⟨S512x1, .i32⟩
  | .hbm, ⟨19, _⟩ => ⟨S512x1, .i1⟩
  | .hbm, ⟨20, _⟩ => ⟨S512x1, .i1⟩
  | .hbm, ⟨21, _⟩ => ⟨S_, .i1⟩
  | .hbm, ⟨22, _⟩ => ⟨S512, .i1⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S8192x1, .i32⟩
  | .hbm, ⟨28, _⟩ => ⟨S512x1, .i32⟩
  | .hbm, ⟨29, _⟩ => ⟨S512x1, .i32⟩
  | .hbm, ⟨30, _⟩ => ⟨S1x1, .f32⟩
  | .hbm, ⟨31, _⟩ => ⟨S1x1, .f32⟩
  | .hbm, ⟨32, _⟩ => ⟨S_, .f32⟩
  | .hbm, ⟨33, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S512x512, .f32⟩
  | .local _ .vmem, ⟨5, _⟩ => ⟨S512x1, .i32⟩
  | .local _ .vmem, ⟨6, _⟩ => ⟨S512x1, .i32⟩
  | .local _ .vmem, ⟨7, _⟩ => ⟨S1x1, .f32⟩
  | .local _ .vmem, ⟨8, _⟩ => ⟨S1x1, .f32⟩
  | .local _ .vmem, ⟨9, _⟩ => ⟨S256x512, .f32⟩
  | .local _ .vmem, ⟨10, _⟩ => ⟨S1x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4_0 : Ref sig .tc := ⟨.hbm, 30, rfl⟩
abbrev main_v4_1 : Ref sig .tc := ⟨.hbm, 31, rfl⟩
abbrev main_v5 : Ref sig .tc := ⟨.hbm, 32, rfl⟩
abbrev main_v6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  shapeCasts_S8192_S8192x1 : S8192.ShapeCasts S8192x1
  shapeCasts_S512_S512x1 : S512.ShapeCasts S512x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S1x256_d1_w32 : S1x256.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  broadcasts_S1x256_S2048x256 : S1x256.Broadcasts S2048x256
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S2048x256_S256 : S2048x256.Reduces [0] S256
  shapeCasts_S256_S1x256 : S256.ShapeCasts S1x256
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  broadcasts_S1x256_S512x256 : S1x256.Broadcasts S512x256
  reduces_S512x256_S256 : S512x256.Reduces [0] S256
  transposes_S1x256_p1_0_S256x1 : S1x256.Transposes [1, 0] S256x1
  broadcasts_S256x1_S256x512 : S256x1.Broadcasts S256x512
  reduces_S512x512_S512 : S512x512.Reduces [1] S512
  reduces_S1x256_S1 : S1x256.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  reduces_S256x512_S256 : S256x512.Reduces [1] S256
  shapeCasts_S256_S256x1 : S256.ShapeCasts S256x1
  transposes_S256x1_p1_0_S1x256 : S256x1.Transposes [1, 0] S1x256
  reduces_S512x256_S512 : S512x256.Reduces [1] S512
  broadcasts_S512x1_S512x512 : S512x1.Broadcasts S512x512
  reduces_S512x1_S1 : S512x1.Reduces [0] S1
  shapeCasts_S1x1_S_ : S1x1.ShapeCasts S_
  gather_S8192_S512x1_S512_n_0_n_n_0_1_1_wf : GatherDims.WF S8192 S512x1 S512 [] [0] [] [0] [] 1 ![1]
  dot_S2048x256_S2048x512_S256x512_0_0_1_1_n_n_wf : DotDims.WF S2048x256 S2048x512 S256x512 [0] [0] [1] [1] [] []
  dot_S512x256_S512x512_S256x512_0_0_1_1_n_n_wf : DotDims.WF S512x256 S512x512 S256x512 [0] [0] [1] [1] [] []
  dot_S512x256_S256x512_S512x512_1_0_0_1_n_n_wf : DotDims.WF S512x256 S256x512 S512x512 [1] [0] [0] [1] [] []
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .i32 = 32 ∨ (Rect.block (s := S8192x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .i32 = 32 ∨ (Rect.block (s := S512x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .i32 = 32 ∨ (Rect.block (s := S512x1) S512x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S8192_S512x1_S512_n_0_n_n_0_1_1 : GatherDims S8192 S512x1 S512 where
  offsetDims := []
  collapsedSliceDims := [0]
  operandBatchingDims := []
  startIndicesBatchingDims := []
  startIndexMap := [0]
  indexVectorDim := 1
  sliceSizes := ![1]
  wf := gather_S8192_S512x1_S512_n_0_n_n_0_1_1_wf
def dot_S2048x256_S2048x512_S256x512_0_0_1_1_n_n : DotDims S2048x256 S2048x512 S256x512 where
  lhsContracting := [0]
  rhsContracting := [0]
  lhsNonContracting := [1]
  rhsNonContracting := [1]
  lhsBatch := []
  rhsBatch := []
  wf := dot_S2048x256_S2048x512_S256x512_0_0_1_1_n_n_wf
def dot_S512x256_S512x512_S256x512_0_0_1_1_n_n : DotDims S512x256 S512x512 S256x512 where
  lhsContracting := [0]
  rhsContracting := [0]
  lhsNonContracting := [1]
  rhsNonContracting := [1]
  lhsBatch := []
  rhsBatch := []
  wf := dot_S512x256_S512x512_S256x512_0_0_1_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S8192x512 : Shape := ⟨2, ![8192, 512]⟩
abbrev S8192 : Shape := ⟨1, ![8192]⟩
abbrev S_ : Shape := ⟨0, ![]⟩
abbrev S512x1 : Shape := ⟨2, ![512, 1]⟩
abbrev S256 : Shape := ⟨1, ![256]⟩
abbrev S256x512 : Shape := ⟨2, ![256, 512]⟩
abbrev S256x1 : Shape := ⟨2, ![256, 1]⟩
abbrev S8192x1 : Shape := ⟨2, ![8192, 1]⟩
abbrev S1x256x512 : Shape := ⟨3, ![1, 256, 512]⟩
abbrev S512x256x512 : Shape := ⟨3, ![512, 256, 512]⟩
abbrev S512x2 : Shape := ⟨2, ![512, 2]⟩
abbrev S1x256 : Shape := ⟨2, ![1, 256]⟩
abbrev S512x256 : Shape := ⟨2, ![512, 256]⟩
abbrev S512x256x1 : Shape := ⟨3, ![512, 256, 1]⟩
abbrev S512x1x512 : Shape := ⟨3, ![512, 1, 512]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 195
  | .vmem => 0
  | .smem => 0
  | _ => 0

abbrev hbmTy0_0 (i : Nat) : BufTy := match i % 128 with
  | 0 => ⟨S512x512, .f32⟩
  | 1 => ⟨S512, .i32⟩
  | 2 => ⟨S8192x512, .f32⟩
  | 3 => ⟨S8192, .i32⟩
  | 4 => ⟨S512, .i32⟩
  | 5 => ⟨S_, .i32⟩
  | 6 => ⟨S512, .i32⟩
  | 7 => ⟨S512, .i1⟩
  | 8 => ⟨S_, .i32⟩
  | 9 => ⟨S512, .i32⟩
  | 10 => ⟨S512, .i32⟩
  | 11 => ⟨S512, .i32⟩
  | 12 => ⟨S512x1, .i32⟩
  | 13 => ⟨S512, .i32⟩
  | 14 => ⟨S_, .f32⟩
  | 15 => ⟨S512, .f32⟩
  | 16 => ⟨S_, .f32⟩
  | 17 => ⟨S256, .f32⟩
  | 18 => ⟨S512x1, .i32⟩
  | 19 => ⟨S256, .f32⟩
  | 20 => ⟨S_, .f32⟩
  | 21 => ⟨S256x512, .f32⟩
  | 22 => ⟨S512x1, .i32⟩
  | 23 => ⟨S256x512, .f32⟩
  | 24 => ⟨S_, .f32⟩
  | 25 => ⟨S256, .f32⟩
  | 26 => ⟨S256, .f32⟩
  | 27 => ⟨S256x1, .f32⟩
  | 28 => ⟨S256x512, .f32⟩
  | 29 => ⟨S256x512, .f32⟩
  | 30 => ⟨S_, .i32⟩
  | 31 => ⟨S512, .i32⟩
  | 32 => ⟨S512, .i1⟩
  | 33 => ⟨S_, .i32⟩
  | 34 => ⟨S512, .i32⟩
  | 35 => ⟨S512, .i32⟩
  | 36 => ⟨S512, .i32⟩
  | 37 => ⟨S512x1, .i32⟩
  | 38 => ⟨S512x512, .f32⟩
  | 39 => ⟨S512x512, .f32⟩
  | 40 => ⟨S512x512, .f32⟩
  | 41 => ⟨S_, .f32⟩
  | 42 => ⟨S512, .f32⟩
  | 43 => ⟨S_, .f32⟩
  | 44 => ⟨S256, .f32⟩
  | 45 => ⟨S512x1, .i32⟩
  | 46 => ⟨S256, .f32⟩
  | 47 => ⟨S_, .f32⟩
  | 48 => ⟨S256, .f32⟩
  | 49 => ⟨S256, .f32⟩
  | 50 => ⟨S256, .f32⟩
  | 51 => ⟨S_, .f32⟩
  | 52 => ⟨S256, .f32⟩
  | 53 => ⟨S256, .i1⟩
  | 54 => ⟨S256, .f32⟩
  | 55 => ⟨S_, .f32⟩
  | 56 => ⟨S_, .f32⟩
  | 57 => ⟨S256, .f32⟩
  | 58 => ⟨S256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S8192, .f32⟩
  | 77 => ⟨S_, .f32⟩
  | 78 => ⟨S256, .f32⟩
  | 79 => ⟨S8192x1, .i32⟩
  | 80 => ⟨S256, .f32⟩
  | 81 => ⟨S_, .f32⟩
  | 82 => ⟨S256x512, .f32⟩
  | 83 => ⟨S8192x1, .i32⟩
  | 84 => ⟨S256x512, .f32⟩
  | 85 => ⟨S512, .i32⟩
  | 86 => ⟨S1x256x512, .f32⟩
  | 87 => ⟨S512x256x512, .f32⟩
  | 88 => ⟨S512x512, .f32⟩
  | 89 => ⟨S_, .i32⟩
  | 90 => ⟨S512, .i32⟩
  | 91 => ⟨S512, .i1⟩
  | 92 => ⟨S_, .i32⟩
  | 93 => ⟨S512, .i32⟩
  | 94 => ⟨S512, .i32⟩
  | 95 => ⟨S512, .i32⟩
  | 96 => ⟨S_, .i32⟩
  | 97 => ⟨S512, .i32⟩
  | 98 => ⟨S512, .i1⟩
  | 99 => ⟨S_, .i32⟩
  | 100 => ⟨S512, .i32⟩
  | 101 => ⟨S512, .i32⟩
  | 102 => ⟨S512, .i32⟩
  | 103 => ⟨S512x1, .i32⟩
  | 104 => ⟨S512x1, .i32⟩
  | 105 => ⟨S512x2, .i32⟩
  | 106 => ⟨S512x256x512, .f32⟩
  | 107 => ⟨S1x256, .f32⟩
  | 108 => ⟨S512x256, .f32⟩
  | 109 => ⟨S_, .i32⟩
  | 110 => ⟨S512, .i32⟩
  | 111 => ⟨S512, .i1⟩
  | 112 => ⟨S_, .i32⟩
  | 113 => ⟨S512, .i32⟩
  | 114 => ⟨S512, .i32⟩
  | 115 => ⟨S512, .i32⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512x1, .i32⟩
  | 125 => ⟨S512x2, .i32⟩
  | 126 => ⟨S_, .f32⟩
  | 127 => ⟨S512, .f32⟩
  | _ => ⟨S512x512, .f32⟩

abbrev hbmTy0_1 (i : Nat) : BufTy := match i % 128 with
  | 0 => ⟨S512x256, .f32⟩
  | 1 => ⟨S_, .f32⟩
  | 2 => ⟨S512x256, .f32⟩
  | 3 => ⟨S512x256, .f32⟩
  | 4 => ⟨S512x256x1, .f32⟩
  | 5 => ⟨S512x256x512, .f32⟩
  | 6 => ⟨S512x256x512, .f32⟩
  | 7 => ⟨S512x1x512, .f32⟩
  | 8 => ⟨S512x256x512, .f32⟩
  | 9 => ⟨S512x256x512, .f32⟩
  | 10 => ⟨S512x256x512, .f32⟩
  | 11 => ⟨S_, .f32⟩
  | 12 => ⟨S512x256, .f32⟩
  | 13 => ⟨S_, .f32⟩
  | 14 => ⟨S512x256, .f32⟩
  | 15 => ⟨S512x256, .f32⟩
  | 16 => ⟨S_, .f32⟩
  | 17 => ⟨S512x256, .f32⟩
  | 18 => ⟨S512x256, .i1⟩
  | 19 => ⟨S512x256, .f32⟩
  | 20 => ⟨S512x256, .f32⟩
  | 21 => ⟨S_, .f32⟩
  | 22 => ⟨S512x256, .f32⟩
  | 23 => ⟨S512x256, .f32⟩
  | 24 => ⟨S_, .f32⟩
  | 25 => ⟨S512, .f32⟩
  | 26 => ⟨S_, .f32⟩
  | 27 => ⟨S512, .f32⟩
  | 28 => ⟨S512, .f32⟩
  | 29 => ⟨S512x1, .f32⟩
  | 30 => ⟨S512x256, .f32⟩
  | 31 => ⟨S512x256, .f32⟩
  | 32 => ⟨S512x256, .f32⟩
  | 33 => ⟨S_, .f32⟩
  | 34 => ⟨S512, .f32⟩
  | 35 => ⟨S512x1, .f32⟩
  | 36 => ⟨S512x1, .f32⟩
  | 37 => ⟨S512x256, .f32⟩
  | 38 => ⟨S512x256, .f32⟩
  | 39 => ⟨S512x1, .i32⟩
  | 40 => ⟨S_, .i32⟩
  | 41 => ⟨S512x1, .i32⟩
  | 42 => ⟨S512x1, .i1⟩
  | 43 => ⟨S_, .i32⟩
  | 44 => ⟨S512x1, .i32⟩
  | 45 => ⟨S512x1, .i32⟩
  | 46 => ⟨S512x1, .i32⟩
  | 47 => ⟨S512x1x1, .i32⟩
  | 48 => ⟨S1, .i32⟩
  | 49 => ⟨S_, .i32⟩
  | 50 => ⟨S512x1x1, .i32⟩
  | 51 => ⟨S512x1x1, .i1⟩
  | 52 => ⟨S1x1x1, .i32⟩
  | 53 => ⟨S512x1x1, .i32⟩
  | 54 => ⟨S512x1x1, .i1⟩
  | 55 => ⟨S512x1x1, .i1⟩
  | 56 => ⟨S_, .i1⟩
  | 57 => ⟨S512x1, .i1⟩
  | 58 => ⟨S512x1, .f32⟩
  | 59 => ⟨S_, .f32⟩
  | 60 => ⟨S512x1, .f32⟩
  | 61 => ⟨S512x1, .f32⟩
  | 62 => ⟨S_, .f32⟩
  | 63 => ⟨S_, .f32⟩
  | 64 => ⟨S_, .f32⟩
  | 65 => ⟨S_, .f32⟩
  | 66 => ⟨S_, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_call0_v0 : Ref sig .tc := ⟨.hbm, 56, rfl⟩
abbrev main_call0_v1 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_cst_12 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_cst_16 : Ref sig .tc := ⟨.hbm, 72, rfl⟩
abbrev main_call2_v0 : Ref sig .tc := ⟨.hbm, 73, rfl⟩
abbrev main_v45 : Ref sig .tc := ⟨.hbm, 74, rfl⟩
abbrev main_cst_17 : Ref sig .tc := ⟨.hbm, 75, rfl⟩
abbrev main_v46 : Ref sig .tc := ⟨.hbm, 76, rfl⟩
abbrev main_cst_18 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_19 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_20 : Ref sig .tc := ⟨.hbm, 89, rfl⟩
abbrev main_v57 : Ref sig .tc := ⟨.hbm, 90, rfl⟩
abbrev main_v58 : Ref sig .tc := ⟨.hbm, 91, rfl⟩
abbrev main_c_21 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_22 : Ref sig .tc := ⟨.hbm, 96, rfl⟩
abbrev main_v62 : Ref sig .tc := ⟨.hbm, 97, rfl⟩
abbrev main_v63 : Ref sig .tc := ⟨.hbm, 98, rfl⟩
abbrev main_c_23 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_24 : Ref sig .tc := ⟨.hbm, 109, rfl⟩
abbrev main_v73 : Ref sig .tc := ⟨.hbm, 110, rfl⟩
abbrev main_v74 : Ref sig .tc := ⟨.hbm, 111, rfl⟩
abbrev main_c_25 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_26 : Ref sig .tc := ⟨.hbm, 116, rfl⟩
abbrev main_v78 : Ref sig .tc := ⟨.hbm, 117, rfl⟩
abbrev main_v79 : Ref sig .tc := ⟨.hbm, 118, rfl⟩
abbrev main_c_27 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_28 : Ref sig .tc := ⟨.hbm, 126, rfl⟩
abbrev main_v86 : Ref sig .tc := ⟨.hbm, 127, rfl⟩
abbrev main_v87 : Ref sig .tc := ⟨.hbm, 128, rfl⟩
abbrev main_cst_29 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_30 : Ref sig .tc := ⟨.hbm, 139, rfl⟩
abbrev main_v97 : Ref sig .tc := ⟨.hbm, 140, rfl⟩
abbrev main_cst_31 : Ref sig .tc := ⟨.hbm, 141, rfl⟩
abbrev main_v98 : Ref sig .tc := ⟨.hbm, 142, rfl⟩
abbrev main_v99 : Ref sig .tc := ⟨.hbm, 143, rfl⟩
abbrev main_cst_32 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_33 : Ref sig .tc := ⟨.hbm, 149, rfl⟩
abbrev main_v104 : Ref sig .tc := ⟨.hbm, 150, rfl⟩
abbrev main_v105 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v106 : Ref sig .tc := ⟨.hbm, 166, rfl⟩
abbrev main_v107 : Ref sig .tc := ⟨.hbm, 167, rfl⟩
abbrev main_call4_c : Ref sig .tc := ⟨.hbm, 168, rfl⟩
abbrev main_call4_v0 : Ref sig .tc := ⟨.hbm, 169, rfl⟩
abbrev main_call4_v1 : Ref sig .tc := ⟨.hbm, 170, rfl⟩
abbrev main_call4_c_0 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_c_1 : Ref sig .tc := ⟨.hbm, 176, rfl⟩
abbrev main_call4_c_2 : Ref sig .tc := ⟨.hbm, 177, rfl⟩
abbrev main_call4_v6 : Ref sig .tc := ⟨.hbm, 178, rfl⟩
abbrev main_call4_v7 : Ref sig .tc := ⟨.hbm, 179, rfl⟩
abbrev main_call4_v8 : Ref sig .tc := ⟨.hbm, 180, rfl⟩
abbrev main_call4_v9 : Ref sig .tc := ⟨.hbm, 181, rfl⟩
abbrev main_call4_v10 : Ref sig .tc := ⟨.hbm, 182, rfl⟩
abbrev main_call4_v11 : Ref sig .tc := ⟨.hbm, 183, rfl⟩
abbrev main_call4_c_3 : Ref sig .tc := ⟨.hbm, 184, rfl⟩
abbrev main_call4_v12 : Ref sig .tc := ⟨.hbm, 185, rfl⟩
abbrev main_call4_v13 : Ref sig .tc := ⟨.hbm, 186, rfl⟩
abbrev main_call4_cst : Ref sig .tc := ⟨.hbm, 187, rfl⟩
abbrev main_call4_v14 : Ref sig .tc := ⟨.hbm, 188, rfl⟩
abbrev main_v108 : Ref sig .tc := ⟨.hbm, 189, rfl⟩
abbrev main_cst_34 : Ref sig .tc := ⟨.hbm, 190, rfl⟩
abbrev main_v109 : Ref sig .tc := ⟨.hbm, 191, rfl⟩
abbrev main_cst_35 : Ref sig .tc := ⟨.hbm, 192, rfl⟩
abbrev main_v110 : Ref sig .tc := ⟨.hbm, 193, rfl⟩
abbrev main_v111 : Ref sig .tc := ⟨.hbm, 194, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S256 : S_.BroadcastsInDim S256 (![] : Fin 0 → Fin S256.rank)
  bcast_S_S256x512 : S_.BroadcastsInDim S256x512 (![] : Fin 0 → Fin S256x512.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  reducesTo_S512x512_S512_d1 : S512x512.ReducesTo [1] S512
  h_S_ : 0 < S_.numel
  reducesTo_S256_S_d0 : S256.ReducesTo [0] S_
  bcast_S_S8192 : S_.BroadcastsInDim S8192 (![] : Fin 0 → Fin S8192.rank)
  bcast_S8192_S8192x1_0 : S8192.BroadcastsInDim S8192x1 (![0] : Fin 1 → Fin S8192x1.rank)
  bcast_S256x512_S1x256x512_1_2 : S256x512.BroadcastsInDim S1x256x512 (![1, 2] : Fin 2 → Fin S1x256x512.rank)
  bcast_S1x256x512_S512x256x512_0_1_2 : S1x256x512.BroadcastsInDim S512x256x512 (![0, 1, 2] : Fin 3 → Fin S512x256x512.rank)
  concatenates_S512x1_S512x1_S512x2_d1 : Shape.Concatenates [S512x1, S512x1] S512x2 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256x1_S512x256x512_0_1_2 : S512x256x1.BroadcastsInDim S512x256x512 (![0, 1, 2] : Fin 3 → Fin S512x256x512.rank)
  bcast_S512x512_S512x1x512_0_2 : S512x512.BroadcastsInDim S512x1x512 (![0, 2] : Fin 2 → Fin S512x1x512.rank)
  bcast_S512x1x512_S512x256x512_0_1_2 : S512x1x512.BroadcastsInDim S512x256x512 (![0, 1, 2] : Fin 3 → Fin S512x256x512.rank)
  reducesTo_S512x256x512_S512x256_d2 : S512x256x512.ReducesTo [2] S512x256
  reducesTo_S512x256_S512_d1 : S512x256.ReducesTo [1] S512
  bcast_S512x1_S512x256_0_1 : S512x1.BroadcastsInDim S512x256 (![0, 1] : Fin 2 → Fin S512x256.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  gather_S8192_S512x1_S512_n_0_n_n_0_1_1_wf : GatherDims.WF S8192 S512x1 S512 [] [0] [] [0] [] 1 ![1]
  scatter_S256_S512x1_S512_n_0_0_1_wf : ScatterDims.WF S256 S512x1 S512 [] [0] [0] 1
  scatter_S256x512_S512x1_S512x512_1_0_0_1_wf : ScatterDims.WF S256x512 S512x1 S512x512 [1] [0] [0] 1
  gather_S256x512_S512x1_S512x512_1_0_n_n_0_1_1512_wf : GatherDims.WF S256x512 S512x1 S512x512 [1] [0] [] [0] [] 1 ![1, 512]
  scatter_S256_S8192x1_S8192_n_0_0_1_wf : ScatterDims.WF S256 S8192x1 S8192 [] [0] [0] 1
  scatter_S256x512_S8192x1_S8192x512_1_0_0_1_wf : ScatterDims.WF S256x512 S8192x1 S8192x512 [1] [0] [0] 1
  scatter_S512x256x512_S512x2_S512x512_1_01_01_1_wf : ScatterDims.WF S512x256x512 S512x2 S512x512 [1] [0, 1] [0, 1] 1
  scatter_S512x256_S512x2_S512_n_01_01_1_wf : ScatterDims.WF S512x256 S512x2 S512 [] [0, 1] [0, 1] 1
  gather_S512x256_S512x1x1_S512x1_n_1_0_0_1_2_11_wf : GatherDims.WF S512x256 S512x1x1 S512x1 [] [1] [0] [1] [0] 2 ![1, 1]

variable [Facts₀]

def gather_S8192_S512x1_S512_n_0_n_n_0_1_1 : GatherDims S8192 S512x1 S512 where
  offsetDims := []
  collapsedSliceDims := [0]
  operandBatchingDims := []
  startIndicesBatchingDims := []
  startIndexMap := [0]
  indexVectorDim := 1
  sliceSizes := ![1]
  wf := gather_S8192_S512x1_S512_n_0_n_n_0_1_1_wf
def scatter_S256_S512x1_S512_n_0_0_1 : ScatterDims S256 S512x1 S512 where
  updateWindowDims := []
  insertedWindowDims := [0]
  scatterDimsToOperandDims := [0]
  indexVectorDim := 1
  wf := scatter_S256_S512x1_S512_n_0_0_1_wf
def scatter_S256x512_S512x1_S512x512_1_0_0_1 : ScatterDims S256x512 S512x1 S512x512 where
  updateWindowDims := [1]
  insertedWindowDims := [0]
  scatterDimsToOperandDims := [0]
  indexVectorDim := 1
  wf := scatter_S256x512_S512x1_S512x512_1_0_0_1_wf
def gather_S256x512_S512x1_S512x512_1_0_n_n_0_1_1512 : GatherDims S256x512 S512x1 S512x512 where
  offsetDims := [1]
  collapsedSliceDims := [0]
  operandBatchingDims := []
  startIndicesBatchingDims := []
  startIndexMap := [0]
  indexVectorDim := 1
  sliceSizes := ![1, 512]
  wf := gather_S256x512_S512x1_S512x512_1_0_n_n_0_1_1512_wf
def scatter_S256_S8192x1_S8192_n_0_0_1 : ScatterDims S256 S8192x1 S8192 where
  updateWindowDims := []
  insertedWindowDims := [0]
  scatterDimsToOperandDims := [0]
  indexVectorDim := 1
  wf := scatter_S256_S8192x1_S8192_n_0_0_1_wf
def scatter_S256x512_S8192x1_S8192x512_1_0_0_1 : ScatterDims S256x512 S8192x1 S8192x512 where
  updateWindowDims := [1]
  insertedWindowDims := [0]
  scatterDimsToOperandDims := [0]
  indexVectorDim := 1
  wf := scatter_S256x512_S8192x1_S8192x512_1_0_0_1_wf
def scatter_S512x256x512_S512x2_S512x512_1_01_01_1 : ScatterDims S512x256x512 S512x2 S512x512 where
  updateWindowDims := [1]
  insertedWindowDims := [0, 1]
  scatterDimsToOperandDims := [0, 1]
  indexVectorDim := 1
  wf := scatter_S512x256x512_S512x2_S512x512_1_01_01_1_wf
def scatter_S512x256_S512x2_S512_n_01_01_1 : ScatterDims S512x256 S512x2 S512 where
  updateWindowDims := []
  insertedWindowDims := [0, 1]
  scatterDimsToOperandDims := [0, 1]
  indexVectorDim := 1
  wf := scatter_S512x256_S512x2_S512_n_01_01_1_wf
def gather_S512x256_S512x1x1_S512x1_n_1_0_0_1_2_11 : GatherDims S512x256 S512x1x1 S512x1 where
  offsetDims := []
  collapsedSliceDims := [1]
  operandBatchingDims := [0]
  startIndicesBatchingDims := [0]
  startIndexMap := [1]
  indexVectorDim := 2
  sliceSizes := ![1, 1]
  wf := gather_S512x256_S512x1x1_S512x1_n_1_0_0_1_2_11_wf

class Facts : Prop extends Facts₀ where

variable [Facts]
-- ==== Proof.Spec.lean ====
/-
  The mathematics both programs compute, over the real numbers.
  Labels are 32-bit words; the word `w` names class `c : Fin 256` when `w = BitVec.ofNat 32 c`.
  `cnt` counts the rows of a class, `csum` sums them; `varS` is the intra-class variance over the
  classes with at least three rows; `logitS` is minus half the squared distance of a query row to each
  class mean, the query's own class taken with the query left out; `logpS` its log-softmax along the classes;
  `lossS` minus the mean of the log-probabilities at each query's own class.
  `up0` … `up2` embed real arrays into arrays of extended reals, `lab1` / `labCol` lay a label list out as a
  rank-1 array and as a column.
-/
import Idealize.ShloMosaic.PureOps.Ideal
import Idealize.ShloMosaic.Lib.ValueIdx

noncomputable section

namespace Cert.PP

open Idealize.ShloMosaic

/-- The real number the f32 word `0x3DCCCCCD` (the nearest f32 to one tenth) denotes. -/
def tenth : ℝ := 13421773 / 134217728

def up2 {a b : ℕ} (x : Fin a → Fin b → ℝ) : (⟨2, ![a, b]⟩ : Shape).Idx → EReal := fun i => ((x (i 0) (i 1) : ℝ) : EReal)
def up1 {a : ℕ} (x : Fin a → ℝ) : (⟨1, ![a]⟩ : Shape).Idx → EReal := fun i => ((x (i 0) : ℝ) : EReal)
def upRow {b : ℕ} (x : Fin b → ℝ) : (⟨2, ![1, b]⟩ : Shape).Idx → EReal := fun i => ((x (i 1) : ℝ) : EReal)
def up0 (x : ℝ) : (⟨0, ![]⟩ : Shape).Idx → EReal := fun _ => ((x : ℝ) : EReal)
def lab1 {n : ℕ} (l : Fin n → BitVec 32) : (⟨1, ![n]⟩ : Shape).Idx → BitVec 32 := fun i => l (i 0)
def labCol {n : ℕ} (l : Fin n → BitVec 32) : (⟨2, ![n, 1]⟩ : Shape).Idx → BitVec 32 := fun i => l (i 0)

/-- How many rows carry the label of class `c`. -/
def cnt {n : ℕ} (lab : Fin n → BitVec 32) (c : Fin 256) : ℝ :=
  ∑ j, if lab j = BitVec.ofNat 32 c.val then (1 : ℝ) else 0

/-- The sum of the rows that carry the label of class `c`, coordinate `d`. -/
def csum {n : ℕ} (lab : Fin n → BitVec 32) (x : Fin n → Fin 512 → ℝ) (c : Fin 256) (d : Fin 512) : ℝ :=
  ∑ j, if lab j = BitVec.ofNat 32 c.val then x j d else 0

/-- The intra-class variance of the query rows: the squared distances to the class means, summed over the classes of
    at least three rows, over the number of rows in those classes (zero when there is none). -/
def varS (xq : Fin 512 → Fin 512 → ℝ) (yq : Fin 512 → BitVec 32) : ℝ :=
  let cq := cnt yq
  let mq := fun c d => csum yq xq c d / max (cq c) 1
  let seg := fun c => ∑ b, if yq b = BitVec.ofNat 32 c.val then ∑ d, (xq b d - mq c d) ^ 2 else 0
  let tot := ∑ c, if 3 ≤ cq c then seg c else 0
  let n := ∑ c, if 3 ≤ cq c then cq c else 0
  if 0 < n then tot / max n 1 else 0

/-- Minus half the squared distance of query `b` to the mean of class `c` (zero for an empty class). -/
def offS (cc : Fin 256 → ℝ) (mus : Fin 256 → Fin 512 → ℝ) (xq : Fin 512 → Fin 512 → ℝ) (b : Fin 512) (c : Fin 256) : ℝ :=
  (-(1 / 2) * ∑ d, (xq b d - mus c d / max (cc c) tenth) ^ 2) * (if tenth < cc c then 1 else 0)

/-- The same with query `b` itself taken out of class `c`'s sum and count. -/
def diagS (cc : Fin 256 → ℝ) (mus : Fin 256 → Fin 512 → ℝ) (xq : Fin 512 → Fin 512 → ℝ) (b : Fin 512) (c : Fin 256) : ℝ :=
  (-(1 / 2) * ∑ d, (xq b d - (mus c d - xq b d) / max (cc c - 1) tenth) ^ 2) * (if tenth < cc c - 1 then 1 else 0)

def logitS (cc : Fin 256 → ℝ) (mus : Fin 256 → Fin 512 → ℝ) (xq : Fin 512 → Fin 512 → ℝ) (yn : Fin 512 → BitVec 32)
    (b : Fin 512) (c : Fin 256) : ℝ :=
  if yn b = BitVec.ofNat 32 c.val then diagS cc mus xq b c else offS cc mus xq b c

/-- Log-softmax along the classes, written with the row maximum taken off first. -/
def logpS (L : Fin 512 → Fin 256 → ℝ) (b : Fin 512) (c : Fin 256) : ℝ :=
  let M := Finset.univ.sup' Finset.univ_nonempty (L b)
  (L b c - M) - Real.log (∑ c', Real.exp (L b c' - M))

/-- Minus the mean over the queries of `lp` at the query's own class. -/
def pickS (lp : Fin 512 → Fin 256 → ℝ) (yn : Fin 512 → BitVec 32) : ℝ :=
  -((∑ b, ∑ c, if yn b = BitVec.ofNat 32 c.val then lp b c else 0) / 512)

def lossS (L : Fin 512 → Fin 256 → ℝ) (yn : Fin 512 → BitVec 32) : ℝ := pickS (logpS L) yn

/-- The label the position word `pos b` picks out of `ys`. -/
def ynS (ys : Fin 8192 → BitVec 32) (pos : Fin 512 → BitVec 32) (b : Fin 512) : BitVec 32 :=
  ys ⟨(pos b).toNat % 8192, Nat.mod_lt _ (by norm_num)⟩

def lossSpec (xq : Fin 512 → Fin 512 → ℝ) (xs : Fin 8192 → Fin 512 → ℝ) (ys : Fin 8192 → BitVec 32) (pos : Fin 512 → BitVec 32) : ℝ :=
  lossS (logitS (cnt ys) (csum ys xs) xq (ynS ys pos)) (ynS ys pos)

end Cert.PP

end
-- ==== Proof.KTerm.lean ====
/-
  The kernel's two results as terms over the whole argument arrays: the class sums and counts accumulated tile by
  tile (four tiles of 2048 rows), then the variance and the loss computed from them at the last tile, and the label
  gather the host does before the launch.
-/
import proofs.«415011_j18580028523148_3_alg».proof.Proof.Gen.KernelIdeal.Skeleton
import proofs.«415011_j18580028523148_3_alg».proof.Proof.Spec

noncomputable section

namespace Cert.PP.KT

open Idealize.ShloMosaic Cert.KernelIdeal Cert.KernelIdeal.Gen

variable {F : FTy → Type} [FloatOps F]

/-- The class ids 0 … 255 along a row. -/
def cls : IVec S1x256 32 := iota .tc S1x256 32 [1] iota_S1x256_d1_w32

/-- Rows `2048 t … 2048 t + 2047` of the support rows. -/
def tileX (xs : FVec F S8192x512 .f32) (t : Fin 4) : FVec F S2048x512 .f32 := fun y =>
  xs (ValueIdx.ix2 (⟨2048 * t.val + (y 0).val, by have h : (y 0).val < 2048 := (y 0).isLt; have := t.isLt; omega⟩ : Fin 8192) (y 1 : Fin 512))

/-- The same rows of the support labels, laid out as a column. -/
def tileY (ys2 : IVec S8192x1 32) (t : Fin 4) : IVec S2048x1 32 := fun y =>
  ys2 (ValueIdx.ix2 (⟨2048 * t.val + (y 0).val, by have h : (y 0).val < 2048 := (y 0).isLt; have := t.isLt; omega⟩ : Fin 8192) (y 1 : Fin 1))

/-- A rank-1 label array as a column. -/
def col {n : ℕ} (l : IVec ⟨1, ![n]⟩ 32) : IVec ⟨2, ![n, 1]⟩ 32 := fun i => l (ValueIdx.ix1 (i 0))

/-- The class sums after the four tiles. -/
def mus4 (xs : FVec F S8192x512 .f32) (ys2 : IVec S8192x1 32) : FVec F S256x512 .f32 :=
  k0_pay4 (tileY ys2 3) (tileX xs 3) (k0_pay4 (tileY ys2 2) (tileX xs 2) (k0_pay4 (tileY ys2 1) (tileX xs 1)
    (k0_pay4 (tileY ys2 0) (tileX xs 0) (k0_pay1 (F := F)))))

/-- The class counts after the four tiles. -/
def cc4 (ys2 : IVec S8192x1 32) : FVec F S1x256 .f32 :=
  k0_pay5 (tileY ys2 3) (k0_pay5 (tileY ys2 2) (k0_pay5 (tileY ys2 1) (k0_pay5 (tileY ys2 0) (k0_pay2 (F := F)))))

def kVar (xq : FVec F S512x512 .f32) (yq2 : IVec S512x1 32) : FVec F S1x1 .f32 :=
  k0_pay13 (k0_pay10 cls yq2) (k0_pay11 cls yq2) (k0_pay12 cls xq yq2)

def kLoss (mus : FVec F S256x512 .f32) (cc : FVec F S1x256 .f32) (xq : FVec F S512x512 .f32) (yqn2 : IVec S512x1 32) : FVec F S1x1 .f32 :=
  k0_pay6 (k0_pay16 (F := F) (k0_pay15 cls (k0_pay7 (F := F) yqn2)))
    (k0_pay17 mus cc xq (k0_pay14 mus cc xq (k0_pay8 xq)) (k0_pay15 cls (k0_pay7 (F := F) yqn2)))

/-- The host's `take` before the launch: position words below zero are moved up by 8192, and a position outside
    `0 … 8191` yields the smallest 32-bit integer instead of a label. -/
def takeT (ys : IVec S8192 32) (pos : IVec S512 32) : IVec S512 32 :=
  select
    (Host.reduce IntOp.andi
      (andi
        (cmpi .sge
          (broadcastInDim S512x1 ![0] bcast_S512_S512x1_0
            (select (cmpi .slt pos (broadcastInDim S512 ![] bcast_S_S512 (constantI S_ 32 0#32)))
              (addi pos (broadcastInDim S512 ![] bcast_S_S512 (constantI S_ 32 8192#32))) pos))
          (broadcastInDim S512x1 ![] bcast_S_S512x1 (constantI S_ 32 0#32)))
        (cmpi .sle
          (broadcastInDim S512x1 ![0] bcast_S512_S512x1_0
            (select (cmpi .slt pos (broadcastInDim S512 ![] bcast_S_S512 (constantI S_ 32 0#32)))
              (addi pos (broadcastInDim S512 ![] bcast_S_S512 (constantI S_ 32 8192#32))) pos))
          (broadcastInDim S512x1 ![0, 1] bcast_S1x1_S512x1_0_1
            (broadcastInDim S1x1 ![1] bcast_S1_S1x1_1 (constantI S1 32 8191#32)))))
      (constantI S_ 1 1#1) reducesTo_S512x1_S512_d1 h_S_)
    (Host.gather gather_S8192_S512x1_S512_n_0_n_n_0_1_1 ys
      (broadcastInDim S512x1 ![0] bcast_S512_S512x1_0
        (select (cmpi .slt pos (broadcastInDim S512 ![] bcast_S_S512 (constantI S_ 32 0#32)))
          (addi pos (broadcastInDim S512 ![] bcast_S_S512 (constantI S_ 32 8192#32))) pos)))
    (broadcastInDim S512 ![] bcast_S_S512 (constantI S_ 32 2147483648#32))

/-- The kernel program's first result, the loss, as a function of its arguments. -/
def lossT (xq : FVec F S512x512 .f32) (xs : FVec F S8192x512 .f32) (ys : IVec S8192 32) (pos : IVec S512 32) : FVec F S_ .f32 :=
  fun _ => kLoss (mus4 xs (col ys)) (cc4 (F := F) (col ys)) xq (col (takeT ys pos)) (ValueIdx.ix2 (0 : Fin 1) (0 : Fin 1))

/-- The kernel program's second result, the intra-class variance. -/
def varT (xq : FVec F S512x512 .f32) (yq : IVec S512 32) : FVec F S_ .f32 :=
  fun _ => kVar xq (col yq) (ValueIdx.ix2 (0 : Fin 1) (0 : Fin 1))

end Cert.PP.KT

end
-- ==== Proof.KPieces.lean ====
/-
  What each control case of the kernel body leaves in the two carried scratch arrays and, at the last grid point, in the
  two outputs, as the body's pure terms of what it loaded: at the first point the sums start from zero, at the others
  from what the point before left; the last point also computes the variance and the loss from the sums so far.
-/
import proofs.«415011_j18580028523148_3_alg».proof.Proof.Gen.KernelIdeal.Frame
import proofs.«415011_j18580028523148_3_alg».proof.Proof.KTerm
import Idealize.ShloMosaic.Lib.Pipeline.Value

noncomputable section

namespace Cert.PP.KPieces

open Idealize.ShloMosaic Cert.KernelIdeal Cert.KernelIdeal.Gen Cert.PP Idealize.ShloMosaic.TcCoe Idealize.ShloMosaic.Tactic Idealize.SL Idealize.SL.Sem

variable {F : FTy → Type} [FloatOps F]

/-- The offset of every store and load here is zero on both axes. -/
private theorem hz2 : (![0, 0] : Fin 2 → Nat) = fun _ => 0 := funext fun a => by fin_cases a <;> rfl

/-- First point, class sums: the array is set to zero and the zero is then read back, so what the point leaves is
    one tile's update applied to the zero array (the later store covers the whole array, so it alone is read). -/
theorem sout0_A_0_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : cond0_0 i) (hc1 : ¬cond0_1 i) (x0 : Vec F S2048x512 .f32) (x1 : Vec F S2048x1 .i32) (x2 : Vec F S512x512 .f32) (x3 : Vec F S512x1 .i32) (x4 : Vec F S512x1 .i32) :
    sout0_A_0 (F := F) c i arg1 harg1 arg2 harg2 arg3 harg3 arg4 harg4 arg5 harg5 arg6 harg6 arg7 harg7 arg8 harg8 arg9 harg9 hc0 hc1 x0 x1 x2 x3 x4 = k0_pay4 x1 x0 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x512) hz2, View.readCov_unit_zero (S := S256x512) _ hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2]

/-- First point, class counts: likewise one tile's update applied to the zero row. -/
theorem sout0_A_1_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : cond0_0 i) (hc1 : ¬cond0_1 i) (x0 : Vec F S2048x512 .f32) (x1 : Vec F S2048x1 .i32) (x2 : Vec F S512x512 .f32) (x3 : Vec F S512x1 .i32) (x4 : Vec F S512x1 .i32) :
    sout0_A_1 (F := F) c i arg1 harg1 arg2 harg2 arg3 harg3 arg4 harg4 arg5 harg5 arg6 harg6 arg7 harg7 arg8 harg8 arg9 harg9 hc0 hc1 x0 x1 x2 x3 x4 = k0_pay5 x1 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2]

/-- A middle point, class sums: a single store over the whole array, of the tile's update applied to what the
    point before left. -/
theorem sout0_B_0_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : ¬cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    sout0_B_0 (F := F) c i arg1 harg1 arg2 harg2 arg3 harg3 arg4 harg4 arg5 harg5 arg6 harg6 arg7 harg7 arg8 harg8 arg9 harg9 hc0 hc1 x0 x1 x2 x3 x4 xs0 xs1 = k0_pay4 x1 x0 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2, View.ld_unit_zero (S := S256x512) hz2, View.ld_unit_zero (S := S1x256) hz2]

/-- A middle point, class counts: the tile's update applied to what the point before left. -/
theorem sout0_B_1_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : ¬cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    sout0_B_1 (F := F) c i arg1 harg1 arg2 harg2 arg3 harg3 arg4 harg4 arg5 harg5 arg6 harg6 arg7 harg7 arg8 harg8 arg9 harg9 hc0 hc1 x0 x1 x2 x3 x4 xs0 xs1 = k0_pay5 x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2, View.ld_unit_zero (S := S256x512) hz2, View.ld_unit_zero (S := S1x256) hz2]

/-- The last point, class sums: the same single update as at a middle point. -/
theorem sout0_C_0_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    sout0_C_0 (F := F) c i arg1 harg1 arg2 harg2 arg3 harg3 arg4 harg4 arg5 harg5 arg6 harg6 arg7 harg7 arg8 harg8 arg9 harg9 hc0 hc1 x0 x1 x2 x3 x4 xs0 xs1 = k0_pay4 x1 x0 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2, View.ld_unit_zero (S := S256x512) hz2, View.ld_unit_zero (S := S1x256) hz2]

/-- The last point, class counts: the same single update as at a middle point. -/
theorem sout0_C_1_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    sout0_C_1 (F := F) c i arg1 harg1 arg2 harg2 arg3 harg3 arg4 harg4 arg5 harg5 arg6 harg6 arg7 harg7 arg8 harg8 arg9 harg9 hc0 hc1 x0 x1 x2 x3 x4 xs0 xs1 = k0_pay5 x1 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S2048x512) hz2, View.ld_unit_zero (S := S2048x1) hz2, View.ld_unit_zero (S := S256x512) hz2, View.ld_unit_zero (S := S1x256) hz2]

/-- The last point, the loss: the sums and counts are read back after this point's own update, so the loss is
    computed from the updated arrays; the term is the loss term by unfolding its definition. -/
theorem out0_C_5_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    out0_C_5 (F := F) c i arg1 harg1 arg2 harg2 arg3 harg3 arg4 harg4 arg5 harg5 arg6 harg6 arg7 harg7 arg8 harg8 arg9 harg9 hc0 hc1 x0 x1 x2 x3 x4 xs0 xs1 = KT.kLoss (k0_pay4 x1 x0 xs0) (k0_pay5 x1 xs1) x2 x4 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg1.read_unread, harg2.read_unread, harg3.read_unread, harg4.read_unread, harg5.read_unread, harg8.read_unread, harg9.read_unread, View.readCov_unit_zero (S := S256x512) _ hz2, View.readCov_unit_zero (S := S1x256) _ hz2, View.ld_unit_zero (S := S2048x512) hz2, View.ld_unit_zero (S := S2048x1) hz2, View.ld_unit_zero (S := S512x512) hz2, View.ld_unit_zero (S := S512x1) hz2, View.ld_unit_zero (S := S256x512) hz2, View.ld_unit_zero (S := S1x256) hz2]
  rfl

/-- The last point, the variance: it depends on the query rows and their labels only. -/
theorem out0_C_6_eq (c : Dev nD) (i : grid0.Coords) (arg1 : Memref sig .tc .vmem S2048x512 .f32) (harg1 : arg1.IsWhole) (arg2 : Memref sig .tc .vmem S2048x1 .i32) (harg2 : arg2.IsWhole) (arg3 : Memref sig .tc .vmem S512x512 .f32) (harg3 : arg3.IsWhole) (arg4 : Memref sig .tc .vmem S512x1 .i32) (harg4 : arg4.IsWhole) (arg5 : Memref sig .tc .vmem S512x1 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x512 .f32) (harg8 : arg8.IsWhole) (arg9 : Memref sig .tc .vmem S1x256 .f32) (harg9 : arg9.IsWhole) (hc0 : ¬cond0_0 i) (hc1 : cond0_1 i) (x0 : Vec F S2048x512 .f32) (x1 : Vec F S2048x1 .i32) (x2 : Vec F S512x512 .f32) (x3 : Vec F S512x1 .i32) (x4 : Vec F S512x1 .i32) (xs0 : Vec F S256x512 .f32) (xs1 : Vec F S1x256 .f32) :
    out0_C_6 (F := F) c i arg1 harg1 arg2 harg2 arg3 harg3 arg4 harg4 arg5 harg5 arg6 harg6 arg7 harg7 arg8 harg8 arg9 harg9 hc0 hc1 x0 x1 x2 x3 x4 xs0 xs1 = KT.kVar x2 x3 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  simp only [View.readAt_eq_ld, harg1.read_unread, harg2.read_unread, harg3.read_unread, harg4.read_unread, harg5.read_unread, harg8.read_unread, harg9.read_unread, View.readCov_unit_zero (S := S256x512) _ hz2, View.readCov_unit_zero (S := S1x256) _ hz2, View.ld_unit_zero (S := S2048x512) hz2, View.ld_unit_zero (S := S2048x1) hz2, View.ld_unit_zero (S := S512x512) hz2, View.ld_unit_zero (S := S512x1) hz2, View.ld_unit_zero (S := S256x512) hz2, View.ld_unit_zero (S := S1x256) hz2]
  rfl

end Cert.PP.KPieces

end
-- ==== Proof.KRun.lean ====
/-
  The idealized kernel program's run with its two results named: the loss and the variance as the terms of KTerm over
  the argument arrays (the four grid points taken one after the other, the outputs written back at the last, the two
  reshapes after the region), the arguments unchanged.
-/
import proofs.«415011_j18580028523148_3_alg».proof.Proof.Gen.KernelIdeal.Frame
import proofs.«415011_j18580028523148_3_alg».proof.Proof.KTerm
import proofs.«415011_j18580028523148_3_alg».proof.Proof.KPieces
import Idealize.ShloMosaic.Lib.Pipeline.Value
import Idealize.ShloMosaic.Lib.StableHlo.Run

noncomputable section

namespace Cert.PP.KRun

open Idealize.ShloMosaic Cert.KernelIdeal Cert.KernelIdeal.Gen Cert.PP Idealize.ShloMosaic.TcCoe Idealize.SL.Sem

section Blocks

variable {F : FTy → Type} [FloatOps F]
variable (m : (ℓ : Loc nD τ sig) → Buf (Elt F) ℓ)

/-- The five input blocks at a grid point and the five arrays the region reads, at their literal types. -/
abbrev xblk (c : Dev nD) (t : Fin cfg0.N) : Vec F S2048x512 .f32 := iblk m c 0 t
abbrev yblk (c : Dev nD) (t : Fin cfg0.N) : Vec F S2048x1 .i32 := iblk m c 1 t
abbrev qblk (c : Dev nD) (t : Fin cfg0.N) : Vec F S512x512 .f32 := iblk m c 2 t
abbrev lblk (c : Dev nD) (t : Fin cfg0.N) : Vec F S512x1 .i32 := iblk m c 3 t
abbrev nblk (c : Dev nD) (t : Fin cfg0.N) : Vec F S512x1 .i32 := iblk m c 4 t
abbrev xsArr (c : Dev nD) : Vec F S8192x512 .f32 := V m c main_arg2
abbrev ysArr (c : Dev nD) : Vec F S8192x1 .i32 := V m c main_v1
abbrev xqArr (c : Dev nD) : Vec F S512x512 .f32 := V m c main_arg0
abbrev yqArr (c : Dev nD) : Vec F S512x1 .i32 := V m c main_v2
abbrev ynArr (c : Dev nD) : Vec F S512x1 .i32 := V m c main_v3

/-- After the first grid point the two carried accumulators hold the first tile's contribution over zero. -/
theorem scr_first (c : Dev nD) (t : Fin cfg0.N) (h0 : t.val % 4 = 0) (h1 : ¬t.val % 4 = 3) :
    (outsAt0 m c t.val t.isLt).2.2.1 = k0_pay4 (yblk m c t) (xblk m c t) (k0_pay1 (F := F))
    ∧ (outsAt0 m c t.val t.isLt).2.2.2 = k0_pay5 (yblk m c t) (k0_pay2 (F := F)) := by
  rw [outsAt0_A m c t h0 h1]; dsimp only
  exact ⟨KPieces.sout0_A_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    KPieces.sout0_A_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- At a middle grid point each accumulator takes the point's tile on top of what the point before left. -/
theorem scr_mid (c : Dev nD) (t : Fin cfg0.N) (h0 : ¬t.val % 4 = 0) (h1 : ¬t.val % 4 = 3) :
    (outsAt0 m c t.val t.isLt).2.2.1 = k0_pay4 (yblk m c t) (xblk m c t) (outsAt0 m c (t.val - 1) (Nat.lt_of_le_of_lt (Nat.sub_le _ _) t.isLt)).2.2.1
    ∧ (outsAt0 m c t.val t.isLt).2.2.2 = k0_pay5 (yblk m c t) (outsAt0 m c (t.val - 1) (Nat.lt_of_le_of_lt (Nat.sub_le _ _) t.isLt)).2.2.2 := by
  rw [outsAt0_B m c t h0 h1]; dsimp only
  exact ⟨KPieces.sout0_B_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    KPieces.sout0_B_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At the last grid point the two outputs are the loss and the variance terms over the accumulators with the last
    tile added. -/
theorem out_last (c : Dev nD) (t : Fin cfg0.N) (h0 : ¬t.val % 4 = 0) (h1 : t.val % 4 = 3) :
    (outsAt0 m c t.val t.isLt).1 = KT.kLoss (k0_pay4 (yblk m c t) (xblk m c t) (outsAt0 m c (t.val - 1) (Nat.lt_of_le_of_lt (Nat.sub_le _ _) t.isLt)).2.2.1)
        (k0_pay5 (yblk m c t) (outsAt0 m c (t.val - 1) (Nat.lt_of_le_of_lt (Nat.sub_le _ _) t.isLt)).2.2.2) (qblk m c t) (nblk m c t)
    ∧ (outsAt0 m c t.val t.isLt).2.1 = KT.kVar (qblk m c t) (lblk m c t) := by
  rw [outsAt0_C m c t h0 h1]; dsimp only
  exact ⟨KPieces.out0_C_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
    KPieces.out0_C_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Blocks

section Reads

variable {F : FTy → Type} [FloatOps F]
variable (m : (ℓ : Loc nD τ sig) → Buf (Elt F) ℓ)

/-- Where the windows' blocks sit: the two tiled windows move one block down the rows per grid point, the three whole
    windows stay at the origin — decided over the grid. -/
theorem idx_tiles : ∀ t : Fin cfg0.N, win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, win0_0.index t (0 : Fin 2) = t.val ∧ win0_0.index t (1 : Fin 2) = 0
      ∧ win0_1.index t (0 : Fin 2) = t.val ∧ win0_1.index t (1 : Fin 2) = 0)
theorem idx_whole : ∀ t : Fin cfg0.N, (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = 0 ∧ win0_4.index t (1 : Fin 2) = 0) :=
  (by decide +kernel : ∀ t : Fin grid0.N, (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = 0 ∧ win0_4.index t (1 : Fin 2) = 0))

/-- The support rows' block at grid point `t` is tile `t` of the array. -/
theorem xblk_eq (c : Dev nD) (t : Fin cfg0.N) (k : Fin 4) (hk : t.val = k.val) :
    xblk m c t = KT.tileX (xsArr m c) k := by
  funext y
  unfold xblk iblk KT.tileX
  rw [View.read_apply]
  show V m c main_arg2 _ = V m c main_arg2 _
  congr 1
  funext a
  apply Fin.ext
  match a with
  | ⟨0, _⟩ => show win0_0.index t 0 * 2048 + 1 * (y 0).val = 2048 * k.val + (y 0).val; rw [(idx_tiles t).1]; omega
  | ⟨1, _⟩ => show win0_0.index t 1 * 512 + 1 * (y 1).val = (y 1).val; rw [(idx_tiles t).2.1]; omega

/-- The support labels' block at grid point `t` is tile `t` of the label column. -/
theorem yblk_eq (c : Dev nD) (t : Fin cfg0.N) (k : Fin 4) (hk : t.val = k.val) :
    yblk m c t = KT.tileY (ysArr m c) k := by
  funext y
  unfold yblk iblk KT.tileY
  rw [View.read_apply]
  show V m c main_v1 _ = V m c main_v1 _
  congr 1
  funext a
  apply Fin.ext
  match a with
  | ⟨0, _⟩ => show win0_1.index t 0 * 2048 + 1 * (y 0).val = 2048 * k.val + (y 0).val; rw [(idx_tiles t).2.2.1]; omega
  | ⟨1, _⟩ => show win0_1.index t 1 * 1 + 1 * (y 1).val = (y 1).val; rw [(idx_tiles t).2.2.2]; omega

/-- The three windows that take a whole array hold that array at every grid point. -/
theorem qblk_eq (c : Dev nD) (t : Fin cfg0.N) : qblk m c t = xqArr m c := by
  funext y
  unfold qblk iblk
  rw [View.read_apply]
  show V m c main_arg0 _ = V m c main_arg0 y
  congr 1
  funext a
  apply Fin.ext
  match a with
  | ⟨0, _⟩ => show win0_2.index t 0 * 512 + 1 * (y 0).val = (y 0).val; rw [(idx_whole t).1.1]; omega
  | ⟨1, _⟩ => show win0_2.index t 1 * 512 + 1 * (y 1).val = (y 1).val; rw [(idx_whole t).1.2]; omega
theorem lblk_eq (c : Dev nD) (t : Fin cfg0.N) : lblk m c t = yqArr m c := by
  funext y
  unfold lblk iblk
  rw [View.read_apply]
  show V m c main_v2 _ = V m c main_v2 y
  congr 1
  funext a
  apply Fin.ext
  match a with
  | ⟨0, _⟩ => show win0_3.index t 0 * 512 + 1 * (y 0).val = (y 0).val; rw [(idx_whole t).2.1.1]; omega
  | ⟨1, _⟩ => show win0_3.index t 1 * 1 + 1 * (y 1).val = (y 1).val; rw [(idx_whole t).2.1.2]; omega
theorem nblk_eq (c : Dev nD) (t : Fin cfg0.N) : nblk m c t = ynArr m c := by
  funext y
  unfold nblk iblk
  rw [View.read_apply]
  show V m c main_v3 _ = V m c main_v3 y
  congr 1
  funext a
  apply Fin.ext
  match a with
  | ⟨0, _⟩ => show win0_4.index t 0 * 512 + 1 * (y 0).val = (y 0).val; rw [(idx_whole t).2.2.1]; omega
  | ⟨1, _⟩ => show win0_4.index t 1 * 1 + 1 * (y 1).val = (y 1).val; rw [(idx_whole t).2.2.2]; omega

end Reads

section Host

variable {F : FTy → Type} [FloatOps F]
variable (m : (ℓ : Loc nD τ sig) → Buf (Elt F) ℓ)

/-- A rank-1 array reshaped to a column, read at an index: the entry at the row. -/
theorem reshape_col_apply {n : ℕ} (l : IVec ⟨1, ![n]⟩ 32) (h : (⟨1, ![n]⟩ : Shape).ShapeCasts ⟨2, ![n, 1]⟩)
    (i : (⟨2, ![n, 1]⟩ : Shape).Idx) : shapeCast ⟨2, ![n, 1]⟩ l h i = KT.col l i := by
  unfold KT.col
  refine shapeCast_apply l h i (ValueIdx.ix1 (i 0)) ?_
  rw [Shape.rowMajor_val_two, Shape.rowMajor_val_one]
  have h1 : (i 1).val < 1 := (i 1).isLt
  show (i 0).val = (i 0).val * 1 + (i 1).val
  omega

theorem xsArr_eq (c : Dev nD) : xsArr m c = m ((c : Thread nD τ).loc main_arg2) := V_main_arg2 m c
theorem xqArr_eq (c : Dev nD) : xqArr m c = m ((c : Thread nD τ).loc main_arg0) := V_main_arg0 m c

/-- The support labels as the region finds them: the argument reshaped to a column. -/
theorem ysArr_eq (c : Dev nD) : ysArr m c = KT.col (m ((c : Thread nD τ).loc main_arg3)) := by
  have e : (V m c main_v1 : S8192x1.Idx → BitVec 32)
      = fun i => shapeCast S8192x1 (m ((c : Thread nD τ).loc main_arg3)) shapeCasts_S8192_S8192x1 i := by
    dsimp only [Gen.V, Gen.V0]
    simp only [Gen.hostOps0, Gen.hostOps0_1, List.flatten_cons, List.flatten_nil, List.append_nil, List.cons_append, List.nil_append]
    after_results
    rfl
  funext i
  show V m c main_v1 i = _
  rw [e]
  exact reshape_col_apply _ _ i

/-- The query labels as the region finds them: the argument reshaped to a column. -/
theorem yqArr_eq (c : Dev nD) : yqArr m c = KT.col (m ((c : Thread nD τ).loc main_arg1)) := by
  have e : (V m c main_v2 : S512x1.Idx → BitVec 32)
      = fun i => shapeCast S512x1 (m ((c : Thread nD τ).loc main_arg1)) shapeCasts_S512_S512x1 i := by
    dsimp only [Gen.V, Gen.V0]
    simp only [Gen.hostOps0, Gen.hostOps0_1, List.flatten_cons, List.flatten_nil, List.append_nil, List.cons_append, List.nil_append]
    after_results
    rfl
  funext i
  show V m c main_v2 i = _
  rw [e]
  exact reshape_col_apply _ _ i

set_option maxHeartbeats 1600000 in
/-- The gathered labels as the region finds them: the host's take of the support labels at the positions, reshaped
    to a column. -/
theorem ynArr_eq (c : Dev nD) :
    ynArr m c = KT.col (KT.takeT (m ((c : Thread nD τ).loc main_arg3)) (m ((c : Thread nD τ).loc main_arg4))) := by
  have e : (V m c main_v3 : S512x1.Idx → BitVec 32)
      = fun i => shapeCast S512x1 (KT.takeT (m ((c : Thread nD τ).loc main_arg3)) (m ((c : Thread nD τ).loc main_arg4))) shapeCasts_S512_S512x1 i := by
    dsimp only [Gen.V, Gen.V0]
    simp only [Gen.hostOps0, Gen.hostOps0_1, List.flatten_cons, List.flatten_nil, List.append_nil, List.cons_append, List.nil_append]
    after_results_simp
    rfl
  funext i
  show V m c main_v3 i = _
  rw [e]
  exact reshape_col_apply _ _ i

end Host

section Results

variable {F : FTy → Type} [FloatOps F]
variable (m : (ℓ : Loc nD τ sig) → Buf (Elt F) ℓ)

/-- The loss block and the variance block as terms over the arrays the region reads. -/
abbrev lossBlk (c : Dev nD) : Vec F S1x1 .f32 :=
  KT.kLoss (KT.mus4 (xsArr m c) (ysArr m c)) (KT.cc4 (F := F) (ysArr m c)) (xqArr m c) (ynArr m c)
abbrev varBlk (c : Dev nD) : Vec F S1x1 .f32 := KT.kVar (xqArr m c) (yqArr m c)

/-- After the last grid point the two output blocks hold the loss and the variance over the four tiles: the
    accumulators are followed through the four points, and each block is read as a tile or a whole array. -/
theorem outs_last (c : Dev nD) :
    (outsAt0 m c t0_3.val t0_3.isLt).1 = lossBlk m c ∧ (outsAt0 m c t0_3.val t0_3.isLt).2.1 = varBlk m c := by
  have s0 := scr_first m c t0_0 (by decide) (by decide)
  have s1 := scr_mid m c t0_1 (by decide) (by decide)
  have s2 := scr_mid m c t0_2 (by decide) (by decide)
  have s3 := out_last m c t0_3 (by decide) (by decide)
  have m1 : (outsAt0 m c (t0_2.val - 1) (Nat.lt_of_le_of_lt (Nat.sub_le _ _) t0_2.isLt)).2.2.1
      = k0_pay4 (yblk m c t0_1) (xblk m c t0_1) (k0_pay4 (yblk m c t0_0) (xblk m c t0_0) (k0_pay1 (F := F))) :=
    s1.1.trans (congrArg (k0_pay4 (yblk m c t0_1) (xblk m c t0_1)) s0.1)
  have c1 : (outsAt0 m c (t0_2.val - 1) (Nat.lt_of_le_of_lt (Nat.sub_le _ _) t0_2.isLt)).2.2.2
      = k0_pay5 (yblk m c t0_1) (k0_pay5 (yblk m c t0_0) (k0_pay2 (F := F))) :=
    s1.2.trans (congrArg (k0_pay5 (yblk m c t0_1)) s0.2)
  rw [m1, c1] at s2
  have m2 : (outsAt0 m c (t0_3.val - 1) (Nat.lt_of_le_of_lt (Nat.sub_le _ _) t0_3.isLt)).2.2.1
      = k0_pay4 (yblk m c t0_2) (xblk m c t0_2) (k0_pay4 (yblk m c t0_1) (xblk m c t0_1) (k0_pay4 (yblk m c t0_0) (xblk m c t0_0) (k0_pay1 (F := F)))) := s2.1
  have c2 : (outsAt0 m c (t0_3.val - 1) (Nat.lt_of_le_of_lt (Nat.sub_le _ _) t0_3.isLt)).2.2.2
      = k0_pay5 (yblk m c t0_2) (k0_pay5 (yblk m c t0_1) (k0_pay5 (yblk m c t0_0) (k0_pay2 (F := F)))) := s2.2
  rw [m2, c2] at s3
  rw [xblk_eq m c t0_0 0 rfl, xblk_eq m c t0_1 1 rfl, xblk_eq m c t0_2 2 rfl, xblk_eq m c t0_3 3 rfl,
    yblk_eq m c t0_0 0 rfl, yblk_eq m c t0_1 1 rfl, yblk_eq m c t0_2 2 rfl, yblk_eq m c t0_3 3 rfl,
    qblk_eq m c t0_3, lblk_eq m c t0_3, nblk_eq m c t0_3] at s3
  exact s3

end Results

section Arrays

variable {F : FTy → Type} [FloatOps F]
variable (m : (ℓ : Loc nD τ sig) → Buf (Elt F) ℓ)

/-- The two result arrays of the region, each its one block. -/
abbrev lossArr (c : Dev nD) : Buf (Elt F) ((c : Thread nD τ).loc main_v4_0) := lossBlk m c
abbrev varArr (c : Dev nD) : Buf (Elt F) ((c : Thread nD τ).loc main_v4_1) := varBlk m c

/-- The one write-back of the loss window, at the last point, writes the loss block: block (0, 0) of a [1, 1] array read
    through zero offsets is the array. -/
theorem flushed5_eq (c : Dev nD) (t : Fin cfg0.N) (hf : (cfg0.win 5).flush t = true) :
    (dats m 0 c).flushed 5 t = ((cfg0.win 5).blk t).view.read (Elt F) (lossArr m c) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5, (outs_last m c).1]
  have hz' : (fun a => win0_5.index t0_3 a * main_v4_0.ty.shape.size a) = fun _ => 0 := funext fun a => by fin_cases a <;> decide
  exact (Memref.read_access_unit_zero (Elt F) main_v4_0 hz' (fun a => by rw [congrFun hz' a]; simp) (lossArr m c)).symm

theorem flushed6_eq (c : Dev nD) (t : Fin cfg0.N) (hf : (cfg0.win 6).flush t = true) :
    (dats m 0 c).flushed 6 t = ((cfg0.win 6).blk t).view.read (Elt F) (varArr m c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, (outs_last m c).2]
  have hz' : (fun a => win0_6.index t0_3 a * main_v4_1.ty.shape.size a) = fun _ => 0 := funext fun a => by fin_cases a <;> decide
  exact (Memref.read_access_unit_zero (Elt F) main_v4_1 hz' (fun a => by rw [congrFun hz' a]; simp) (varArr m c)).symm

/-- So each result array ends holding its block: the last point's block covers the array. -/
theorem final5 (c : Dev nD) : (dats m 0 c).arrAt 5 cfg0.N = lossArr m c :=
  (dats m 0 c).arrAt_eq_of_cover 5 (lossArr m c) (flushed5_eq m c) fun i =>
    ⟨t0_3, (flush0_5 t0_3).mpr (by decide), by
      show i ∈ ((View.whole main_v4_0).slice (win0_5.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 1 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 1 from by decide +kernel]; omega⟩

theorem final6 (c : Dev nD) : (dats m 0 c).arrAt 6 cfg0.N = varArr m c :=
  (dats m 0 c).arrAt_eq_of_cover 6 (varArr m c) (flushed6_eq m c) fun i =>
    ⟨t0_3, (flush0_6 t0_3).mpr (by decide), by
      show i ∈ ((View.whole main_v4_1).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1 from by decide +kernel]; omega⟩

/-- The reshape after the region: the scalar result is the block's one entry. -/
theorem tail5 (c : Dev nD) :
    Pipeline.afterTail₀ cfgs (dats m) 0 (V0 m) [hostOps1] c main_v5 = fun _ => lossArr m c (ValueIdx.ix2 (0 : Fin 1) (0 : Fin 1)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4_0)
      = lossArr m c := (Pipeline.withArrays_arr spec0 launch0.win.arr_inj c _ _ 5).trans (final5 m c)
  funext j
  refine Eq.trans (b := shapeCast S_ (lossArr m c) shapeCasts_S1x1_S_ j) ?_ ?_
  · exact congrArg (fun A : S1x1.Idx → Elt F .f32 => shapeCast S_ A shapeCasts_S1x1_S_ j) hA
  · refine shapeCast_apply _ _ j (ValueIdx.ix2 (0 : Fin 1) (0 : Fin 1)) ?_
    have hr : ((S_ : Shape).rowMajor j).val = 0 := by
      have h1 := ((S_ : Shape).rowMajor j).isLt
      have hn : (S_ : Shape).numel = 1 := by decide
      omega
    rw [Shape.rowMajor_val_two]
    refine Eq.trans ?_ hr.symm
    rfl

theorem tail6 (c : Dev nD) :
    Pipeline.afterTail₀ cfgs (dats m) 0 (V0 m) [hostOps1] c main_v6 = fun _ => varArr m c (ValueIdx.ix2 (0 : Fin 1) (0 : Fin 1)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v4_1)
      = varArr m c := (Pipeline.withArrays_arr spec0 launch0.win.arr_inj c _ _ 6).trans (final6 m c)
  funext j
  refine Eq.trans (b := shapeCast S_ (varArr m c) shapeCasts_S1x1_S_ j) ?_ ?_
  · exact congrArg (fun A : S1x1.Idx → Elt F .f32 => shapeCast S_ A shapeCasts_S1x1_S_ j) hA
  · refine shapeCast_apply _ _ j (ValueIdx.ix2 (0 : Fin 1) (0 : Fin 1)) ?_
    have hr : ((S_ : Shape).rowMajor j).val = 0 := by
      have h1 := ((S_ : Shape).rowMajor j).isLt
      have hn : (S_ : Shape).numel = 1 := by decide
      omega
    rw [Shape.rowMajor_val_two]
    refine Eq.trans ?_ hr.symm
    rfl

/-- The program's first result over its arguments. -/
theorem loss_eq (c : Dev nD) :
    Pipeline.afterTail₀ cfgs (dats m) 0 (V0 m) [hostOps1] c main_v5
      = KT.lossT (F := F) (m ((c.tc : Thread nD τ).loc main_arg0)) (m ((c.tc : Thread nD τ).loc main_arg2))
          (m ((c.tc : Thread nD τ).loc main_arg3)) (m ((c.tc : Thread nD τ).loc main_arg4)) := by
  rw [tail5]
  unfold lossArr lossBlk
  rw [xsArr_eq, ysArr_eq, xqArr_eq, ynArr_eq]
  rfl

/-- The program's second result over its arguments. -/
theorem var_eq (c : Dev nD) :
    Pipeline.afterTail₀ cfgs (dats m) 0 (V0 m) [hostOps1] c main_v6
      = KT.varT (F := F) (m ((c.tc : Thread nD τ).loc main_arg0)) (m ((c.tc : Thread nD τ).loc main_arg1)) := by
  rw [tail6]
  unfold varArr varBlk
  rw [xqArr_eq, yqArr_eq]
  rfl

end Arrays

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = KT.lossT (F := Ideal) (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_v6)
          = KT.varT (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (loss_eq m c),
      ((h c).2 main_v6 (Pipeline.mem_restRefs_of main_v6 (by decide) (by decide))).trans (var_eq m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.PP.KRun

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Consts.lean ====
/-
  The float constants the two programs spell, as the extended reals their bit patterns denote: zero, one, two, three,
  a half and its negative, minus one, 512, the f32 nearest to one tenth (`Cert.PP.tenth`), and minus infinity.
-/
import Idealize.ShloMosaic.PureOps.Ideal
import proofs.«415011_j18580028523148_3_alg».proof.Proof.Spec

noncomputable section

namespace Cert.PP.Consts

open Idealize.ShloMosaic Cert.PP

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_tenth : Ideal.ofBits .f32 0x3DCCCCCD#32 = ((tenth : ℝ) : EReal) := by
  simp [Ideal.ofBits, Ideal.ieee, tenth, -EReal.coe_mul]; norm_num

theorem ofBits_neg_inf : Ideal.ofBits .f32 0xFF800000#32 = (⊥ : EReal) := by
  simp [Ideal.ofBits, Ideal.ieee]

theorem tenth_pos : 0 < tenth := by unfold tenth; norm_num

end Cert.PP.Consts

end
-- ==== Proof.KAcc.lean ====
/-
  One tile's update of the class sums and counts, and the four tiles together: the one-hot product of a tile's labels
  with its rows adds, class by class, the rows of that class; four tiles of 2048 rows exhaust the 8192 rows.
-/
import proofs.«415011_j18580028523148_3_alg».proof.Proof.KTerm
import proofs.«415011_j18580028523148_3_alg».proof.Proof.LibIdealReal
import proofs.«415011_j18580028523148_3_alg».proof.Proof.Consts
import Idealize.ShloMosaic.Lib.ValueIdx
import Idealize.ShloMosaic.Lib.Pipeline.Value
import Idealize.ShloMosaic.PureOps.Ideal.Laws
import Idealize.ShloMosaic.Lib.StableHlo.Predicate

noncomputable section

namespace Cert.PP.KAcc

open Idealize.ShloMosaic Cert.KernelIdeal Cert.KernelIdeal.Gen Cert.PP
open Idealize.ShloMosaic.ValueIdx

/-! ## The one-hot of a tile's labels -/

/-- The compare of the label column against the class ids, at row `j` and class `c`, compares the row's label with
    the word of `c`. -/
theorem pay3_apply (lab : Fin 2048 → BitVec 32) (j : Fin 2048) (c : Fin 256) :
    k0_pay3 (F := Ideal) (labCol lab) (ix2 j c) = IntOp.cmpi .eq (lab j) (BitVec.ofNat 32 c.val) := by
  unfold k0_pay3
  show IntOp.cmpi .eq
      (broadcastTo S2048x256 (shapeCast S2048x1 (labCol lab) shapeCasts_S2048x1_S2048x1) broadcasts_S2048x1_S2048x256 (ix2 j c))
      (broadcastTo S2048x256 (iota .tc S1x256 32 [1] iota_S1x256_d1_w32) broadcasts_S1x256_S2048x256 (ix2 j c)) = _
  rw [shapeCast_self,
    broadcastTo_apply (labCol lab) broadcasts_S2048x1_S2048x256 (ix2 j c) (ix2 j (0 : Fin 1))
      (fun a => match a with | ⟨0, _⟩ => rfl | ⟨1, _⟩ => rfl),
    broadcastTo_apply (iota .tc S1x256 32 [1] iota_S1x256_d1_w32) broadcasts_S1x256_S2048x256 (ix2 j c) (ix2 (0 : Fin 1) c)
      (fun a => match a with | ⟨0, _⟩ => rfl | ⟨1, _⟩ => rfl),
    iota_single_apply]
  rfl

/-- The one-hot as a float: one where the row's label is the word of the class, zero elsewhere. -/
theorem onehot_apply (lab : Fin 2048 → BitVec 32) (j : Fin 2048) (c : Fin 256) :
    (sitofp (F := Ideal) .f32 (extui 32 (k0_pay3 (F := Ideal) (labCol lab)) natLt_1_32)) (ix2 j c)
      = if lab j = BitVec.ofNat 32 c.val then ((1 : ℝ) : EReal) else ((0 : ℝ) : EReal) := by
  rw [sitofp_apply, extui_apply, pay3_apply, IdealReal.sitofp_setWidth_bit]
  by_cases h : lab j = BitVec.ofNat 32 c.val
  · rw [if_pos h, if_pos (StableHlo.Predicate.cmpi_eq_iff.mpr h)]
  · rw [if_neg h, if_neg (fun h' => h (StableHlo.Predicate.cmpi_eq_iff.mp h'))]

/-! ## The product that contracts the rows of both operands, read at an index -/

theorem lhs_0 (i : S256x512.Idx) (q : dot_S2048x256_S2048x512_S256x512_0_0_1_1_n_n.contr.Idx) :
    (dot_S2048x256_S2048x512_S256x512_0_0_1_1_n_n.lhsIdx i q 0).val = (q ⟨0, by decide⟩).val :=
  dot_S2048x256_S2048x512_S256x512_0_0_1_1_n_n.lhsIdx_val_of_single rfl i q

theorem lhs_1 (i : S256x512.Idx) (q : dot_S2048x256_S2048x512_S256x512_0_0_1_1_n_n.contr.Idx) :
    (dot_S2048x256_S2048x512_S256x512_0_0_1_1_n_n.lhsIdx i q 1).val = (i 0).val := by
  unfold DotDims.lhsIdx
  rw [dif_neg (show ¬(1 : Fin S2048x256.rank) ∈ dot_S2048x256_S2048x512_S256x512_0_0_1_1_n_n.lhsBatch by decide),
    dif_pos (show (1 : Fin S2048x256.rank) ∈ dot_S2048x256_S2048x512_S256x512_0_0_1_1_n_n.lhsNonContracting by decide)]
  rfl

theorem rhs_0 (i : S256x512.Idx) (q : dot_S2048x256_S2048x512_S256x512_0_0_1_1_n_n.contr.Idx) :
    (dot_S2048x256_S2048x512_S256x512_0_0_1_1_n_n.rhsIdx i q 0).val = (q ⟨0, by decide⟩).val :=
  dot_S2048x256_S2048x512_S256x512_0_0_1_1_n_n.rhsIdx_val_of_single rfl i q

theorem rhs_1 (i : S256x512.Idx) (q : dot_S2048x256_S2048x512_S256x512_0_0_1_1_n_n.contr.Idx) :
    (dot_S2048x256_S2048x512_S256x512_0_0_1_1_n_n.rhsIdx i q 1).val = (i 1).val := by
  unfold DotDims.rhsIdx
  rw [dif_neg (show ¬(1 : Fin S2048x512.rank) ∈ dot_S2048x256_S2048x512_S256x512_0_0_1_1_n_n.rhsBatch by decide),
    dif_pos (show (1 : Fin S2048x512.rank) ∈ dot_S2048x256_S2048x512_S256x512_0_0_1_1_n_n.rhsNonContracting by decide)]
  rfl

/-- The product into the zero accumulator, at class `c` and coordinate `d`: the sum over the rows `k` of the left
    operand at `(k, c)` times the right operand at `(k, d)`. -/
theorem matmul_at (L : FVec Ideal S2048x256 .bf16) (R : FVec Ideal S2048x512 .bf16) (c : Fin 256) (d : Fin 512) :
    matmul dot_S2048x256_S2048x512_S256x512_0_0_1_1_n_n none L R (constant (F := Ideal) S256x512 .f32 0x00000000#32) (ix2 c d)
      = ∑ k : Fin 2048, L (ix2 k c) * R (ix2 k d) := by
  simp only [matmul]
  rw [Ideal.matmul_constant_zero_apply,
    ← Equiv.sum_comp (contrEquiv1 dot_S2048x256_S2048x512_S256x512_0_0_1_1_n_n 2048 rfl rfl).symm]
  refine Finset.sum_congr rfl fun k _ => ?_
  have hk := contrEquiv1_symm_val dot_S2048x256_S2048x512_S256x512_0_0_1_1_n_n 2048 rfl rfl k
  have el : dot_S2048x256_S2048x512_S256x512_0_0_1_1_n_n.lhsIdx (ix2 c d)
      ((contrEquiv1 dot_S2048x256_S2048x512_S256x512_0_0_1_1_n_n 2048 rfl rfl).symm k) = ix2 k c :=
    funext fun a => Fin.ext (by
      match a with
      | ⟨0, _⟩ => exact (lhs_0 _ _).trans hk
      | ⟨1, _⟩ => exact lhs_1 _ _)
  have er : dot_S2048x256_S2048x512_S256x512_0_0_1_1_n_n.rhsIdx (ix2 c d)
      ((contrEquiv1 dot_S2048x256_S2048x512_S256x512_0_0_1_1_n_n 2048 rfl rfl).symm k) = ix2 k d :=
    funext fun a => Fin.ext (by
      match a with
      | ⟨0, _⟩ => exact (rhs_0 _ _).trans hk
      | ⟨1, _⟩ => exact rhs_1 _ _)
  rw [el, er]

/-! ## One tile's update -/

theorem pay1_real : k0_pay1 (F := Ideal) = up2 (fun (_ : Fin 256) (_ : Fin 512) => (0 : ℝ)) := by
  funext i
  unfold k0_pay1
  show shapeCast S256x512 (broadcast S256x512 (Scalar.ofBits (F := Ideal) .f32 0x00000000#32)) shapeCasts_S256x512_S256x512 i = _
  rw [shapeCast_self]
  exact Consts.ofBits_zero

theorem pay2_real : k0_pay2 (F := Ideal) = upRow (fun (_ : Fin 256) => (0 : ℝ)) := by
  funext i
  unfold k0_pay2
  show shapeCast S1x256 (broadcast S1x256 (Scalar.ofBits (F := Ideal) .f32 0x00000000#32)) shapeCasts_S1x256_S1x256 i = _
  rw [shapeCast_self]
  exact Consts.ofBits_zero

/-- A one-or-zero factor selects. -/
theorem sel_mul (p : Prop) [Decidable p] (r : ℝ) :
    (if p then ((1 : ℝ) : EReal) else ((0 : ℝ) : EReal)) * ((r : ℝ) : EReal) = (((if p then r else 0) : ℝ) : EReal) := by
  by_cases h : p
  · rw [if_pos h, if_pos h, ← EReal.coe_mul, one_mul]
  · rw [if_neg h, if_neg h, ← EReal.coe_mul, zero_mul]

theorem pay4_real (lab : Fin 2048 → BitVec 32) (x : Fin 2048 → Fin 512 → ℝ) (acc : Fin 256 → Fin 512 → ℝ) :
    k0_pay4 (F := Ideal) (labCol lab) (up2 x) (up2 acc) = up2 (fun c d => acc c d + csum lab x c d) := by
  funext i
  obtain ⟨c, d, rfl⟩ : ∃ (c : Fin 256) (d : Fin 512), i = ix2 c d := ⟨i 0, i 1, eq_ix2 i⟩
  unfold k0_pay4
  show shapeCast S256x512 (addf (up2 acc)
      (matmul dot_S2048x256_S2048x512_S256x512_0_0_1_1_n_n none
        (truncf .bf16 (sitofp (F := Ideal) .f32 (extui 32 (k0_pay3 (F := Ideal) (labCol lab)) natLt_1_32)) bitsLt_bf16_f32)
        (truncf .bf16 (up2 x) bitsLt_bf16_f32) (constant (F := Ideal) S256x512 .f32 0x00000000#32)))
      shapeCasts_S256x512_S256x512 (ix2 c d) = _
  rw [shapeCast_self, addf_apply, matmul_at]
  simp only [truncf_apply, onehot_apply]
  show ((acc c d : ℝ) : EReal)
      + ∑ k : Fin 2048, (if lab k = BitVec.ofNat 32 c.val then ((1 : ℝ) : EReal) else ((0 : ℝ) : EReal)) * ((x k d : ℝ) : EReal)
    = ((acc c d + csum lab x c d : ℝ) : EReal)
  rw [Finset.sum_congr rfl (fun k _ => sel_mul (lab k = BitVec.ofNat 32 c.val) (x k d)), IdealReal.coe_sum, ← EReal.coe_add]
  rfl

/-- The column sums of a 2048 by 256 array, at column `c`. -/
theorem colsum_at (v : FVec Ideal S2048x256 .f32) (c : Fin 256) :
    multiReduction (F := Ideal) .add [0] S256 v 0x00000000#32 reduces_S2048x256_S256 (.inl rfl) rfl (ix1 c)
      = ∑ k : Fin 2048, v (ix2 k c) := by
  refine (Ideal.multiReduction_add_single v 0x00000000#32 reduces_S2048x256_S256 (.inl rfl) rfl (ix1 c)).trans ?_
  refine Finset.sum_congr rfl fun k _ => congrArg v ?_
  funext a
  match a with
  | ⟨0, _⟩ => rfl
  | ⟨1, _⟩ => rfl

theorem pay5_real (lab : Fin 2048 → BitVec 32) (acc : Fin 256 → ℝ) :
    k0_pay5 (F := Ideal) (labCol lab) (upRow acc) = upRow (fun c => acc c + cnt lab c) := by
  funext i
  obtain ⟨z, c, rfl⟩ : ∃ (z : Fin 1) (c : Fin 256), i = ix2 z c := ⟨i 0, i 1, eq_ix2 i⟩
  unfold k0_pay5
  show shapeCast S1x256 (addf (upRow acc)
      (shapeCast S1x256
        (multiReduction (F := Ideal) .add [0] S256
          (sitofp (F := Ideal) .f32 (extui 32 (k0_pay3 (F := Ideal) (labCol lab)) natLt_1_32)) 0x00000000#32
          reduces_S2048x256_S256 (.inl rfl) rfl)
        shapeCasts_S256_S1x256))
      shapeCasts_S1x256_S1x256 (ix2 z c) = _
  rw [shapeCast_self, addf_apply,
    shapeCast_apply _ shapeCasts_S256_S1x256 (ix2 z c) (ix1 c) (by
      rw [Shape.rowMajor_val_one, Shape.rowMajor_val_two]
      show c.val = z.val * 256 + c.val
      have := z.isLt
      omega),
    colsum_at]
  simp only [onehot_apply]
  show ((acc c : ℝ) : EReal)
      + ∑ k : Fin 2048, (if lab k = BitVec.ofNat 32 c.val then ((1 : ℝ) : EReal) else ((0 : ℝ) : EReal))
    = ((acc c + cnt lab c : ℝ) : EReal)
  rw [Finset.sum_congr rfl (fun k _ => IdealReal.coe_ite (p := lab k = BitVec.ofNat 32 c.val) (1 : ℝ) (0 : ℝ)),
    IdealReal.coe_sum, ← EReal.coe_add]
  rfl

/-! ## The four tiles -/

/-- Row `j` of tile `t` among the 8192 rows. -/
def row (t : Fin 4) (j : Fin 2048) : Fin 8192 :=
  ⟨2048 * t.val + j.val, by have := t.isLt; have := j.isLt; omega⟩

theorem tileX_up2 (xs : Fin 8192 → Fin 512 → ℝ) (t : Fin 4) :
    KT.tileX (F := Ideal) (up2 xs) t = up2 (fun j d => xs (row t j) d) := by
  funext y
  rfl

theorem tileY_labCol (ys : Fin 8192 → BitVec 32) (t : Fin 4) :
    KT.tileY (labCol ys) t = labCol (fun j => ys (row t j)) := by
  funext y
  rfl

/-- The 8192 rows are the four tiles of 2048 rows, one after the other. -/
def tileEquiv : Fin 4 × Fin 2048 ≃ Fin 8192 where
  toFun p := row p.1 p.2
  invFun i := (⟨i.val / 2048, by have := i.isLt; omega⟩, ⟨i.val % 2048, by omega⟩)
  left_inv p := by
    obtain ⟨t, j⟩ := p
    have ht := t.isLt
    have hj := j.isLt
    refine Prod.ext (Fin.ext ?_) (Fin.ext ?_)
    · show (2048 * t.val + j.val) / 2048 = t.val
      omega
    · show (2048 * t.val + j.val) % 2048 = j.val
      omega
  right_inv i := by
    apply Fin.ext
    show 2048 * (i.val / 2048) + i.val % 2048 = i.val
    omega

/-- A sum over the 8192 rows is the sum of the four tiles' sums. -/
theorem sum_four_tiles (f : Fin 8192 → ℝ) :
    ∑ j, f j = ∑ j, f (row 0 j) + ∑ j, f (row 1 j) + ∑ j, f (row 2 j) + ∑ j, f (row 3 j) := by
  rw [← Equiv.sum_comp tileEquiv f, Fintype.sum_prod_type, Fin.sum_univ_four]
  rfl

theorem csum_tiles (ys : Fin 8192 → BitVec 32) (xs : Fin 8192 → Fin 512 → ℝ) (c : Fin 256) (d : Fin 512) :
    csum ys xs c d
      = csum (fun j => ys (row 0 j)) (fun j e => xs (row 0 j) e) c d
        + csum (fun j => ys (row 1 j)) (fun j e => xs (row 1 j) e) c d
        + csum (fun j => ys (row 2 j)) (fun j e => xs (row 2 j) e) c d
        + csum (fun j => ys (row 3 j)) (fun j e => xs (row 3 j) e) c d := by
  unfold csum
  exact sum_four_tiles _

theorem cnt_tiles (ys : Fin 8192 → BitVec 32) (c : Fin 256) :
    cnt ys c
      = cnt (fun j => ys (row 0 j)) c + cnt (fun j => ys (row 1 j)) c
        + cnt (fun j => ys (row 2 j)) c + cnt (fun j => ys (row 3 j)) c := by
  unfold cnt
  exact sum_four_tiles _

theorem mus4_real (xs : Fin 8192 → Fin 512 → ℝ) (ys : Fin 8192 → BitVec 32) :
    KT.mus4 (F := Ideal) (up2 xs) (labCol ys) = up2 (csum ys xs) := by
  unfold KT.mus4
  rw [tileX_up2 xs 0, tileX_up2 xs 1, tileX_up2 xs 2, tileX_up2 xs 3,
    tileY_labCol ys 0, tileY_labCol ys 1, tileY_labCol ys 2, tileY_labCol ys 3,
    pay1_real, pay4_real, pay4_real, pay4_real, pay4_real]
  congr 1
  funext c d
  rw [csum_tiles ys xs c d]
  ring

theorem cc4_real (ys : Fin 8192 → BitVec 32) :
    KT.cc4 (F := Ideal) (labCol ys) = upRow (cnt ys) := by
  unfold KT.cc4
  rw [tileY_labCol ys 0, tileY_labCol ys 1, tileY_labCol ys 2, tileY_labCol ys 3,
    pay2_real, pay5_real, pay5_real, pay5_real, pay5_real]
  congr 1
  funext c
  rw [cnt_tiles ys c]
  ring

end Cert.PP.KAcc

end
-- ==== Proof.KVar.lean ====
/-
  The kernel's variance block over real query rows is the intra-class variance `varS`.
-/
import proofs.«415011_j18580028523148_3_alg».proof.Proof.KTerm
import proofs.«415011_j18580028523148_3_alg».proof.Proof.LibIdealReal
import proofs.«415011_j18580028523148_3_alg».proof.Proof.Consts
import Idealize.ShloMosaic.PureOps.Ideal.Laws
import Idealize.ShloMosaic.Lib.Pipeline.Value
import Idealize.ShloMosaic.Lib.ValueLayout
import Idealize.ShloMosaic.Lib.StableHlo.Predicate

noncomputable section

namespace Cert.PP.KVar

open Idealize.ShloMosaic Idealize.ShloMosaic.ValueIdx Cert.KernelIdeal Cert.KernelIdeal.Gen Cert.PP

/-- The one-hot entry as a real number: 1 when the label of row `b` names class `c`, else 0. -/
def oh (yq : Fin 512 → BitVec 32) (b : Fin 512) (c : Fin 256) : ℝ :=
  if yq b = BitVec.ofNat 32 c.val then 1 else 0

/-- The class-id row reads its column coordinate. -/
theorem cls_apply (u : Fin 1) (c : Fin 256) : KT.cls (ix2 u c) = BitVec.ofNat 32 c.val := by
  unfold KT.cls
  rw [iota_single_apply]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block at an index. -/
theorem pay9_apply (yq : Fin 512 → BitVec 32) (b : Fin 512) (c : Fin 256) :
    k0_pay9 (F := Ideal) KT.cls (labCol yq) (ix2 b c) = ((oh yq b c : ℝ) : EReal) := by
  unfold k0_pay9
  rw [sitofp_apply, extui_apply, shapeCast_self, IdealReal.sitofp_setWidth_bit]
  show (if IntOp.cmpi .eq (broadcastTo S512x256 (labCol yq) broadcasts_S512x1_S512x256 (ix2 b c))
      (broadcastTo S512x256 KT.cls broadcasts_S1x256_S512x256 (ix2 b c)) = 1#1 then _ else _) = _
  rw [broadcastTo_a1_ab_apply, broadcastTo_1b_ab_apply, cls_apply]
  simp only [StableHlo.Predicate.cmpi_eq_iff]
  rw [IdealReal.coe_ite]
  rfl

/-- The one-hot block over real inputs is the embedded one-hot matrix. -/
theorem pay9_real (yq : Fin 512 → BitVec 32) :
    k0_pay9 (F := Ideal) KT.cls (labCol yq) = up2 (oh yq) := by
  funext i
  obtain ⟨b, c, rfl⟩ : ∃ (b : Fin 512) (c : Fin 256), i = ix2 b c := ⟨i 0, i 1, eq_ix2 i⟩
  exact pay9_apply yq b c

/-- A column sum of a `512 × 256` block, read at a column. -/
theorem colsum_apply (src : FVec Ideal S512x256 .f32) (h : S512x256.Reduces [0] S256) (hφ : FKind.Formats .f32)
    (hacc : (0x00000000#32 : BitVec 32) = 0x00000000#32) (c : Fin 256) :
    multiReduction .add [0] S256 src 0x00000000#32 h hφ hacc (ix1 c) = ∑ b : Fin 512, src (ix2 b c) := by
  refine (Ideal.multiReduction_add_single src 0x00000000#32 h hφ hacc (ix1 c)).trans ?_
  refine Finset.sum_congr rfl fun b _ => congrArg src ?_
  funext a
  apply Fin.ext
  match a with
  | ⟨0, _⟩ => rfl
  | ⟨1, _⟩ => rfl

/-- The counts row: the column sums of the one-hot block are the class counts. -/
theorem pay10_real (yq : Fin 512 → BitVec 32) :
    k0_pay10 (F := Ideal) KT.cls (labCol yq) = upRow (cnt yq) := by
  funext i
  obtain ⟨u, c, rfl⟩ : ∃ (u : Fin 1) (c : Fin 256), i = ix2 u c := ⟨i 0, i 1, eq_ix2 i⟩
  unfold k0_pay10
  rw [shapeCast_a_1a_apply, colsum_apply, pay9_real]
  show (∑ b : Fin 512, ((oh yq b c : ℝ) : EReal)) = ((cnt yq c : ℝ) : EReal)
  rw [IdealReal.coe_sum]
  rfl

/-- The validity row: 1 for a class of at least three rows, else 0. -/
def valid (yq : Fin 512 → BitVec 32) (c : Fin 256) : ℝ := if 3 ≤ cnt yq c then 1 else 0

theorem pay11_real (yq : Fin 512 → BitVec 32) :
    k0_pay11 (F := Ideal) KT.cls (labCol yq) = upRow (valid yq) := by
  funext i
  obtain ⟨u, c, rfl⟩ : ∃ (u : Fin 1) (c : Fin 256), i = ix2 u c := ⟨i 0, i 1, eq_ix2 i⟩
  unfold k0_pay11
  rw [sitofp_apply, extui_apply, cmpf_apply, broadcast_apply, pay10_real, IdealReal.sitofp_setWidth_bit]
  show (if Ideal.cmp .oge ((cnt yq c : ℝ) : EReal) (Ideal.ofBits .f32 0x40400000#32) = 1#1 then _ else _) = _
  rw [Consts.ofBits_three, IdealReal.cmp_oge_coe]
  unfold upRow valid
  by_cases h : (3 : ℝ) ≤ cnt yq c
  · simp [h]
  · simp [h]

/-- The product `Aᵀ·X` (both row axes contracted) into the zero block, read at `(c, d)`. -/
theorem matmulT_apply (A : FVec Ideal S512x256 .bf16) (X : FVec Ideal S512x512 .bf16) (c : Fin 256) (d : Fin 512) :
    matmul dot_S512x256_S512x512_S256x512_0_0_1_1_n_n none A X (constant (F := Ideal) S256x512 .f32 0x00000000#32) (ix2 c d)
      = ∑ b : Fin 512, A (ix2 b c) * X (ix2 b d) := by
  show FloatOps.matmul _ none A X _ (ix2 c d) = _
  rw [Ideal.matmul_constant_zero_apply,
    ← Equiv.sum_comp (contrEquiv1 dot_S512x256_S512x512_S256x512_0_0_1_1_n_n 512 rfl rfl).symm]
  refine Finset.sum_congr rfl fun b _ => ?_
  have c2 := contrEquiv1_symm_val dot_S512x256_S512x512_S256x512_0_0_1_1_n_n 512 rfl rfl b
  have l2 : dot_S512x256_S512x512_S256x512_0_0_1_1_n_n.lhsIdx (ix2 c d)
      ((contrEquiv1 _ 512 rfl rfl).symm b) = ix2 b c := by
    funext ax; apply Fin.ext
    match ax with
    | ⟨0, _⟩ => simp [DotDims.lhsIdx, dot_S512x256_S512x512_S256x512_0_0_1_1_n_n]; exact c2
    | ⟨1, _⟩ => simp [DotDims.lhsIdx, dot_S512x256_S512x512_S256x512_0_0_1_1_n_n]; rfl
  have r2 : dot_S512x256_S512x512_S256x512_0_0_1_1_n_n.rhsIdx (ix2 c d)
      ((contrEquiv1 _ 512 rfl rfl).symm b) = ix2 b d := by
    funext ax; apply Fin.ext
    match ax with
    | ⟨0, _⟩ => simp [DotDims.rhsIdx, dot_S512x256_S512x512_S256x512_0_0_1_1_n_n]; exact c2
    | ⟨1, _⟩ => simp [DotDims.rhsIdx, dot_S512x256_S512x512_S256x512_0_0_1_1_n_n]; rfl
  rw [l2, r2]

/-- The product `A·M` (columns of `A` against rows of `M`) into the zero block, read at `(b, d)`. -/
theorem matmulG_apply (A : FVec Ideal S512x256 .bf16) (M : FVec Ideal S256x512 .bf16) (b : Fin 512) (d : Fin 512) :
    matmul dot_S512x256_S256x512_S512x512_1_0_0_1_n_n none A M (constant (F := Ideal) S512x512 .f32 0x00000000#32) (ix2 b d)
      = ∑ c : Fin 256, A (ix2 b c) * M (ix2 c d) := by
  show FloatOps.matmul _ none A M _ (ix2 b d) = _
  rw [Ideal.matmul_constant_zero_apply,
    ← Equiv.sum_comp (contrEquiv1 dot_S512x256_S256x512_S512x512_1_0_0_1_n_n 256 rfl rfl).symm]
  refine Finset.sum_congr rfl fun c _ => ?_
  have c2 := contrEquiv1_symm_val dot_S512x256_S256x512_S512x512_1_0_0_1_n_n 256 rfl rfl c
  have l2 : dot_S512x256_S256x512_S512x512_1_0_0_1_n_n.lhsIdx (ix2 b d)
      ((contrEquiv1 _ 256 rfl rfl).symm c) = ix2 b c := by
    funext ax; apply Fin.ext
    match ax with
    | ⟨0, _⟩ => simp [DotDims.lhsIdx, dot_S512x256_S256x512_S512x512_1_0_0_1_n_n]; rfl
    | ⟨1, _⟩ => simp [DotDims.lhsIdx, dot_S512x256_S256x512_S512x512_1_0_0_1_n_n]; exact c2
  have r2 : dot_S512x256_S256x512_S512x512_1_0_0_1_n_n.rhsIdx (ix2 b d)
      ((contrEquiv1 _ 256 rfl rfl).symm c) = ix2 c d := by
    funext ax; apply Fin.ext
    match ax with
    | ⟨0, _⟩ => simp [DotDims.rhsIdx, dot_S512x256_S256x512_S512x512_1_0_0_1_n_n]; exact c2
    | ⟨1, _⟩ => simp [DotDims.rhsIdx, dot_S512x256_S256x512_S512x512_1_0_0_1_n_n]; rfl
  rw [l2, r2]

/-- A row sum of a `512 × 512` block, read at a row. -/
theorem rowsum_apply (src : FVec Ideal S512x512 .f32) (h : S512x512.Reduces [1] S512) (hφ : FKind.Formats .f32)
    (hacc : (0x00000000#32 : BitVec 32) = 0x00000000#32) (b : Fin 512) :
    multiReduction .add [1] S512 src 0x00000000#32 h hφ hacc (ix1 b) = ∑ d : Fin 512, src (ix2 b d) := by
  refine (Ideal.multiReduction_add_single src 0x00000000#32 h hφ hacc (ix1 b)).trans ?_
  refine Finset.sum_congr rfl fun d _ => congrArg src ?_
  funext a
  apply Fin.ext
  match a with
  | ⟨0, _⟩ => rfl
  | ⟨1, _⟩ => rfl

/-- The sum along a `1 × 256` row, read at its one index. -/
theorem lanesum_apply (src : FVec Ideal S1x256 .f32) (h : S1x256.Reduces [1] S1) (hφ : FKind.Formats .f32)
    (hacc : (0x00000000#32 : BitVec 32) = 0x00000000#32) (u : Fin 1) :
    multiReduction .add [1] S1 src 0x00000000#32 h hφ hacc (ix1 u) = ∑ c : Fin 256, src (ix2 u c) := by
  refine (Ideal.multiReduction_add_single src 0x00000000#32 h hφ hacc (ix1 u)).trans ?_
  refine Finset.sum_congr rfl fun c _ => congrArg src ?_
  funext a
  apply Fin.ext
  match a with
  | ⟨0, _⟩ => rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A real column embedded in the extended reals. -/
def upCol {a : ℕ} (x : Fin a → ℝ) : (⟨2, ![a, 1]⟩ : Shape).Idx → EReal := fun i => ((x (i 0) : ℝ) : EReal)

/-- The class sums: the one-hot block transposed against the rows. -/
theorem stage_sums (OH : Fin 512 → Fin 256 → ℝ) (X : Fin 512 → Fin 512 → ℝ) :
    matmul dot_S512x256_S512x512_S256x512_0_0_1_1_n_n none (truncf (F := Ideal) (φ := .f32) .bf16 (up2 OH) bitsLt_bf16_f32)
        (k0_pay8 (F := Ideal) (up2 X)) (constant (F := Ideal) S256x512 .f32 0x00000000#32)
      = up2 (fun c d => ∑ b, OH b c * X b d) := by
  funext i
  obtain ⟨c, d, rfl⟩ : ∃ (c : Fin 256) (d : Fin 512), i = ix2 c d := ⟨i 0, i 1, eq_ix2 i⟩
  rw [matmulT_apply]
  unfold k0_pay8
  simp only [truncf_apply]
  show (∑ b : Fin 512, ((OH b c : ℝ) : EReal) * ((X b d : ℝ) : EReal)) = ((∑ b, OH b c * X b d : ℝ) : EReal)
  simp only [← EReal.coe_mul]
  rw [IdealReal.coe_sum]

/-- The class means: each class sum over the larger of the class count and one. -/
theorem stage_mean (S : Fin 256 → Fin 512 → ℝ) (n : Fin 256 → ℝ) :
    divf (F := Ideal) (φ := .f32) (up2 S)
        (broadcastTo S256x512
          (maximumf (F := Ideal) (φ := .f32) (transpose S256x1 [1, 0] (upRow n) transposes_S1x256_p1_0_S256x1)
            (broadcast S256x1 (Scalar.ofBits (F := Ideal) .f32 0x3F800000#32)))
          broadcasts_S256x1_S256x512)
      = up2 (fun c d => S c d / max (n c) 1) := by
  funext i
  obtain ⟨c, d, rfl⟩ : ∃ (c : Fin 256) (d : Fin 512), i = ix2 c d := ⟨i 0, i 1, eq_ix2 i⟩
  rw [divf_apply, broadcastTo_a1_ab_apply, maximumf_apply, transpose_ix2_apply, broadcast_apply]
  show Ideal.div ((S c d : ℝ) : EReal) (max ((n c : ℝ) : EReal) (Ideal.ofBits .f32 0x3F800000#32)) = _
  rw [Consts.ofBits_one, IdealReal.max_coe,
    IdealReal.div_coe_coe _ _ (ne_of_gt (lt_of_lt_of_le one_pos (le_max_right _ _)))]
  rfl

/-- The gathered means: the one-hot block against the means, the means taken as a high part and a low part whose
    low part, the mean less itself, is zero over the reals. -/
theorem stage_gather (OH : Fin 512 → Fin 256 → ℝ) (M : Fin 256 → Fin 512 → ℝ) :
    addf (F := Ideal) (φ := .f32)
        (matmul dot_S512x256_S256x512_S512x512_1_0_0_1_n_n none (truncf (F := Ideal) (φ := .f32) .bf16 (up2 OH) bitsLt_bf16_f32)
          (truncf (F := Ideal) (φ := .f32) .bf16 (up2 M) bitsLt_bf16_f32) (constant (F := Ideal) S512x512 .f32 0x00000000#32))
        (matmul dot_S512x256_S256x512_S512x512_1_0_0_1_n_n none (truncf (F := Ideal) (φ := .f32) .bf16 (up2 OH) bitsLt_bf16_f32)
          (truncf (F := Ideal) (φ := .f32) .bf16 (subf (F := Ideal) (φ := .f32) (up2 M) (up2 M)) bitsLt_bf16_f32)
          (constant (F := Ideal) S512x512 .f32 0x00000000#32))
      = up2 (fun b d => ∑ c, OH b c * M c d) := by
  funext i
  obtain ⟨b, d, rfl⟩ : ∃ (b : Fin 512) (d : Fin 512), i = ix2 b d := ⟨i 0, i 1, eq_ix2 i⟩
  rw [addf_apply, matmulG_apply, matmulG_apply]
  simp only [truncf_apply, subf_apply]
  show (∑ c : Fin 256, ((OH b c : ℝ) : EReal) * ((M c d : ℝ) : EReal))
      + (∑ c : Fin 256, ((OH b c : ℝ) : EReal) * (((M c d : ℝ) : EReal) - ((M c d : ℝ) : EReal)))
      = ((∑ c, OH b c * M c d : ℝ) : EReal)
  simp only [← EReal.coe_sub, sub_self, ← EReal.coe_mul, mul_zero]
  rw [IdealReal.coe_sum, IdealReal.coe_sum, ← EReal.coe_add]
  simp

/-- The squared distance of each row to its gathered mean, laid out as a column. -/
theorem stage_d2 (X G : Fin 512 → Fin 512 → ℝ) (hφ : FKind.Formats .f32)
    (hacc : (0x00000000#32 : BitVec 32) = 0x00000000#32) :
    shapeCast S512x1
        (multiReduction .add [1] S512
          (mulf (F := Ideal) (φ := .f32) (subf (F := Ideal) (φ := .f32) (up2 X) (up2 G)) (subf (F := Ideal) (φ := .f32) (up2 X) (up2 G)))
          0x00000000#32 reduces_S512x512_S512 hφ hacc)
        shapeCasts_S512_S512x1
      = upCol (fun b => ∑ d, (X b d - G b d) * (X b d - G b d)) := by
  funext i
  obtain ⟨b, u, rfl⟩ : ∃ (b : Fin 512) (u : Fin 1), i = ix2 b u := ⟨i 0, i 1, eq_ix2 i⟩
  rw [shapeCast_a_a1_apply, rowsum_apply]
  simp only [mulf_apply, subf_apply]
  show (∑ d : Fin 512, (((X b d : ℝ) : EReal) - ((G b d : ℝ) : EReal)) * (((X b d : ℝ) : EReal) - ((G b d : ℝ) : EReal)))
      = ((∑ d, (X b d - G b d) * (X b d - G b d) : ℝ) : EReal)
  simp only [← EReal.coe_sub, ← EReal.coe_mul]
  rw [IdealReal.coe_sum]

/-- The per-class sums of the rows' squared distances, the one-hot block selecting each class's rows. -/
theorem stage_seg (OH : Fin 512 → Fin 256 → ℝ) (D : Fin 512 → ℝ) (hφ : FKind.Formats .f32)
    (hacc : (0x00000000#32 : BitVec 32) = 0x00000000#32) :
    shapeCast S1x256
        (multiReduction .add [0] S256
          (mulf (F := Ideal) (φ := .f32) (up2 OH) (broadcastTo S512x256 (upCol D) broadcasts_S512x1_S512x256))
          0x00000000#32 reduces_S512x256_S256 hφ hacc)
        shapeCasts_S256_S1x256
      = upRow (fun c => ∑ b, OH b c * D b) := by
  funext i
  obtain ⟨u, c, rfl⟩ : ∃ (u : Fin 1) (c : Fin 256), i = ix2 u c := ⟨i 0, i 1, eq_ix2 i⟩
  rw [shapeCast_a_1a_apply, colsum_apply]
  simp only [mulf_apply, broadcastTo_a1_ab_apply]
  show (∑ b : Fin 512, ((OH b c : ℝ) : EReal) * ((D b : ℝ) : EReal)) = ((∑ b, OH b c * D b : ℝ) : EReal)
  simp only [← EReal.coe_mul]
  rw [IdealReal.coe_sum]

/-- The product of two real rows. -/
theorem stage_mul (v s : Fin 256 → ℝ) :
    mulf (F := Ideal) (φ := .f32) (upRow v) (upRow s) = upRow (fun c => v c * s c) := by
  funext i
  rw [mulf_apply]
  show ((v (i 1) : ℝ) : EReal) * ((s (i 1) : ℝ) : EReal) = ((v (i 1) * s (i 1) : ℝ) : EReal)
  rw [EReal.coe_mul]

/-- Distinct classes have distinct label words. -/
theorem ofNat_inj (c c' : Fin 256) : BitVec.ofNat 32 c.val = BitVec.ofNat 32 c'.val ↔ c = c' := by
  constructor
  · intro h
    have h' := congrArg BitVec.toNat h
    rw [BitVec.toNat_ofNat, BitVec.toNat_ofNat,
      Nat.mod_eq_of_lt (lt_trans c.isLt (by norm_num)), Nat.mod_eq_of_lt (lt_trans c'.isLt (by norm_num))] at h'
    exact Fin.ext h'
  · rintro rfl; rfl

/-- A row whose label names class `c` picks, out of a sum over the classes weighted by its one-hot row, the term of `c`. -/
theorem gather_pick (yq : Fin 512 → BitVec 32) (b : Fin 512) (c : Fin 256) (h : yq b = BitVec.ofNat 32 c.val)
    (f : Fin 256 → ℝ) : ∑ c', oh yq b c' * f c' = f c := by
  have e : ∀ c', oh yq b c' * f c' = if c' = c then f c' else 0 := by
    intro c'
    unfold oh
    rw [h]
    simp only [ofNat_inj]
    by_cases hc : c = c'
    · subst hc; simp
    · rw [if_neg hc, if_neg (fun h' => hc h'.symm), zero_mul]
  simp only [e, Finset.sum_ite_eq', Finset.mem_univ, if_true]

/-- The class sums written with the one-hot weights are the class sums. -/
theorem csum_oh (xq : Fin 512 → Fin 512 → ℝ) (yq : Fin 512 → BitVec 32) (c : Fin 256) (d : Fin 512) :
    ∑ b, oh yq b c * xq b d = csum yq xq c d := by
  unfold csum
  refine Finset.sum_congr rfl fun b _ => ?_
  unfold oh
  split_ifs <;> simp

/-- The mean of class `c`, coordinate `d`: the class sum over the larger of the class count and one. -/
def mqK (xq : Fin 512 → Fin 512 → ℝ) (yq : Fin 512 → BitVec 32) (c : Fin 256) (d : Fin 512) : ℝ :=
  csum yq xq c d / max (cnt yq c) 1

/-- The squared distances to the class mean, summed over the rows of class `c`. -/
def segK (xq : Fin 512 → Fin 512 → ℝ) (yq : Fin 512 → BitVec 32) (c : Fin 256) : ℝ :=
  ∑ b, if yq b = BitVec.ofNat 32 c.val then ∑ d, (xq b d - mqK xq yq c d) ^ 2 else 0

/-- For a row of class `c` the gathered mean is the mean of `c`, so the one-hot weighted sum of the rows' squared
    distances to their gathered means is the sum over the rows of `c` of the squared distances to the mean of `c`;
    a row whose label names no class, or another class, contributes nothing. -/
theorem seg_oh (xq : Fin 512 → Fin 512 → ℝ) (yq : Fin 512 → BitVec 32) (c : Fin 256) :
    (∑ b, oh yq b c * ∑ d,
        (xq b d - ∑ c', oh yq b c' * ((∑ b', oh yq b' c' * xq b' d) / max (cnt yq c') 1)) *
          (xq b d - ∑ c', oh yq b c' * ((∑ b', oh yq b' c' * xq b' d) / max (cnt yq c') 1)))
      = segK xq yq c := by
  unfold segK
  refine Finset.sum_congr rfl fun b _ => ?_
  by_cases h : yq b = BitVec.ofNat 32 c.val
  · have e1 : oh yq b c = 1 := if_pos h
    rw [if_pos h, e1, one_mul]
    refine Finset.sum_congr rfl fun d _ => ?_
    rw [gather_pick yq b c h (fun c' => (∑ b', oh yq b' c' * xq b' d) / max (cnt yq c') 1), csum_oh, ← pow_two]
    rfl
  · have e0 : oh yq b c = 0 := if_neg h
    rw [if_neg h, e0, zero_mul]

theorem pay12_real (xq : Fin 512 → Fin 512 → ℝ) (yq : Fin 512 → BitVec 32) :
    k0_pay12 (F := Ideal) KT.cls (up2 xq) (labCol yq) = upRow (fun c => valid yq c * segK xq yq c) := by
  unfold k0_pay12
  rw [pay9_real, pay10_real, pay11_real]
  dsimp only
  rw [stage_sums, stage_mean, stage_gather, stage_d2, stage_seg, stage_mul]
  simp only [seg_oh]

theorem pay13_real (a v w : Fin 256 → ℝ) :
    k0_pay13 (F := Ideal) (upRow a) (upRow v) (upRow w)
      = fun _ => (((if 0 < ∑ c, v c * a c then (∑ c, w c) / max (∑ c, v c * a c) 1 else 0) : ℝ) : EReal) := by
  unfold k0_pay13
  funext i
  obtain ⟨u, u', rfl⟩ : ∃ (u : Fin 1) (u' : Fin 1), i = ix2 u u' := ⟨i 0, i 1, eq_ix2 i⟩
  rw [select_apply, divf_apply, cmpf_apply, maximumf_apply]
  simp only [broadcast_apply, shapeCast_a_a1_apply]
  rw [lanesum_apply, lanesum_apply]
  have hn : (∑ c : Fin 256, mulf (F := Ideal) (φ := .f32) (upRow v) (upRow a) (ix2 u c)) = ((∑ c, v c * a c : ℝ) : EReal) := by
    simp only [mulf_apply]
    show (∑ c : Fin 256, ((v c : ℝ) : EReal) * ((a c : ℝ) : EReal)) = _
    simp only [← EReal.coe_mul]
    rw [IdealReal.coe_sum]
  have ht : (∑ c : Fin 256, upRow w (ix2 u c)) = ((∑ c, w c : ℝ) : EReal) := by
    show (∑ c : Fin 256, ((w c : ℝ) : EReal)) = _
    rw [IdealReal.coe_sum]
  rw [hn, ht]
  show Scalar.select (Ideal.cmp .ogt ((∑ c, v c * a c : ℝ) : EReal) (Ideal.ofBits .f32 0x00000000#32))
      (Ideal.div ((∑ c, w c : ℝ) : EReal) (max ((∑ c, v c * a c : ℝ) : EReal) (Ideal.ofBits .f32 0x3F800000#32)))
      (Ideal.ofBits .f32 0x00000000#32) = _
  rw [Consts.ofBits_zero, Consts.ofBits_one, IdealReal.cmp_ogt_coe, IdealReal.max_coe,
    IdealReal.div_coe_coe _ _ (ne_of_gt (lt_of_lt_of_le one_pos (le_max_right _ _)))]
  by_cases h : 0 < ∑ c, v c * a c
  · rw [if_pos h, if_pos h, select_one]
  · rw [if_neg h, if_neg h, select_zero]

/-- A product with the validity bit keeps the factor for a class of at least three rows and is zero otherwise. -/
theorem valid_mul (yq : Fin 512 → BitVec 32) (c : Fin 256) (t : ℝ) :
    valid yq c * t = if 3 ≤ cnt yq c then t else 0 := by
  unfold valid
  split_ifs <;> simp

theorem kVar_real (xq : Fin 512 → Fin 512 → ℝ) (yq : Fin 512 → BitVec 32) :
    KT.kVar (F := Ideal) (up2 xq) (labCol yq) = fun _ => ((varS xq yq : ℝ) : EReal) := by
  unfold KT.kVar
  rw [pay10_real, pay11_real, pay12_real, pay13_real]
  funext _
  refine congrArg (fun r : ℝ => (r : EReal)) ?_
  unfold varS
  simp only [valid_mul, segK, mqK]

end Cert.PP.KVar

end
-- ==== Proof.KOff.lean ====
/-
  The kernel's off-class logits: the squared distance to a class mean, written out as
  |x|² − 2 x·μ + |μ|², is the sum of the squared differences.
-/
import proofs.«415011_j18580028523148_3_alg».proof.Proof.KTerm
import proofs.«415011_j18580028523148_3_alg».proof.Proof.LibIdealReal
import proofs.«415011_j18580028523148_3_alg».proof.Proof.Consts
import Idealize.ShloMosaic.PureOps.Ideal.Laws
import Idealize.ShloMosaic.Lib.Pipeline.Value
import Idealize.ShloMosaic.Lib.ValueLayout

noncomputable section

namespace Cert.PP.KOff

open Idealize.ShloMosaic Cert.KernelIdeal Cert.KernelIdeal.Gen Cert.PP
open Idealize.ShloMosaic.ValueIdx

/-! ## Layout operations on columns, read at an index -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A sum along the rows, and the product of a matrix with a transposed matrix, read at an index -/

/-- The sum over axis 1 of an `[a, b]` array reads, at `r`, the sum of row `r`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

theorem lhs_dot_0 (j : S512x256.Idx) (k : dot_S512x512_S256x512_S512x256_1_1_0_0_n_n.contr.Idx) :
    (dot_S512x512_S256x512_S512x256_1_1_0_0_n_n.lhsIdx j k 0).val = (j 0).val := by
  unfold DotDims.lhsIdx
  rw [dif_neg (show ¬(0 : Fin S512x512.rank) ∈ dot_S512x512_S256x512_S512x256_1_1_0_0_n_n.lhsBatch by decide),
    dif_pos (show (0 : Fin S512x512.rank) ∈ dot_S512x512_S256x512_S512x256_1_1_0_0_n_n.lhsNonContracting by decide)]
  rfl

theorem lhs_dot_1 (j : S512x256.Idx) (k : dot_S512x512_S256x512_S512x256_1_1_0_0_n_n.contr.Idx) :
    (dot_S512x512_S256x512_S512x256_1_1_0_0_n_n.lhsIdx j k 1).val = (k ⟨0, by decide⟩).val :=
  DotDims.lhsIdx_val_of_single (d := dot_S512x512_S256x512_S512x256_1_1_0_0_n_n) (cl := 1) rfl j k

theorem rhs_dot_0 (j : S512x256.Idx) (k : dot_S512x512_S256x512_S512x256_1_1_0_0_n_n.contr.Idx) :
    (dot_S512x512_S256x512_S512x256_1_1_0_0_n_n.rhsIdx j k 0).val = (j 1).val := by
  unfold DotDims.rhsIdx
  rw [dif_neg (show ¬(0 : Fin S256x512.rank) ∈ dot_S512x512_S256x512_S512x256_1_1_0_0_n_n.rhsBatch by decide),
    dif_pos (show (0 : Fin S256x512.rank) ∈ dot_S512x512_S256x512_S512x256_1_1_0_0_n_n.rhsNonContracting by decide)]
  rfl

theorem rhs_dot_1 (j : S512x256.Idx) (k : dot_S512x512_S256x512_S512x256_1_1_0_0_n_n.contr.Idx) :
    (dot_S512x512_S256x512_S512x256_1_1_0_0_n_n.rhsIdx j k 1).val = (k ⟨0, by decide⟩).val :=
  DotDims.rhsIdx_val_of_single (d := dot_S512x512_S256x512_S512x256_1_1_0_0_n_n) (cr := 1) rfl j k

/-- The product of `l` with the transpose of `r`, from a zero accumulator, reads at `(b, c)` the inner product of row
    `b` of `l` and row `c` of `r`. -/
theorem cross_apply (l : FVec Ideal S512x512 .bf16) (r : FVec Ideal S256x512 .bf16) (b : Fin 512) (c : Fin 256) :
    matmul dot_S512x512_S256x512_S512x256_1_1_0_0_n_n none l r (constant (F := Ideal) S512x256 .f32 0x00000000#32) (ix2 b c)
      = ∑ k : Fin 512, l (ix2 b k) * r (ix2 c k) := by
  refine (Ideal.matmul_constant_zero_apply dot_S512x512_S256x512_S512x256_1_1_0_0_n_n none l r (ix2 b c)).trans ?_
  rw [← Equiv.sum_comp (contrEquiv1 dot_S512x512_S256x512_S512x256_1_1_0_0_n_n 512 rfl rfl).symm]
  refine Finset.sum_congr rfl fun k _ => ?_
  congr 1
  · refine congrArg l (funext fun a => Fin.ext ?_)
    match a with
    | ⟨0, _⟩ => exact lhs_dot_0 _ _
    | ⟨1, _⟩ => exact (lhs_dot_1 _ _).trans (contrEquiv1_symm_val dot_S512x512_S256x512_S512x256_1_1_0_0_n_n 512 rfl rfl k)
  · refine congrArg r (funext fun a => Fin.ext ?_)
    match a with
    | ⟨0, _⟩ => exact rhs_dot_0 _ _
    | ⟨1, _⟩ => exact (rhs_dot_1 _ _).trans (contrEquiv1_symm_val dot_S512x512_S256x512_S512x256_1_1_0_0_n_n 512 rfl rfl k)

/-! ## The embeddings at an index -/

theorem up2_ix2 {a b : ℕ} (x : Fin a → Fin b → ℝ) (p : Fin a) (q : Fin b) : up2 x (ix2 p q) = ((x p q : ℝ) : EReal) := rfl
theorem upRow_ix2 {b : ℕ} (x : Fin b → ℝ) (u : Fin 1) (q : Fin b) : upRow x (ix2 u q) = ((x q : ℝ) : EReal) := rfl

/-! ## The scalar steps -/

theorem ofBits_ideal (φ : FTy) (w : BitVec φ.bits) : (FloatOps.ofBits (F := Ideal) φ w) = Ideal.ofBits φ w := rfl

/-- The compare `x > y` of two reals, widened and converted, is the real 1 or 0. -/
theorem gate_coe (x y : ℝ) :
    FloatOps.sitofp (F := Ideal) .f32 (BitVec.setWidth 32 (Ideal.cmp .ogt (x : EReal) (y : EReal)))
      = (((if y < x then 1 else 0 : ℝ)) : EReal) := by
  rw [IdealReal.cmp_ogt_coe, IdealReal.sitofp_setWidth_bit]
  by_cases h : y < x
  · rw [if_pos h, if_pos rfl, if_pos h]
  · rw [if_neg h, if_neg (by decide), if_neg h]

/-- The squared distance written out: Σ (x − μ)² = Σ x² − 2 Σ x μ + Σ μ². -/
theorem sq_dist_expand (x μ : Fin 512 → ℝ) :
    ∑ d, (x d - μ d) ^ 2 = ∑ d, x d * x d - 2 * ∑ d, x d * μ d + ∑ d, μ d * μ d := by
  rw [Finset.mul_sum, ← Finset.sum_sub_distrib, ← Finset.sum_add_distrib]
  exact Finset.sum_congr rfl fun d _ => by ring

theorem pay14_real (cc : Fin 256 → ℝ) (mus : Fin 256 → Fin 512 → ℝ) (xq : Fin 512 → Fin 512 → ℝ) :
    k0_pay14 (F := Ideal) (up2 mus) (upRow cc) (up2 xq) (k0_pay8 (F := Ideal) (up2 xq)) = up2 (offS cc mus xq) := by
  funext i
  obtain ⟨b, c, rfl⟩ : ∃ (b : Fin 512) (c : Fin 256), i = ix2 b c := ⟨i 0, i 1, eq_ix2 i⟩
  -- the divisor of the class mean is positive
  have hne : max (cc c) tenth ≠ 0 := ne_of_gt (lt_of_lt_of_le Consts.tenth_pos (le_max_right _ _))
  unfold k0_pay14 k0_pay8
  -- the pointwise operations, the broadcasts and the product, read at (b, c)
  simp only [mulf_apply, addf_apply, subf_apply, divf_apply, maximumf_apply, broadcast_apply, truncf_apply,
    cmpf_apply, extui_apply, sitofp_apply,
    broadcastTo_a1_ab_apply, broadcastTo_1b_ab_apply, shapeCast_a_a1_apply,
    cross_apply, up2_ix2, upRow_ix2]
  -- the two sums along the rows, and the transposes between a row and a column
  rw [rowSum_apply, transpose_ix2_apply, transpose_ix2_apply, shapeCast_a_a1_apply, rowSum_apply]
  simp only [mulf_apply, divf_apply, maximumf_apply, broadcast_apply, broadcastTo_a1_ab_apply, up2_ix2, upRow_ix2]
  rw [transpose_ix2_apply]
  simp only [upRow_ix2, ofBits_ideal, Ideal.cmpf_def]
  -- every operand is an embedded real: compute in the reals
  rw [Consts.ofBits_neg_half, Consts.ofBits_two, Consts.ofBits_tenth, gate_coe]
  simp only [IdealReal.max_coe, IdealReal.div_coe_coe _ _ hne]
  simp only [← EReal.coe_mul, IdealReal.coe_sum, ← EReal.coe_sub, ← EReal.coe_add]
  rw [EReal.coe_eq_coe_iff]
  unfold offS
  rw [sq_dist_expand]

end Cert.PP.KOff

end
-- ==== Proof.KLogp.lean ====
/-
  The kernel's own-class logit, the log-softmax and the final mean, over real class sums, counts and query rows.

  The one-hot array of the labels is read entry by entry as the real 1 or 0. Over real inputs every stretch of the
  payload is then an array of embedded reals: the own-class count less one (a row sum of one-hot times counts), the
  own-class sum (two products of the one-hot rows with the class sums, the second against a difference that is zero),
  the own-class logit (minus half the squared distance to the class mean with the row left out, times the bit of
  "more than a tenth of a row is left"), the select between own-class and off-class logits, and the log-softmax
  (row maximum from minus infinity, exponentials, their positive sum, its logarithm). A row whose label names class
  `c` has exactly one one-hot entry set, so its row sums pick the entries at `c`.
-/
import proofs.«415011_j18580028523148_3_alg».proof.Proof.KTerm
import proofs.«415011_j18580028523148_3_alg».proof.Proof.KOff
import proofs.«415011_j18580028523148_3_alg».proof.Proof.LibIdealReal
import proofs.«415011_j18580028523148_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.PP.KLogp

open Idealize.ShloMosaic Cert.KernelIdeal Cert.KernelIdeal.Gen Cert.PP Idealize.ShloMosaic.ValueIdx

/-! ## Layout operations of this kernel read at coordinates -/

/-- A length-`a` vector cast to a column reads, at `(p, u)`, the vector at `p`. -/
theorem cast_col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at `(p, c)`, the column at `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns of a `512 × n` array inserts. -/
theorem lift_cols256 (h : S512x256.Reduces [1] S512) (b : Fin 512) (k : Fin 256) :
    h.lift (ix1 b) k = ix2 b k := by
  funext a; match a with | ⟨0, _⟩ => rfl | ⟨1, _⟩ => rfl

theorem lift_cols512 (h : S512x512.Reduces [1] S512) (b : Fin 512) (k : Fin 512) :
    h.lift (ix1 b) k = ix2 b k := by
  funext a; match a with | ⟨0, _⟩ => rfl | ⟨1, _⟩ => rfl

/-- A sum along the columns of a `512 × 256` array at row `b`. -/
theorem rowsum256 (src : FVec Ideal S512x256 .f32) (h : S512x256.Reduces [1] S512) (hφ : FKind.Formats .f32)
    (hacc : (0x00000000#32 : BitVec 32) = FKind.add.neutral .f32 hφ) (b : Fin 512) :
    multiReduction .add [1] S512 src 0x00000000#32 h hφ hacc (ix1 b) = ∑ c : Fin 256, src (ix2 b c) := by
  refine (Ideal.multiReduction_add_single src 0x00000000#32 h hφ hacc (ix1 b)).trans ?_
  exact Finset.sum_congr rfl fun c _ => congrArg src (lift_cols256 h b c)

theorem rowsum512 (src : FVec Ideal S512x512 .f32) (h : S512x512.Reduces [1] S512) (hφ : FKind.Formats .f32)
    (hacc : (0x00000000#32 : BitVec 32) = FKind.add.neutral .f32 hφ) (b : Fin 512) :
    multiReduction .add [1] S512 src 0x00000000#32 h hφ hacc (ix1 b) = ∑ c : Fin 512, src (ix2 b c) := by
  refine (Ideal.multiReduction_add_single src 0x00000000#32 h hφ hacc (ix1 b)).trans ?_
  exact Finset.sum_congr rfl fun c _ => congrArg src (lift_cols512 h b c)

/-- A maximum along the columns of a `512 × 256` array at row `b`, started from the value of the word `acc`. -/
theorem rowmax256 (src : FVec Ideal S512x256 .f32) (acc : BitVec 32) (h : S512x256.Reduces [1] S512) (hφ : FKind.Formats .f32)
    (hacc : acc = FKind.maximumf.neutral .f32 hφ) (b : Fin 512) :
    multiReduction .maximumf [1] S512 src acc h hφ hacc (ix1 b)
      = (Finset.univ : Finset (Fin 256)).fold max (Ideal.ofBits .f32 acc) (fun c => src (ix2 b c)) := by
  refine (Ideal.multiReduction_maximumf_single src acc h hφ hacc (ix1 b)).trans ?_
  exact congrArg (Finset.fold max _ · _) (funext fun c => congrArg src (lift_cols256 h b c))

/-! ## The one-hot array of the labels -/

/-- The real one-hot entry: 1 when the label word of row `b` names class `c`. -/
def oh (yn : Fin 512 → BitVec 32) (b : Fin 512) (c : Fin 256) : ℝ := if yn b = BitVec.ofNat 32 c.val then 1 else 0

theorem pay15_apply (yn : Fin 512 → BitVec 32) (b : Fin 512) (c : Fin 256) :
    k0_pay15 KT.cls (k0_pay7 (F := Ideal) (labCol yn)) (ix2 b c)
      = (if yn b = BitVec.ofNat 32 c.val then 1#1 else 0#1).setWidth 32 := by
  unfold k0_pay15 k0_pay7 KT.cls
  rw [extui_apply]
  congr 1
  show IntOp.cmpi .eq (broadcastTo S512x256 (shapeCast S512x1 (labCol yn) _) _ (ix2 b c)) (broadcastTo S512x256 _ _ (ix2 b c)) = _
  rw [bcast_col_apply, broadcastTo_1b_ab_apply, shapeCast_self, iota_single_apply]
  show BitVec.ofBool (yn b == BitVec.ofNat 32 c.val) = _
  by_cases h : yn b = BitVec.ofNat 32 c.val
  · rw [if_pos h, beq_iff_eq.mpr h]; rfl
  · rw [if_neg h, beq_eq_false_iff_ne.mpr h]; rfl

theorem pay16_real (yn : Fin 512 → BitVec 32) :
    k0_pay16 (F := Ideal) (k0_pay15 KT.cls (k0_pay7 (F := Ideal) (labCol yn))) = up2 (oh yn) := by
  funext i
  obtain ⟨b, c, rfl⟩ : ∃ (b : Fin 512) (c : Fin 256), i = ix2 b c := ⟨i 0, i 1, eq_ix2 i⟩
  unfold k0_pay16
  rw [sitofp_apply, pay15_apply, IdealReal.sitofp_setWidth_bit]
  show _ = ((oh yn b c : ℝ) : EReal)
  unfold oh
  by_cases h : yn b = BitVec.ofNat 32 c.val
  · simp [h]
  · simp [h]

/-! ## The stretches of the payload, as terms over the arrays they read -/

/-- The own-class count of each row, less one. -/
def cndT (OH : FVec Ideal S512x256 .f32) (cc : FVec Ideal S1x256 .f32) : FVec Ideal S512x1 .f32 :=
  subf (shapeCast S512x1 (multiReduction .add [1] S512 (mulf OH (broadcastTo S512x256 cc Facts₀.broadcasts_S1x256_S512x256))
      0x00000000#32 Facts₀.reduces_S512x256_S512 (.inl rfl) rfl) Facts₀.shapeCasts_S512_S512x1)
    (broadcast S512x1 (Scalar.ofBits .f32 0x3F800000#32))

/-- The own-class sum of each row: the one-hot rows times the class sums, taken in a high and a low part. -/
def mgT (OH : FVec Ideal S512x256 .f32) (mus : FVec Ideal S256x512 .f32) : FVec Ideal S512x512 .f32 :=
  addf
    (matmul dot_S512x256_S256x512_S512x512_1_0_0_1_n_n none (truncf .bf16 OH Facts₀.bitsLt_bf16_f32)
      (truncf .bf16 mus Facts₀.bitsLt_bf16_f32) (constant S512x512 .f32 0x00000000#32))
    (matmul dot_S512x256_S256x512_S512x512_1_0_0_1_n_n none (truncf .bf16 OH Facts₀.bitsLt_bf16_f32)
      (truncf .bf16 (subf mus mus) Facts₀.bitsLt_bf16_f32) (constant S512x512 .f32 0x00000000#32))

/-- The own-class logit of each row: minus half the squared distance to the class mean with the row left out. -/
def ldT (Cnd : FVec Ideal S512x1 .f32) (Mg xq : FVec Ideal S512x512 .f32) : FVec Ideal S512x1 .f32 :=
  mulf
    (mulf (broadcast S512x1 (Scalar.ofBits .f32 0xBF000000#32))
      (shapeCast S512x1
        (multiReduction .add [1] S512
          (mulf
            (subf xq (divf (subf Mg xq) (broadcastTo S512x512 (maximumf Cnd (broadcast S512x1 (Scalar.ofBits .f32 0x3DCCCCCD#32))) Facts₀.broadcasts_S512x1_S512x512)))
            (subf xq (divf (subf Mg xq) (broadcastTo S512x512 (maximumf Cnd (broadcast S512x1 (Scalar.ofBits .f32 0x3DCCCCCD#32))) Facts₀.broadcasts_S512x1_S512x512))))
          0x00000000#32 Facts₀.reduces_S512x512_S512 (.inl rfl) rfl)
        Facts₀.shapeCasts_S512_S512x1))
    (sitofp .f32 (extui 32 (cmpf .ogt Cnd (broadcast S512x1 (Scalar.ofBits .f32 0x3DCCCCCD#32))) Facts₀.natLt_1_32))

/-- The logits: the own-class value where the one-hot entry is set, the off-class value elsewhere. -/
def logitT (OH : FVec Ideal S512x256 .f32) (ld : FVec Ideal S512x1 .f32) (off : FVec Ideal S512x256 .f32) : FVec Ideal S512x256 .f32 :=
  divf
    (select (cmpf .ogt OH (broadcast S512x256 (Scalar.ofBits .f32 0x3F000000#32)))
      (broadcastTo S512x256 (shapeCast S512x1 ld Facts₀.shapeCasts_S512x1_S512x1) Facts₀.broadcasts_S512x1_S512x256) off)
    (broadcast S512x256 (Scalar.ofBits .f32 0x3F800000#32))

/-- The row maximum, as a column. -/
def rmaxT (L : FVec Ideal S512x256 .f32) : FVec Ideal S512x1 .f32 :=
  shapeCast S512x1 (multiReduction .maximumf [1] S512 L 0xFF800000#32 Facts₀.reduces_S512x256_S512 (.inl rfl) rfl) Facts₀.shapeCasts_S512_S512x1

/-- The logits less their row maximum. -/
def shT (L : FVec Ideal S512x256 .f32) : FVec Ideal S512x256 .f32 :=
  subf L (broadcastTo S512x256 (rmaxT L) Facts₀.broadcasts_S512x1_S512x256)

/-- The log-softmax along the classes. -/
def lsmT (L : FVec Ideal S512x256 .f32) : FVec Ideal S512x256 .f32 :=
  subf (shT L)
    (broadcastTo S512x256
      (log (shapeCast S512x1 (multiReduction .add [1] S512 (exp (shT L)) 0x00000000#32 Facts₀.reduces_S512x256_S512 (.inl rfl) rfl)
        Facts₀.shapeCasts_S512_S512x1))
      Facts₀.broadcasts_S512x1_S512x256)

theorem pay17_eq (mus : FVec Ideal S256x512 .f32) (cc : FVec Ideal S1x256 .f32) (xq : FVec Ideal S512x512 .f32)
    (off : FVec Ideal S512x256 .f32) (v118 : IVec S512x256 32) :
    k0_pay17 (F := Ideal) mus cc xq off v118
      = lsmT (logitT (k0_pay16 (F := Ideal) v118)
          (ldT (cndT (k0_pay16 (F := Ideal) v118) cc) (mgT (k0_pay16 (F := Ideal) v118) mus) xq) off) := rfl

/-! ## The stretches over real inputs -/

/-- A real column as a column of extended reals. -/
def upCol {a : ℕ} (x : Fin a → ℝ) : (⟨2, ![a, 1]⟩ : Shape).Idx → EReal := fun i => ((x (i 0) : ℝ) : EReal)

set_option backward.isDefEq.respectTransparency.types false in
theorem cndT_real (OH : Fin 512 → Fin 256 → ℝ) (cc : Fin 256 → ℝ) :
    cndT (up2 OH) (upRow cc) = upCol (fun b => ∑ c, OH b c * cc c - 1) := by
  funext i
  obtain ⟨b, u, rfl⟩ : ∃ (b : Fin 512) (u : Fin 1), i = ix2 b u := ⟨i 0, i 1, eq_ix2 i⟩
  unfold cndT
  rw [subf_apply, cast_col_apply, rowsum256, broadcast_apply]
  simp only [mulf_apply, broadcastTo_1b_ab_apply]
  show (∑ c : Fin 256, ((OH b c : ℝ) : EReal) * ((cc c : ℝ) : EReal)) - Ideal.ofBits .f32 0x3F800000#32
    = (((∑ c, OH b c * cc c - 1 : ℝ)) : EReal)
  rw [Consts.ofBits_one]
  simp only [← EReal.coe_mul]
  rw [IdealReal.coe_sum, ← EReal.coe_sub]

/-- The product of a `512 × 256` by a `256 × 512` array into zero, read at an entry. -/
theorem mm_apply (lhs : FVec Ideal S512x256 .bf16) (rhs : FVec Ideal S256x512 .bf16) (b : Fin 512) (d : Fin 512) :
    matmul dot_S512x256_S256x512_S512x512_1_0_0_1_n_n none lhs rhs (constant S512x512 .f32 0x00000000#32) (ix2 b d)
      = ∑ k : Fin 256, lhs (ix2 b k) * rhs (ix2 k d) := by
  show FloatOps.matmul _ none lhs rhs _ (ix2 b d) = _
  rw [Ideal.matmul_constant_zero_apply,
    ← Equiv.sum_comp (contrEquiv1 dot_S512x256_S256x512_S512x512_1_0_0_1_n_n 256 rfl rfl).symm]
  refine Finset.sum_congr rfl fun k _ => ?_
  have ck := contrEquiv1_symm_val dot_S512x256_S256x512_S512x512_1_0_0_1_n_n 256 rfl rfl k
  have hl : dot_S512x256_S256x512_S512x512_1_0_0_1_n_n.lhsIdx (ix2 b d)
      ((contrEquiv1 dot_S512x256_S256x512_S512x512_1_0_0_1_n_n 256 rfl rfl).symm k) = ix2 b k := by
    funext ax; apply Fin.ext
    match ax with
    | ⟨0, _⟩ => simp [DotDims.lhsIdx, dot_S512x256_S256x512_S512x512_1_0_0_1_n_n]; rfl
    | ⟨1, _⟩ => simp [DotDims.lhsIdx, dot_S512x256_S256x512_S512x512_1_0_0_1_n_n]; exact ck
  have hr : dot_S512x256_S256x512_S512x512_1_0_0_1_n_n.rhsIdx (ix2 b d)
      ((contrEquiv1 dot_S512x256_S256x512_S512x512_1_0_0_1_n_n 256 rfl rfl).symm k) = ix2 k d := by
    funext ax; apply Fin.ext
    match ax with
    | ⟨0, _⟩ => simp [DotDims.rhsIdx, dot_S512x256_S256x512_S512x512_1_0_0_1_n_n]; exact ck
    | ⟨1, _⟩ => simp [DotDims.rhsIdx, dot_S512x256_S256x512_S512x512_1_0_0_1_n_n]; rfl
  rw [hl, hr]

theorem mgT_real (OH : Fin 512 → Fin 256 → ℝ) (mus : Fin 256 → Fin 512 → ℝ) :
    mgT (up2 OH) (up2 mus) = up2 (fun b d => ∑ c, OH b c * mus c d) := by
  funext i
  obtain ⟨b, d, rfl⟩ : ∃ (b : Fin 512) (d : Fin 512), i = ix2 b d := ⟨i 0, i 1, eq_ix2 i⟩
  unfold mgT
  rw [addf_apply, mm_apply, mm_apply]
  simp only [truncf_apply, subf_apply]
  show (∑ k : Fin 256, ((OH b k : ℝ) : EReal) * ((mus k d : ℝ) : EReal))
      + (∑ k : Fin 256, ((OH b k : ℝ) : EReal) * (((mus k d : ℝ) : EReal) - ((mus k d : ℝ) : EReal)))
    = (((∑ c, OH b c * mus c d : ℝ)) : EReal)
  simp only [← EReal.coe_sub, sub_self, ← EReal.coe_mul, mul_zero]
  rw [IdealReal.coe_sum, IdealReal.coe_sum, ← EReal.coe_add]
  simp

/-- The own-class logit of a row over real inputs. -/
def ldR (Cnd : Fin 512 → ℝ) (Mg xq : Fin 512 → Fin 512 → ℝ) (b : Fin 512) : ℝ :=
  (-(1 / 2) * ∑ d, (xq b d - (Mg b d - xq b d) / max (Cnd b) tenth) ^ 2) * (if tenth < Cnd b then 1 else 0)

set_option backward.isDefEq.respectTransparency.types false in
theorem ldT_real (Cnd : Fin 512 → ℝ) (Mg xq : Fin 512 → Fin 512 → ℝ) :
    ldT (upCol Cnd) (up2 Mg) (up2 xq) = upCol (ldR Cnd Mg xq) := by
  funext i
  obtain ⟨b, u, rfl⟩ : ∃ (b : Fin 512) (u : Fin 1), i = ix2 b u := ⟨i 0, i 1, eq_ix2 i⟩
  unfold ldT
  rw [mulf_apply, mulf_apply, broadcast_apply, cast_col_apply, rowsum512, sitofp_apply, extui_apply, cmpf_apply, broadcast_apply]
  simp only [mulf_apply, subf_apply, divf_apply, bcast_col_apply, maximumf_apply, broadcast_apply]
  have hne : max (Cnd b) tenth ≠ 0 := (lt_of_lt_of_le Consts.tenth_pos (le_max_right _ _)).ne'
  show (Ideal.ofBits .f32 0xBF000000#32 * ∑ d : Fin 512,
        ((((xq b d : ℝ) : EReal) - Ideal.div (((Mg b d : ℝ) : EReal) - ((xq b d : ℝ) : EReal)) (max ((Cnd b : ℝ) : EReal) (Ideal.ofBits .f32 0x3DCCCCCD#32)))
          * (((xq b d : ℝ) : EReal) - Ideal.div (((Mg b d : ℝ) : EReal) - ((xq b d : ℝ) : EReal)) (max ((Cnd b : ℝ) : EReal) (Ideal.ofBits .f32 0x3DCCCCCD#32)))))
      * FloatOps.sitofp (F := Ideal) .f32 ((Ideal.cmp .ogt ((Cnd b : ℝ) : EReal) (Ideal.ofBits .f32 0x3DCCCCCD#32)).setWidth 32)
    = ((ldR Cnd Mg xq b : ℝ) : EReal)
  rw [Consts.ofBits_neg_half, Consts.ofBits_tenth, IdealReal.max_coe, IdealReal.cmp_ogt_coe, IdealReal.sitofp_setWidth_bit]
  simp only [← EReal.coe_sub, IdealReal.div_coe_coe _ _ hne, ← EReal.coe_mul]
  rw [IdealReal.coe_sum, ← EReal.coe_mul]
  unfold ldR
  by_cases h : tenth < Cnd b
  · simp only [h, if_true, ← EReal.coe_mul]
    congr 1
    simp only [sq]
  · simp only [h, if_false, ← EReal.coe_mul]
    have h01 : ¬ ((0#1 : BitVec 1) = 1#1) := by decide
    simp only [h01, if_false, ← EReal.coe_mul, mul_zero]

theorem logitT_real (OH : Fin 512 → Fin 256 → ℝ) (ld : Fin 512 → ℝ) (off : Fin 512 → Fin 256 → ℝ) :
    logitT (up2 OH) (upCol ld) (up2 off) = up2 (fun b c => if 1 / 2 < OH b c then ld b else off b c) := by
  funext i
  obtain ⟨b, c, rfl⟩ : ∃ (b : Fin 512) (c : Fin 256), i = ix2 b c := ⟨i 0, i 1, eq_ix2 i⟩
  unfold logitT
  rw [divf_apply, select_apply, cmpf_apply, broadcast_apply, broadcast_apply, bcast_col_apply, shapeCast_self]
  show Ideal.div (Scalar.select (Ideal.cmp .ogt ((OH b c : ℝ) : EReal) (Ideal.ofBits .f32 0x3F000000#32)) ((ld b : ℝ) : EReal) ((off b c : ℝ) : EReal))
      (Ideal.ofBits .f32 0x3F800000#32)
    = (((if 1 / 2 < OH b c then ld b else off b c : ℝ)) : EReal)
  rw [Consts.ofBits_half, Consts.ofBits_one, IdealReal.cmp_ogt_coe]
  by_cases h : 1 / 2 < OH b c
  · rw [if_pos h, if_pos h, select_one, IdealReal.div_coe_coe _ _ one_ne_zero, div_one]
  · rw [if_neg h, if_neg h, select_zero, IdealReal.div_coe_coe _ _ one_ne_zero, div_one]

/-- The maximum of finitely many embedded reals, started from minus infinity, is the embedded maximum. -/
theorem fold_max_coe (f : Fin 256 → ℝ) :
    (Finset.univ : Finset (Fin 256)).fold max (⊥ : EReal) (fun c => ((f c : ℝ) : EReal))
      = ((Finset.univ.sup' Finset.univ_nonempty f : ℝ) : EReal) := by
  apply le_antisymm
  · rw [Finset.fold_max_le]
    exact ⟨bot_le, fun c _ => EReal.coe_le_coe_iff.mpr (Finset.le_sup' f (Finset.mem_univ c))⟩
  · obtain ⟨k, _, hk⟩ := Finset.exists_mem_eq_sup' (Finset.univ_nonempty (α := Fin 256)) f
    rw [hk, Finset.le_fold_max]
    exact Or.inr ⟨k, Finset.mem_univ k, le_rfl⟩

/-- The row maximum over real logits. -/
def rmaxR (L : Fin 512 → Fin 256 → ℝ) (b : Fin 512) : ℝ := Finset.univ.sup' Finset.univ_nonempty (L b)

set_option backward.isDefEq.respectTransparency.types false in
theorem rmaxT_real (L : Fin 512 → Fin 256 → ℝ) : rmaxT (up2 L) = upCol (rmaxR L) := by
  funext i
  obtain ⟨b, u, rfl⟩ : ∃ (b : Fin 512) (u : Fin 1), i = ix2 b u := ⟨i 0, i 1, eq_ix2 i⟩
  unfold rmaxT
  rw [cast_col_apply, rowmax256, Consts.ofBits_neg_inf]
  exact fold_max_coe (L b)

theorem shT_real (L : Fin 512 → Fin 256 → ℝ) : shT (up2 L) = up2 (fun b c => L b c - rmaxR L b) := by
  funext i
  obtain ⟨b, c, rfl⟩ : ∃ (b : Fin 512) (c : Fin 256), i = ix2 b c := ⟨i 0, i 1, eq_ix2 i⟩
  unfold shT
  rw [rmaxT_real, subf_apply, bcast_col_apply]
  show ((L b c : ℝ) : EReal) - ((rmaxR L b : ℝ) : EReal) = _
  rw [← EReal.coe_sub]
  rfl

set_option backward.isDefEq.respectTransparency.types false in
theorem lsmT_real (L : Fin 512 → Fin 256 → ℝ) : lsmT (up2 L) = up2 (logpS L) := by
  funext i
  obtain ⟨b, c, rfl⟩ : ∃ (b : Fin 512) (c : Fin 256), i = ix2 b c := ⟨i 0, i 1, eq_ix2 i⟩
  unfold lsmT
  rw [shT_real, subf_apply, bcast_col_apply]
  show _ - FloatOps.log (F := Ideal) (shapeCast S512x1 _ _ (ix2 b (0 : Fin 1))) = _
  rw [cast_col_apply, rowsum256]
  have hpos : 0 < ∑ c' : Fin 256, Real.exp (L b c' - rmaxR L b) :=
    Finset.sum_pos (fun c' _ => Real.exp_pos _) Finset.univ_nonempty
  show ((L b c - rmaxR L b : ℝ) : EReal) - Ideal.log (∑ c' : Fin 256, Ideal.exp ((L b c' - rmaxR L b : ℝ) : EReal))
    = ((logpS L b c : ℝ) : EReal)
  simp only [IdealReal.exp_coe']
  rw [IdealReal.coe_sum, IdealReal.log_coe_pos hpos, ← EReal.coe_sub]
  rfl

/-! ## The one-hot row picks one class -/

theorem ofNat_inj256 {c c' : Fin 256} (h : BitVec.ofNat 32 c.val = BitVec.ofNat 32 c'.val) : c = c' := by
  have h2 := congrArg BitVec.toNat h
  rw [BitVec.toNat_ofNat, BitVec.toNat_ofNat] at h2
  have := c.isLt
  have := c'.isLt
  apply Fin.ext
  omega

/-- Against a row whose label names class `c`, the one-hot weights pick the entry at `c`. -/
theorem oh_sum (yn : Fin 512 → BitVec 32) (b : Fin 512) (c : Fin 256) (h : yn b = BitVec.ofNat 32 c.val) (f : Fin 256 → ℝ) :
    ∑ c', oh yn b c' * f c' = f c := by
  rw [Finset.sum_eq_single c]
  · unfold oh; rw [if_pos h, one_mul]
  · intro c' _ hne
    unfold oh
    rw [if_neg (fun h' => hne (ofNat_inj256 (h'.symm.trans h))), zero_mul]
  · intro hc; exact absurd (Finset.mem_univ c) hc

theorem pay17_real (cc : Fin 256 → ℝ) (mus : Fin 256 → Fin 512 → ℝ) (xq : Fin 512 → Fin 512 → ℝ)
    (off : Fin 512 → Fin 256 → ℝ) (yn : Fin 512 → BitVec 32) :
    k0_pay17 (F := Ideal) (up2 mus) (upRow cc) (up2 xq) (up2 off) (k0_pay15 KT.cls (k0_pay7 (F := Ideal) (labCol yn)))
      = up2 (logpS (fun b c => if yn b = BitVec.ofNat 32 c.val then diagS cc mus xq b c else off b c)) := by
  rw [pay17_eq, pay16_real, cndT_real, mgT_real, ldT_real, logitT_real, lsmT_real]
  congr 2
  funext b c
  by_cases h : yn b = BitVec.ofNat 32 c.val
  · have h1 : (1 : ℝ) / 2 < oh yn b c := by unfold oh; rw [if_pos h]; norm_num
    rw [if_pos h1, if_pos h]
    unfold ldR diagS
    simp only [oh_sum yn b c h]
  · have h0 : ¬ ((1 : ℝ) / 2 < oh yn b c) := by unfold oh; rw [if_neg h]; norm_num
    rw [if_neg h0, if_neg h]

/-! ## The mean of the picked log-probabilities -/

/-- The index a reduction along the rows of a `512 × 1` array inserts. -/
theorem lift_rows (h : S512x1.Reduces [0] S1) (u : Fin 1) (k : Fin 512) :
    h.lift (ix1 u) k = ix2 k u := by
  funext a; match a with | ⟨0, _⟩ => rfl | ⟨1, _⟩ => rfl

/-- A sum along the rows of a `512 × 1` array. -/
theorem colsum512 (src : FVec Ideal S512x1 .f32) (h : S512x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ k : Fin 512, src (ix2 k u) := by
  refine (Ideal.multiReduction_add_single src 0x00000000#32 h hφ hacc (ix1 u)).trans ?_
  exact Finset.sum_congr rfl fun k _ => congrArg src (lift_rows h u k)

set_option backward.isDefEq.respectTransparency.types false in
theorem pay6_oh (lp : Fin 512 → Fin 256 → ℝ) (OH : Fin 512 → Fin 256 → ℝ) :
    k0_pay6 (F := Ideal) (up2 OH) (up2 lp) = fun _ => (((-((∑ b, ∑ c, lp b c * OH b c) / 512) : ℝ)) : EReal) := by
  funext i
  obtain ⟨p, u, rfl⟩ : ∃ (p : Fin 1) (u : Fin 1), i = ix2 p u := ⟨i 0, i 1, eq_ix2 i⟩
  unfold k0_pay6
  rw [divf_apply, subf_apply, broadcast_apply, broadcast_apply, cast_col_apply, colsum512]
  have hsum : (∑ k : Fin 512, shapeCast S512x1 (multiReduction (F := Ideal) .add [1] S512 (mulf (F := Ideal) (φ := .f32) (up2 lp) (up2 OH)) 0x00000000#32
        Facts₀.reduces_S512x256_S512 (.inl rfl) rfl) Facts₀.shapeCasts_S512_S512x1 (ix2 k p))
      = ((∑ b, ∑ c, lp b c * OH b c : ℝ) : EReal) := by
    rw [← IdealReal.coe_sum]
    refine Finset.sum_congr rfl fun k _ => ?_
    rw [cast_col_apply, rowsum256, ← IdealReal.coe_sum]
    refine Finset.sum_congr rfl fun c _ => ?_
    rw [mulf_apply, EReal.coe_mul]
    rfl
  rw [hsum]
  show Ideal.div (Ideal.ofBits .f32 0x00000000#32 - ((∑ b, ∑ c, lp b c * OH b c : ℝ) : EReal)) (Ideal.ofBits .f32 0x44000000#32) = _
  rw [Consts.ofBits_zero, Consts.ofBits_512, ← EReal.coe_sub, IdealReal.div_coe_coe _ _ (by norm_num)]
  congr 1
  ring

theorem pay6_real (lp : Fin 512 → Fin 256 → ℝ) (yn : Fin 512 → BitVec 32) :
    k0_pay6 (F := Ideal) (k0_pay16 (F := Ideal) (k0_pay15 KT.cls (k0_pay7 (F := Ideal) (labCol yn)))) (up2 lp)
      = fun _ => ((pickS lp yn : ℝ) : EReal) := by
  rw [pay16_real, pay6_oh]
  funext _
  congr 3
  refine Finset.sum_congr rfl fun b _ => Finset.sum_congr rfl fun c _ => ?_
  unfold oh
  by_cases h : yn b = BitVec.ofNat 32 c.val
  · rw [if_pos h, if_pos h, mul_one]
  · rw [if_neg h, if_neg h, mul_zero]

theorem kLoss_real (cc : Fin 256 → ℝ) (mus : Fin 256 → Fin 512 → ℝ) (xq : Fin 512 → Fin 512 → ℝ) (yn : Fin 512 → BitVec 32) :
    KT.kLoss (F := Ideal) (up2 mus) (upRow cc) (up2 xq) (labCol yn) = fun _ => ((lossS (logitS cc mus xq yn) yn : ℝ) : EReal) := by
  unfold KT.kLoss
  rw [KOff.pay14_real, pay17_real, pay6_real]
  rfl

end Cert.PP.KLogp

end
-- ==== Proof.Pre.lean ====
/-
  What the precondition says of the arguments: the two float arrays hold real numbers, every support label is one of
  the classes 0 … 255, every position one of the rows 0 … 8191; and, for such positions, the host's `take` before
  the launch returns the label at the position.
-/
import proofs.«415011_j18580028523148_3_alg».proof.Proof.Gen.Pre_finite_inputs
import proofs.«415011_j18580028523148_3_alg».proof.Proof.KTerm
import Idealize.ShloMosaic.Lib.ReduceAll
import Idealize.ShloMosaic.Lib.StableHlo.Predicate

noncomputable section

namespace Cert.PP.Pre

open Idealize.ShloMosaic Cert.PP

/-- The scalar shape has one index. -/
private instance : Subsingleton Cert.Pre_finite_inputs.S_.Idx := ⟨fun a b => funext fun d => d.elim0⟩

/-- An extended real whose absolute value lies below +∞ is a real number. -/
private theorem real_of_abs_lt (x : EReal)
    (h : FloatOps.cmpf (F := Ideal) (φ := .f32) .olt (FloatOps.hostAbsf x) (FloatOps.ofBits .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | top => simp at h
  | coe r => exact ⟨EReal.coe_ne_top r, EReal.coe_ne_bot r⟩

/-- A word that is at least 0 and at most `n` as a signed number has value at most `n`. -/
private theorem toNat_le_of_signed_range (w : BitVec 32) (n : Nat) (hn : n < 2 ^ 31)
    (h0 : IntOp.cmpi .sge w 0#32 = 1#1) (h1 : IntOp.cmpi .sle w (BitVec.ofNat 32 n) = 1#1) : w.toNat ≤ n := by
  unfold IntOp.cmpi at h0 h1
  rw [StableHlo.Predicate.ofBool_eq_one_iff] at h0 h1
  simp only [BitVec.sle, decide_eq_true_eq] at h0 h1
  rw [StableHlo.Predicate.toInt_ofNat_small n hn] at h1
  have hz : (0#32 : BitVec 32).toInt = 0 := by decide
  rw [hz] at h0
  have h32 := w.isLt
  rw [BitVec.toInt_eq_toNat_cond] at h0 h1
  split at h0 <;> omega

/-- An array of extended reals none of which is infinite is the embedding of the array of their real parts. -/
private theorem eq_up2_of_finite {a b : ℕ} (x : (⟨2, ![a, b]⟩ : Shape).Idx → EReal) (hx : ∀ i, x i ≠ ⊤ ∧ x i ≠ ⊥) :
    ∃ r : Fin a → Fin b → ℝ, x = up2 r := by
  refine ⟨fun p q => (x (ValueIdx.ix2 p q)).toReal, funext fun i => ?_⟩
  obtain ⟨p, q, rfl⟩ : ∃ (p : Fin a) (q : Fin b), i = ValueIdx.ix2 p q := ⟨i 0, i 1, ValueIdx.eq_ix2 i⟩
  exact (EReal.coe_toReal (hx _).1 (hx _).2).symm

theorem pre_decode [Cert.Pre_finite_inputs.Facts]
    (a0 : FVec Ideal Cert.Pre_finite_inputs.S512x512 .f32) (a1 : IVec Cert.Pre_finite_inputs.S512 32)
    (a2 : FVec Ideal Cert.Pre_finite_inputs.S8192x512 .f32) (a3 : IVec Cert.Pre_finite_inputs.S8192 32)
    (a4 : IVec Cert.Pre_finite_inputs.S512 32)
    (h : Cert.Pre_finite_inputs.fn (F := Ideal) a0 a1 a2 a3 a4 = fun _ => 1#1) :
    (∃ xq : Fin 512 → Fin 512 → ℝ, a0 = up2 xq) ∧ (∃ xs : Fin 8192 → Fin 512 → ℝ, a2 = up2 xs)
      ∧ (∀ i, (a3 i).toNat < 256) ∧ (∀ i, (a4 i).toNat < 8192) := by
  have e := congrFun h ValueIdx.ix0
  dsimp only [Cert.Pre_finite_inputs.fn, Cert.Pre_finite_inputs.fn_part1] at e
  -- the four conjuncts, each a reduction by `and` over a whole array
  obtain ⟨e123, e4⟩ := IntOp.andi_eq_one.1 e
  obtain ⟨e12, e3⟩ := IntOp.andi_eq_one.1 e123
  obtain ⟨e1, e2⟩ := IntOp.andi_eq_one.1 e12
  have f1 := fun i => Host.reduce_andi_all _ _ _ _ _ e1 i
  have f2 := fun i => Host.reduce_andi_all _ _ _ _ _ e2 i
  have f3 := fun i => Host.reduce_andi_all _ _ _ _ _ e3 i
  have f4 := fun i => Host.reduce_andi_all _ _ _ _ _ e4 i
  refine ⟨eq_up2_of_finite a0 fun i => real_of_abs_lt (a0 i) (f1 i),
    eq_up2_of_finite a2 fun i => real_of_abs_lt (a2 i) (f2 i), fun i => ?_, fun i => ?_⟩
  · obtain ⟨g0, g1⟩ := IntOp.andi_eq_one.1 (f4 i)
    exact Nat.lt_succ_of_le (toNat_le_of_signed_range (a3 i) 255 (by norm_num) g0 g1)
  · obtain ⟨g0, g1⟩ := IntOp.andi_eq_one.1 (f3 i)
    exact Nat.lt_succ_of_le (toNat_le_of_signed_range (a4 i) 8191 (by norm_num) g0 g1)

/-- A fold by `and` from 1 over words that are all 1 is 1. -/
private theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A reduction by `and`, from 1, of an array of ones is 1 everywhere. -/
private theorem reduce_andi_of_all {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_of_all x hx _

/-- A word of value below 8192 is not negative as a signed number. -/
private theorem slt_zero_of_lt {w : BitVec 32} (hw : w.toNat < 8192) : IntOp.cmpi .slt w 0#32 = 0#1 := by
  refine ValueIdx.eq_zero_of_ne_one fun h => ?_
  have := (StableHlo.Predicate.slt_iff_toNat (a := w) (b := 0#32) (by omega) (by decide)).1 h
  simp at this

private theorem sge_zero_of_lt {w : BitVec 32} (hw : w.toNat < 8192) : IntOp.cmpi .sge w 0#32 = 1#1 :=
  (StableHlo.Predicate.sge_iff_toNat (a := w) (b := 0#32) (by omega) (by decide)).2 (by simp)

private theorem sle_8191_of_lt {w : BitVec 32} (hw : w.toNat < 8192) : IntOp.cmpi .sle w 8191#32 = 1#1 :=
  (StableHlo.Predicate.sle_iff_toNat (a := w) (b := 8191#32) (by omega) (by decide)).2
    (by have : (8191#32 : BitVec 32).toNat = 8191 := by decide
        omega)

/-- A position word below 8192, read signed and clamped into the rows 0 … 8191, is itself. -/
private theorem clamp_of_lt {w : BitVec 32} (hw : w.toNat < 8192) : min w.toInt.toNat (8192 - 1) = w.toNat % 8192 := by
  rw [StableHlo.Predicate.toInt_eq_toNat_of_lt (by omega), Int.toNat_natCast, Nat.mod_eq_of_lt hw]
  omega

section Take
open Cert.KernelIdeal Cert.KernelIdeal.Gen

/-- A rank-1 label array laid out as a column reads, at row `j 0`, the label there. -/
private theorem bcol_lab1 (p : Fin 512 → BitVec 32) (j : S512x1.Idx) (b : Fin 512) (hb : (j 0).val = b.val) :
    broadcastInDim S512x1 ![0] bcast_S512_S512x1_0 (lab1 p) j = p b := by
  unfold broadcastInDim lab1
  dsimp only
  rw [dif_neg (by decide)]
  exact congrArg p (Fin.ext hb)

theorem takeT_eq [Cert.KernelIdeal.Facts] (ys : Fin 8192 → BitVec 32) (pos : Fin 512 → BitVec 32) (hpos : ∀ b, (pos b).toNat < 8192) :
    KT.takeT (lab1 ys) (lab1 pos) = lab1 (ynS ys pos) := by
  -- a position below 8192 is not negative: the positions moved up where negative are the positions
  have hsel : select (cmpi .slt (lab1 pos) (broadcastInDim S512 ![] bcast_S_S512 (constantI S_ 32 0#32)))
      (addi (lab1 pos) (broadcastInDim S512 ![] bcast_S_S512 (constantI S_ 32 8192#32))) (lab1 pos) = lab1 pos := by
    funext j
    obtain ⟨b, rfl⟩ : ∃ b : Fin 512, j = ValueIdx.ix1 b := ⟨j 0, ValueIdx.eq_ix1 j⟩
    show Scalar.select (IntOp.cmpi .slt (pos b) 0#32) _ (pos b) = pos b
    rw [slt_zero_of_lt (hpos b), ValueIdx.select_zero]
  funext i
  unfold KT.takeT
  rw [hsel, ValueIdx.select_apply, reduce_andi_of_all _ _ _ _ i, ValueIdx.select_one]
  · -- the gather reads the labels at the position, read signed and clamped into the rows
    obtain ⟨b, rfl⟩ : ∃ b : Fin 512, i = Shape.Idx.ofFin b := ⟨i 0, Shape.Idx.eq_ofFin i⟩
    have hg := StableHlo.Predicate.gather_take (N := 8192) (n := 512) gather_S8192_S512x1_S512_n_0_n_n_0_1_1 rfl rfl rfl rfl
      (lab1 ys) (broadcastInDim S512x1 ![0] bcast_S512_S512x1_0 (lab1 pos)) b (by norm_num)
    refine hg.trans ?_
    show ys _ = ys _
    congr 1
    apply Fin.ext
    show min (broadcastInDim S512x1 ![0] bcast_S512_S512x1_0 (lab1 pos) (StableHlo.Predicate.ixP b)).toInt.toNat (8192 - 1)
      = (pos b).toNat % 8192
    rw [bcol_lab1 pos _ b rfl]
    exact clamp_of_lt (hpos b)
  · -- every position passes the test 0 ≤ · ≤ 8191
    intro j
    show IntOp.andi (IntOp.cmpi .sge (broadcastInDim S512x1 ![0] bcast_S512_S512x1_0 (lab1 pos) j) 0#32)
      (IntOp.cmpi .sle (broadcastInDim S512x1 ![0] bcast_S512_S512x1_0 (lab1 pos) j) 8191#32) = 1#1
    rw [bcol_lab1 pos j ⟨(j 0).val, (j 0).isLt⟩ rfl, sge_zero_of_lt (hpos _), sle_8191_of_lt (hpos _)]
    rfl

end Take

end Cert.PP.Pre

end
-- ==== Proof.RScat1.lean ====
/-
  The reference's accumulating scatters along one axis, read at an index: a row of updates lands on the class its
  label word names and is dropped when the word names none, so the result is the count / the sum over the rows of
  each class.

  For each of the four scatter records the landing index of an update is computed once: the start is the label
  word of the update's row read as a signed integer, the window coordinate is zero on the class axis and the
  update's own column on the feature axis. An update therefore lands on class `c` exactly when its row's word,
  as a signed integer, is `c`, which for `c < 256` says the word is `BitVec.ofNat 32 c`; a word outside
  `0 … 255` (a negative one included) lands nowhere. The filtered sum of the scatter is then the sum over all
  rows of "the update if the row's word names the class, else zero".
-/
import proofs.«415011_j18580028523148_3_alg».proof.Proof.RefReadP
import proofs.«415011_j18580028523148_3_alg».proof.Proof.Spec
import proofs.«415011_j18580028523148_3_alg».proof.Proof.LibIdealReal
import proofs.«415011_j18580028523148_3_alg».proof.Proof.Consts

noncomputable section

namespace Cert.PP.RScat1

open Idealize.ShloMosaic Cert.ReferenceIdeal Cert.ReferenceIdeal.Gen Cert.ReferenceIdeal.ReadP Cert.PP

/-! ## Words and sums -/

/-- A 32-bit word read as a signed integer is the class number `c < 256` exactly when it is the word of `c`. -/
theorem word_eq (w : BitVec 32) (c : Fin 256) : w.toInt = (c.val : Int) ↔ w = BitVec.ofNat 32 c.val := by
  have hc : c.val < 256 := c.isLt
  constructor
  · intro h
    apply BitVec.eq_of_toNat_eq
    rw [BitVec.toNat_ofNat]
    rw [BitVec.toInt_eq_toNat_cond] at h
    have := w.isLt
    split at h <;> omega
  · intro h
    subst h
    rw [BitVec.toInt_eq_toNat_cond, BitVec.toNat_ofNat]
    have h1 : c.val % 2 ^ 32 = c.val := Nat.mod_eq_of_lt (by omega)
    rw [h1]
    split <;> omega

/-- A rank-1 index set is its one coordinate's range … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-! ## The scatter of a vector of 512 updates onto the 256 classes -/

/-- The index array is read at the update's row, column 0. -/
theorem siIdx1 (j : S512.Idx) (c : Fin scatter_S256_S512x1_S512_n_0_0_1.scatterDimsToOperandDims.length) :
    scatter_S256_S512x1_S512_n_0_0_1.siIdx j c = ValueIdx.ix2 (j 0) 0 := by
  funext b
  match b with
  | ⟨0, _⟩ => rfl
  | ⟨1, _⟩ =>
    have hc : c.val < 1 := c.isLt
    apply Fin.ext
    show c.val = 0
    omega

/-- The start on the class axis is the row's label word, signed. -/
theorem start1 (idx : IVec S512x1 32) (j : S512.Idx) (a : Fin S256.rank) :
    scatter_S256_S512x1_S512_n_0_0_1.start j idx a = (idx (ValueIdx.ix2 (j 0) 0)).toInt := by
  have ha : a ∈ scatter_S256_S512x1_S512_n_0_0_1.scatterDimsToOperandDims := by
    have h0 : a = (0 : Fin 1) := Subsingleton.elim _ _
    subst h0
    show (0 : Fin 1) ∈ ([0] : List (Fin 1))
    simp
  unfold ScatterDims.start
  rw [dif_pos ha, siIdx1]
  rfl

/-- The class axis is an inserted window axis: its window coordinate is zero. -/
theorem window1 (j : S512.Idx) (a : Fin S256.rank) :
    scatter_S256_S512x1_S512_n_0_0_1.window j a = 0 := by
  have ha : a ∉ scatter_S256_S512x1_S512_n_0_0_1.sKept := by
    have h0 : a = (0 : Fin 1) := Subsingleton.elim _ _
    subst h0
    show (0 : Fin 1) ∉ (S256.kept ([0] : List (Fin 1)))
    decide
  unfold ScatterDims.window
  rw [dif_neg ha]

/-- Update `j` lands on class `i 0` exactly when its row's label word, signed, is that class number. -/
theorem land1 (idx : IVec S512x1 32) (j : S512.Idx) (i : S256.Idx) :
    scatter_S256_S512x1_S512_n_0_0_1.resultIdx? j idx = some i ↔
      (idx (ValueIdx.ix2 (j 0) 0)).toInt = ((i 0).val : Int) := by
  unfold ScatterDims.resultIdx?
  simp only [start1, window1]
  have hi : (i 0).val < 256 := (i 0).isLt
  constructor
  · intro h
    split at h
    · rename_i hh
      have h' := Option.some.inj h
      have h1 := congrFun h' 0
      have h2 := congrArg Fin.val h1
      have h3 := hh 0
      simp only [Nat.cast_zero, add_zero] at h2 h3
      omega
    · cases h
  · intro h
    have hh : ∀ (a : Fin 1), 0 ≤ (idx (ValueIdx.ix2 (j 0) 0)).toInt + ((0 : Nat) : Int) ∧
        (idx (ValueIdx.ix2 (j 0) 0)).toInt + ((0 : Nat) : Int) < ((![256] a : Nat) : Int) := by
      intro a
      have h0 : a = (0 : Fin 1) := Subsingleton.elim _ _
      subst h0
      simp only [Matrix.cons_val_zero]
      omega
    rw [dif_pos hh]
    congr 1
    funext a
    have h0 : a = (0 : Fin 1) := Subsingleton.elim _ _
    subst h0
    apply Fin.ext
    simp only [Nat.cast_zero, add_zero]
    omega

/-! ## The scatter of the 512 rows of a 512 x 512 array onto the 256 classes -/

/-- The index array is read at the update's row, column 0. -/
theorem siIdx2 (j : S512x512.Idx) (c : Fin scatter_S256x512_S512x1_S512x512_1_0_0_1.scatterDimsToOperandDims.length) :
    scatter_S256x512_S512x1_S512x512_1_0_0_1.siIdx j c = ValueIdx.ix2 (j 0) 0 := by
  funext b
  match b with
  | ⟨0, _⟩ => rfl
  | ⟨1, _⟩ =>
    have hc : c.val < 1 := c.isLt
    apply Fin.ext
    show c.val = 0
    omega

/-- The start on the class axis is the row's label word, signed. -/
theorem start2_0 (idx : IVec S512x1 32) (j : S512x512.Idx) :
    scatter_S256x512_S512x1_S512x512_1_0_0_1.start j idx 0 = (idx (ValueIdx.ix2 (j 0) 0)).toInt := by
  have ha : (0 : Fin S256x512.rank) ∈ scatter_S256x512_S512x1_S512x512_1_0_0_1.scatterDimsToOperandDims := by
    show (0 : Fin 2) ∈ ([0] : List (Fin 2))
    simp
  unfold ScatterDims.start
  rw [dif_pos ha, siIdx2]
  rfl

/-- The start on the feature axis, which the index map does not name, is zero. -/
theorem start2_1 (idx : IVec S512x1 32) (j : S512x512.Idx) :
    scatter_S256x512_S512x1_S512x512_1_0_0_1.start j idx 1 = 0 := by
  have ha : (1 : Fin S256x512.rank) ∉ scatter_S256x512_S512x1_S512x512_1_0_0_1.scatterDimsToOperandDims := by
    show (1 : Fin 2) ∉ ([0] : List (Fin 2))
    decide
  unfold ScatterDims.start
  rw [dif_neg ha]

/-- The class axis is an inserted window axis: its window coordinate is zero. -/
theorem window2_0 (j : S512x512.Idx) :
    scatter_S256x512_S512x1_S512x512_1_0_0_1.window j 0 = 0 := by
  have ha : (0 : Fin S256x512.rank) ∉ scatter_S256x512_S512x1_S512x512_1_0_0_1.sKept := by
    show (0 : Fin 2) ∉ (S256x512.kept ([0] : List (Fin 2)))
    decide
  unfold ScatterDims.window
  rw [dif_neg ha]

/-- The feature axis carries the update's own column. -/
theorem window2_1 (j : S512x512.Idx) :
    scatter_S256x512_S512x1_S512x512_1_0_0_1.window j 1 = (j 1).val := by
  have ha : (1 : Fin S256x512.rank) ∈ scatter_S256x512_S512x1_S512x512_1_0_0_1.sKept := by
    show (1 : Fin 2) ∈ (S256x512.kept ([0] : List (Fin 2)))
    decide
  unfold ScatterDims.window
  rw [dif_pos ha]
  rfl

/-- Update `j` lands on `(class, column)` exactly when its row's label word, signed, is the class number and its
    column is that column. -/
theorem land2 (idx : IVec S512x1 32) (j : S512x512.Idx) (i : S256x512.Idx) :
    scatter_S256x512_S512x1_S512x512_1_0_0_1.resultIdx? j idx = some i ↔
      (idx (ValueIdx.ix2 (j 0) 0)).toInt = ((i 0).val : Int) ∧ j 1 = i 1 := by
  unfold ScatterDims.resultIdx?
  have hi0 : (i 0).val < 256 := (i 0).isLt
  have hi1 : (i 1).val < 512 := (i 1).isLt
  have hj1 : (j 1).val < 512 := (j 1).isLt
  constructor
  · intro h
    split at h
    · rename_i hh
      have h' := Option.some.inj h
      have h10 := congrArg Fin.val (congrFun h' 0)
      have h11 := congrArg Fin.val (congrFun h' 1)
      have h30 := hh 0
      have h31 := hh 1
      simp only [start2_0, start2_1, window2_0, window2_1, Nat.cast_zero, add_zero, zero_add,
        Matrix.cons_val_zero, Matrix.cons_val_one] at h10 h11 h30 h31
      constructor
      · omega
      · apply Fin.ext; omega
    · cases h
  · rintro ⟨h0, h1⟩
    have h1' : (j 1).val = (i 1).val := congrArg Fin.val h1
    have hh : ∀ a : Fin S256x512.rank,
        0 ≤ scatter_S256x512_S512x1_S512x512_1_0_0_1.start j idx a
              + ((scatter_S256x512_S512x1_S512x512_1_0_0_1.window j a : Nat) : Int) ∧
          scatter_S256x512_S512x1_S512x512_1_0_0_1.start j idx a
              + ((scatter_S256x512_S512x1_S512x512_1_0_0_1.window j a : Nat) : Int) < ((S256x512.size a : Nat) : Int) := by
      refine Fin.forall_fin_two.2 ⟨?_, ?_⟩
      · simp only [start2_0, window2_0, Nat.cast_zero, add_zero, Matrix.cons_val_zero]
        omega
      · simp only [start2_1, window2_1, zero_add, Matrix.cons_val_one, Matrix.cons_val_zero]
        omega
    rw [dif_pos hh]
    congr 1
    funext a
    revert a
    refine Fin.forall_fin_two.2 ⟨?_, ?_⟩
    · apply Fin.ext
      simp only [start2_0, window2_0, Nat.cast_zero, add_zero]
      omega
    · apply Fin.ext
      simp only [start2_1, window2_1, zero_add]
      omega

/-! ## The scatter of a vector of 8192 updates onto the 256 classes -/

/-- The index array is read at the update's row, column 0. -/
theorem siIdx3 (j : S8192.Idx) (c : Fin scatter_S256_S8192x1_S8192_n_0_0_1.scatterDimsToOperandDims.length) :
    scatter_S256_S8192x1_S8192_n_0_0_1.siIdx j c = ValueIdx.ix2 (j 0) 0 := by
  funext b
  match b with
  | ⟨0, _⟩ => rfl
  | ⟨1, _⟩ =>
    have hc : c.val < 1 := c.isLt
    apply Fin.ext
    show c.val = 0
    omega

/-- The start on the class axis is the row's label word, signed. -/
theorem start3 (idx : IVec S8192x1 32) (j : S8192.Idx) (a : Fin S256.rank) :
    scatter_S256_S8192x1_S8192_n_0_0_1.start j idx a = (idx (ValueIdx.ix2 (j 0) 0)).toInt := by
  have ha : a ∈ scatter_S256_S8192x1_S8192_n_0_0_1.scatterDimsToOperandDims := by
    have h0 : a = (0 : Fin 1) := Subsingleton.elim _ _
    subst h0
    show (0 : Fin 1) ∈ ([0] : List (Fin 1))
    simp
  unfold ScatterDims.start
  rw [dif_pos ha, siIdx3]
  rfl

/-- The class axis is an inserted window axis: its window coordinate is zero. -/
theorem window3 (j : S8192.Idx) (a : Fin S256.rank) :
    scatter_S256_S8192x1_S8192_n_0_0_1.window j a = 0 := by
  have ha : a ∉ scatter_S256_S8192x1_S8192_n_0_0_1.sKept := by
    have h0 : a = (0 : Fin 1) := Subsingleton.elim _ _
    subst h0
    show (0 : Fin 1) ∉ (S256.kept ([0] : List (Fin 1)))
    decide
  unfold ScatterDims.window
  rw [dif_neg ha]

/-- Update `j` lands on class `i 0` exactly when its row's label word, signed, is that class number. -/
theorem land3 (idx : IVec S8192x1 32) (j : S8192.Idx) (i : S256.Idx) :
    scatter_S256_S8192x1_S8192_n_0_0_1.resultIdx? j idx = some i ↔
      (idx (ValueIdx.ix2 (j 0) 0)).toInt = ((i 0).val : Int) := by
  unfold ScatterDims.resultIdx?
  simp only [start3, window3]
  have hi : (i 0).val < 256 := (i 0).isLt
  constructor
  · intro h
    split at h
    · rename_i hh
      have h' := Option.some.inj h
      have h1 := congrFun h' 0
      have h2 := congrArg Fin.val h1
      have h3 := hh 0
      simp only [Nat.cast_zero, add_zero] at h2 h3
      omega
    · cases h
  · intro h
    have hh : ∀ (a : Fin 1), 0 ≤ (idx (ValueIdx.ix2 (j 0) 0)).toInt + ((0 : Nat) : Int) ∧
        (idx (ValueIdx.ix2 (j 0) 0)).toInt + ((0 : Nat) : Int) < ((![256] a : Nat) : Int) := by
      intro a
      have h0 : a = (0 : Fin 1) := Subsingleton.elim _ _
      subst h0
      simp only [Matrix.cons_val_zero]
      omega
    rw [dif_pos hh]
    congr 1
    funext a
    have h0 : a = (0 : Fin 1) := Subsingleton.elim _ _
    subst h0
    apply Fin.ext
    simp only [Nat.cast_zero, add_zero]
    omega

/-! ## The scatter of the 8192 rows of an 8192 x 512 array onto the 256 classes -/

/-- The index array is read at the update's row, column 0. -/
theorem siIdx4 (j : S8192x512.Idx) (c : Fin scatter_S256x512_S8192x1_S8192x512_1_0_0_1.scatterDimsToOperandDims.length) :
    scatter_S256x512_S8192x1_S8192x512_1_0_0_1.siIdx j c = ValueIdx.ix2 (j 0) 0 := by
  funext b
  match b with
  | ⟨0, _⟩ => rfl
  | ⟨1, _⟩ =>
    have hc : c.val < 1 := c.isLt
    apply Fin.ext
    show c.val = 0
    omega

/-- The start on the class axis is the row's label word, signed. -/
theorem start4_0 (idx : IVec S8192x1 32) (j : S8192x512.Idx) :
    scatter_S256x512_S8192x1_S8192x512_1_0_0_1.start j idx 0 = (idx (ValueIdx.ix2 (j 0) 0)).toInt := by
  have ha : (0 : Fin S256x512.rank) ∈ scatter_S256x512_S8192x1_S8192x512_1_0_0_1.scatterDimsToOperandDims := by
    show (0 : Fin 2) ∈ ([0] : List (Fin 2))
    simp
  unfold ScatterDims.start
  rw [dif_pos ha, siIdx4]
  rfl

/-- The start on the feature axis, which the index map does not name, is zero. -/
theorem start4_1 (idx : IVec S8192x1 32) (j : S8192x512.Idx) :
    scatter_S256x512_S8192x1_S8192x512_1_0_0_1.start j idx 1 = 0 := by
  have ha : (1 : Fin S256x512.rank) ∉ scatter_S256x512_S8192x1_S8192x512_1_0_0_1.scatterDimsToOperandDims := by
    show (1 : Fin 2) ∉ ([0] : List (Fin 2))
    decide
  unfold ScatterDims.start
  rw [dif_neg ha]

/-- The class axis is an inserted window axis: its window coordinate is zero. -/
theorem window4_0 (j : S8192x512.Idx) :
    scatter_S256x512_S8192x1_S8192x512_1_0_0_1.window j 0 = 0 := by
  have ha : (0 : Fin S256x512.rank) ∉ scatter_S256x512_S8192x1_S8192x512_1_0_0_1.sKept := by
    show (0 : Fin 2) ∉ (S256x512.kept ([0] : List (Fin 2)))
    decide
  unfold ScatterDims.window
  rw [dif_neg ha]

/-- The feature axis carries the update's own column. -/
theorem window4_1 (j : S8192x512.Idx) :
    scatter_S256x512_S8192x1_S8192x512_1_0_0_1.window j 1 = (j 1).val := by
  have ha : (1 : Fin S256x512.rank) ∈ scatter_S256x512_S8192x1_S8192x512_1_0_0_1.sKept := by
    show (1 : Fin 2) ∈ (S256x512.kept ([0] : List (Fin 2)))
    decide
  unfold ScatterDims.window
  rw [dif_pos ha]
  rfl

/-- Update `j` lands on `(class, column)` exactly when its row's label word, signed, is the class number and its
    column is that column. -/
theorem land4 (idx : IVec S8192x1 32) (j : S8192x512.Idx) (i : S256x512.Idx) :
    scatter_S256x512_S8192x1_S8192x512_1_0_0_1.resultIdx? j idx = some i ↔
      (idx (ValueIdx.ix2 (j 0) 0)).toInt = ((i 0).val : Int) ∧ j 1 = i 1 := by
  unfold ScatterDims.resultIdx?
  have hi0 : (i 0).val < 256 := (i 0).isLt
  have hi1 : (i 1).val < 512 := (i 1).isLt
  have hj1 : (j 1).val < 512 := (j 1).isLt
  constructor
  · intro h
    split at h
    · rename_i hh
      have h' := Option.some.inj h
      have h10 := congrArg Fin.val (congrFun h' 0)
      have h11 := congrArg Fin.val (congrFun h' 1)
      have h30 := hh 0
      have h31 := hh 1
      simp only [start4_0, start4_1, window4_0, window4_1, Nat.cast_zero, add_zero, zero_add,
        Matrix.cons_val_zero, Matrix.cons_val_one] at h10 h11 h30 h31
      constructor
      · omega
      · apply Fin.ext; omega
    · cases h
  · rintro ⟨h0, h1⟩
    have h1' : (j 1).val = (i 1).val := congrArg Fin.val h1
    have hh : ∀ a : Fin S256x512.rank,
        0 ≤ scatter_S256x512_S8192x1_S8192x512_1_0_0_1.start j idx a
              + ((scatter_S256x512_S8192x1_S8192x512_1_0_0_1.window j a : Nat) : Int) ∧
          scatter_S256x512_S8192x1_S8192x512_1_0_0_1.start j idx a
              + ((scatter_S256x512_S8192x1_S8192x512_1_0_0_1.window j a : Nat) : Int) < ((S256x512.size a : Nat) : Int) := by
      refine Fin.forall_fin_two.2 ⟨?_, ?_⟩
      · simp only [start4_0, window4_0, Nat.cast_zero, add_zero, Matrix.cons_val_zero]
        omega
      · simp only [start4_1, window4_1, zero_add, Matrix.cons_val_one, Matrix.cons_val_zero]
        omega
    rw [dif_pos hh]
    congr 1
    funext a
    revert a
    refine Fin.forall_fin_two.2 ⟨?_, ?_⟩
    · apply Fin.ext
      simp only [start4_0, window4_0, Nat.cast_zero, add_zero]
      omega
    · apply Fin.ext
      simp only [start4_1, window4_1, zero_add]
      omega

/-! ## The five scatters of the reference -/

theorem v10_real (yq : Fin 512 → BitVec 32) : val_main_v10 (F := Ideal) (lab1 yq) = up1 (cnt yq) := by
  funext i
  obtain ⟨c, rfl⟩ : ∃ c : Fin 256, i = ValueIdx.ix1 c := ⟨i 0, ValueIdx.eq_ix1 i⟩
  unfold val_main_v10 Host.scatterAdd
  rw [Ideal.hostScatterAdd_def]
  unfold Ideal.hostScatterAdd
  rw [Finset.sum_filter, sum_idx1]
  have e0 : ∀ a : Fin 512,
      (scatter_S256_S512x1_S512_n_0_0_1.resultIdx? (ValueIdx.ix1 a) (val_main_v9 (F := Ideal) (lab1 yq)) = some (ValueIdx.ix1 c))
        ↔ yq a = BitVec.ofNat 32 c.val := by
    intro a
    rw [land1, val_main_v9_apply, ← word_eq]
    exact Iff.rfl
  simp only [e0, val_main_v8_apply, val_main_cst_1_apply, val_main_v7_apply, val_main_cst_apply, Ideal.ofBits_def, Consts.ofBits_zero,
    Consts.ofBits_one]
  show ((0 : ℝ) : EReal) + (∑ a, if yq a = BitVec.ofNat 32 c.val then ((1 : ℝ) : EReal) else 0)
    = ((cnt yq c : ℝ) : EReal)
  have e2 : ∀ a : Fin 512, (if yq a = BitVec.ofNat 32 c.val then ((1 : ℝ) : EReal) else 0)
      = (((if yq a = BitVec.ofNat 32 c.val then (1 : ℝ) else 0) : ℝ) : EReal) := by
    intro a; split <;> simp
  simp only [e2, IdealReal.coe_sum]
  rw [← EReal.coe_add, zero_add]
  rfl

theorem v13_real (xq : Fin 512 → Fin 512 → ℝ) (yq : Fin 512 → BitVec 32) :
    val_main_v13 (F := Ideal) (up2 xq) (lab1 yq) = up2 (csum yq xq) := by
  funext i
  obtain ⟨c, d, rfl⟩ : ∃ (c : Fin 256) (d : Fin 512), i = ValueIdx.ix2 c d := ⟨i 0, i 1, ValueIdx.eq_ix2 i⟩
  unfold val_main_v13 Host.scatterAdd
  rw [Ideal.hostScatterAdd_def]
  unfold Ideal.hostScatterAdd
  rw [Finset.sum_filter, ValueIdx.sum_idx2]
  have e0 : ∀ (a : Fin 512) (b : Fin 512),
      (scatter_S256x512_S512x1_S512x512_1_0_0_1.resultIdx? (ValueIdx.ix2 a b) (val_main_v12 (F := Ideal) (lab1 yq)) =
        some (ValueIdx.ix2 c d)) ↔ (yq a = BitVec.ofNat 32 c.val ∧ b = d) := by
    intro a b
    rw [land2, val_main_v12_apply, ← word_eq]
    exact Iff.rfl
  simp only [e0, val_main_v11_apply, val_main_cst_2_apply, Ideal.ofBits_def, Consts.ofBits_zero]
  show ((0 : ℝ) : EReal) + (∑ a : Fin 512, ∑ b : Fin 512,
      if yq a = BitVec.ofNat 32 c.val ∧ b = d then ((xq a b : ℝ) : EReal) else 0) = ((csum yq xq c d : ℝ) : EReal)
  have e2 : ∀ a : Fin 512, (∑ b : Fin 512, if (yq a = BitVec.ofNat 32 c.val ∧ b = d) then ((xq a b : ℝ) : EReal) else 0)
      = (((if yq a = BitVec.ofNat 32 c.val then xq a d else 0) : ℝ) : EReal) := by
    intro a
    by_cases h : yq a = BitVec.ofNat 32 c.val
    · simp [h]
    · simp [h]
  simp only [e2, IdealReal.coe_sum]
  rw [← EReal.coe_add, zero_add]
  rfl

theorem v49_real (ys : Fin 8192 → BitVec 32) : val_main_v49 (F := Ideal) (lab1 ys) = up1 (cnt ys) := by
  funext i
  obtain ⟨c, rfl⟩ : ∃ c : Fin 256, i = ValueIdx.ix1 c := ⟨i 0, ValueIdx.eq_ix1 i⟩
  unfold val_main_v49 Host.scatterAdd
  rw [Ideal.hostScatterAdd_def]
  unfold Ideal.hostScatterAdd
  rw [Finset.sum_filter, sum_idx1]
  have e0 : ∀ a : Fin 8192,
      (scatter_S256_S8192x1_S8192_n_0_0_1.resultIdx? (ValueIdx.ix1 a) (val_main_v48 (F := Ideal) (lab1 ys)) = some (ValueIdx.ix1 c))
        ↔ ys a = BitVec.ofNat 32 c.val := by
    intro a
    rw [land3, val_main_v48_apply, ← word_eq]
    exact Iff.rfl
  simp only [e0, val_main_v47_apply, val_main_cst_18_apply, val_main_v46_apply, val_main_cst_17_apply, Ideal.ofBits_def, Consts.ofBits_zero,
    Consts.ofBits_one]
  show ((0 : ℝ) : EReal) + (∑ a, if ys a = BitVec.ofNat 32 c.val then ((1 : ℝ) : EReal) else 0)
    = ((cnt ys c : ℝ) : EReal)
  have e2 : ∀ a : Fin 8192, (if ys a = BitVec.ofNat 32 c.val then ((1 : ℝ) : EReal) else 0)
      = (((if ys a = BitVec.ofNat 32 c.val then (1 : ℝ) else 0) : ℝ) : EReal) := by
    intro a; split <;> simp
  simp only [e2, IdealReal.coe_sum]
  rw [← EReal.coe_add, zero_add]
  rfl

theorem v52_real (xs : Fin 8192 → Fin 512 → ℝ) (ys : Fin 8192 → BitVec 32) :
    val_main_v52 (F := Ideal) (up2 xs) (lab1 ys) = up2 (csum ys xs) := by
  funext i
  obtain ⟨c, d, rfl⟩ : ∃ (c : Fin 256) (d : Fin 512), i = ValueIdx.ix2 c d := ⟨i 0, i 1, ValueIdx.eq_ix2 i⟩
  unfold val_main_v52 Host.scatterAdd
  rw [Ideal.hostScatterAdd_def]
  unfold Ideal.hostScatterAdd
  rw [Finset.sum_filter, ValueIdx.sum_idx2]
  have e0 : ∀ (a : Fin 8192) (b : Fin 512),
      (scatter_S256x512_S8192x1_S8192x512_1_0_0_1.resultIdx? (ValueIdx.ix2 a b) (val_main_v51 (F := Ideal) (lab1 ys)) =
        some (ValueIdx.ix2 c d)) ↔ (ys a = BitVec.ofNat 32 c.val ∧ b = d) := by
    intro a b
    rw [land4, val_main_v51_apply, ← word_eq]
    exact Iff.rfl
  simp only [e0, val_main_v50_apply, val_main_cst_19_apply, Ideal.ofBits_def, Consts.ofBits_zero]
  show ((0 : ℝ) : EReal) + (∑ a : Fin 8192, ∑ b : Fin 512,
      if ys a = BitVec.ofNat 32 c.val ∧ b = d then ((xs a b : ℝ) : EReal) else 0) = ((csum ys xs c d : ℝ) : EReal)
  have e2 : ∀ a : Fin 8192, (∑ b : Fin 512, if (ys a = BitVec.ofNat 32 c.val ∧ b = d) then ((xs a b : ℝ) : EReal) else 0)
      = (((if ys a = BitVec.ofNat 32 c.val then xs a d else 0) : ℝ) : EReal) := by
    intro a
    by_cases h : ys a = BitVec.ofNat 32 c.val
    · simp [h]
    · simp [h]
  simp only [e2, IdealReal.coe_sum]
  rw [← EReal.coe_add, zero_add]
  rfl

theorem v31_real (xq : Fin 512 → Fin 512 → ℝ) (yq : Fin 512 → BitVec 32) (d2 : Fin 512 → ℝ)
    (h : val_main_v28 (F := Ideal) (up2 xq) (lab1 yq) = up1 d2) :
    val_main_v31 (F := Ideal) (up2 xq) (lab1 yq) = up1 (fun c => ∑ b, if yq b = BitVec.ofNat 32 c.val then d2 b else 0) := by
  funext i
  obtain ⟨c, rfl⟩ : ∃ c : Fin 256, i = ValueIdx.ix1 c := ⟨i 0, ValueIdx.eq_ix1 i⟩
  unfold val_main_v31 Host.scatterAdd
  rw [Ideal.hostScatterAdd_def, h]
  unfold Ideal.hostScatterAdd
  rw [Finset.sum_filter, sum_idx1]
  have e0 : ∀ a : Fin 512,
      (scatter_S256_S512x1_S512_n_0_0_1.resultIdx? (ValueIdx.ix1 a) (val_main_v30 (F := Ideal) (lab1 yq)) = some (ValueIdx.ix1 c))
        ↔ yq a = BitVec.ofNat 32 c.val := by
    intro a
    rw [land1, val_main_v30_apply, ← word_eq]
    exact Iff.rfl
  simp only [e0, val_main_v29_apply, val_main_cst_7_apply, Ideal.ofBits_def, Consts.ofBits_zero]
  show ((0 : ℝ) : EReal) + (∑ a, if yq a = BitVec.ofNat 32 c.val then ((d2 a : ℝ) : EReal) else 0)
    = ((∑ b, if yq b = BitVec.ofNat 32 c.val then d2 b else 0 : ℝ) : EReal)
  have e2 : ∀ a : Fin 512, (if yq a = BitVec.ofNat 32 c.val then ((d2 a : ℝ) : EReal) else 0)
      = (((if yq a = BitVec.ofNat 32 c.val then d2 a else 0) : ℝ) : EReal) := by
    intro a; split <;> simp
  simp only [e2, IdealReal.coe_sum]
  rw [← EReal.coe_add, zero_add]

end Cert.PP.RScat1

end
-- ==== Proof.RGather.lean ====
/-
  The reference's gathers and its two scatters at a (row, class) pair, read at an index, for labels in 0 … 255 and
  positions in 0 … 8191: no index is negative, so none is moved, and every one is inside its axis.
  A word below 2³¹ fails the signed test against zero, so the wrap-around select keeps it; a gather's clamped start is
  then the word's value, and a scatter's update lands where its two index words say. The two-column index array is a
  concatenation read column by column: the row number, then the row's label. An update therefore lands on (b, c) exactly
  when it is row b's and row b's label names c, so each filtered sum has one term or none.
-/
import proofs.«415011_j18580028523148_3_alg».proof.Proof.RefReadP
import proofs.«415011_j18580028523148_3_alg».proof.Proof.Spec
import proofs.«415011_j18580028523148_3_alg».proof.Proof.RScat1
import proofs.«415011_j18580028523148_3_alg».proof.Proof.LibIdealReal
import proofs.«415011_j18580028523148_3_alg».proof.Proof.Consts
import Idealize.ShloMosaic.Lib.StableHlo.Predicate
import Idealize.ShloMosaic.Lib.ValueIdx

noncomputable section

namespace Cert.PP.RGather

open Idealize.ShloMosaic Cert.ReferenceIdeal Cert.ReferenceIdeal.Gen Cert.ReferenceIdeal.ReadP Cert.PP
open Idealize.ShloMosaic.ValueIdx Idealize.ShloMosaic.StableHlo

/-- A word below 2³¹ is not negative: the signed test against zero fails. -/
theorem slt_zero_of_small (w : BitVec 32) (h : w.toNat < 2 ^ 31) : IntOp.cmpi .slt w 0#32 = 0#1 := by
  apply eq_zero_of_ne_one
  intro h1
  have := (Predicate.slt_iff_toNat (a := w) (b := 0#32) h (by decide)).1 h1
  simp at this

/-- Wrapping a word that is not negative leaves it. -/
theorem wrap_small (w k : BitVec 32) (h : w.toNat < 2 ^ 31) :
    Scalar.select (IntOp.cmpi .slt w 0#32) (IntOp.addi w k) w = w := by
  rw [slt_zero_of_small w h, select_zero]

theorem v4_at (pos : Fin 512 → BitVec 32) (hpos : ∀ b, (pos b).toNat < 8192) (i : S512.Idx) :
    val_main_v4 (F := Ideal) (lab1 pos) i = pos (i 0) := by
  rw [val_main_v4_apply, val_main_v1_apply, val_main_v3_apply, val_main_v0_apply, val_main_c_apply]
  exact wrap_small _ _ (by have := hpos (i 0); show (pos (i 0)).toNat < 2 ^ 31; omega)

theorem v6_real (ys : Fin 8192 → BitVec 32) (pos : Fin 512 → BitVec 32) (hpos : ∀ b, (pos b).toNat < 8192) :
    val_main_v6 (F := Ideal) (lab1 ys) (lab1 pos) = lab1 (ynS ys pos) := by
  funext i
  obtain ⟨b, rfl⟩ : ∃ b : Fin 512, i = Shape.Idx.ofFin b := ⟨i 0, by funext d; match d with | ⟨0, _⟩ => rfl⟩
  unfold val_main_v6
  rw [Predicate.gather_take _ rfl rfl rfl rfl _ _ b (by decide)]
  have h5 : val_main_v5 (F := Ideal) (lab1 pos) (Predicate.ixP b) = pos b := by
    rw [val_main_v5_apply, v4_at pos hpos]; rfl
  have hb := hpos b
  have hI : (pos b).toInt = ((pos b).toNat : Int) := Predicate.toInt_eq_toNat_of_lt (by omega)
  show ys _ = ys _
  congr 1
  apply Fin.ext
  show min (val_main_v5 (F := Ideal) (lab1 pos) (Predicate.ixP b)).toInt.toNat (8192 - 1) = (pos b).toNat % 8192
  rw [h5, hI, Int.toNat_natCast]
  omega

/-- The row gather's operand index: the clamped start on the class axis, the result's own coordinate on the other. -/
theorem opIdx25 (idx : IVec S512x1 32) (b : Fin 512) (d' : Fin 512) :
    gather_S256x512_S512x1_S512x512_1_0_n_n_0_1_1512.operandIdx (ix2 b d') idx
      = ix2 (⟨min (idx (Predicate.ixP b)).toInt.toNat 255, by omega⟩ : Fin 256) d' := by
  funext a
  apply Fin.ext
  match a with
  | ⟨0, _⟩ =>
    show gather_S256x512_S512x1_S512x512_1_0_n_n_0_1_1512.start (ix2 b d') idx 0
        + gather_S256x512_S512x1_S512x512_1_0_n_n_0_1_1512.batchCoord (ix2 b d') 0
        + gather_S256x512_S512x1_S512x512_1_0_n_n_0_1_1512.offCoord (ix2 b d') 0 = min _ 255
    have hb : (0 : Fin 2) ∉ gather_S256x512_S512x1_S512x512_1_0_n_n_0_1_1512.operandBatchingDims := by
      show (0 : Fin 2) ∉ ([] : List (Fin 2)); exact List.not_mem_nil
    have hk : (0 : Fin 2) ∉ gather_S256x512_S512x1_S512x512_1_0_n_n_0_1_1512.sKept := by
      rw [GatherDims.mem_sKept]
      intro h; exact h.1 (by show (0 : Fin 2) ∈ ([0] : List (Fin 2)); exact List.mem_singleton.mpr rfl)
    rw [GatherDims.batchCoord_eq_zero _ _ _ hb, GatherDims.offCoord_eq_zero _ _ _ hk, Nat.add_zero]
    unfold GatherDims.start
    rw [dif_pos (show (0 : Fin 2) ∈ gather_S256x512_S512x1_S512x512_1_0_n_n_0_1_1512.startIndexMap from List.mem_singleton.mpr rfl)]
    have hsi : ∀ h, gather_S256x512_S512x1_S512x512_1_0_n_n_0_1_1512.siIdx (ix2 b d')
        ⟨List.idxOf (0 : Fin 2) gather_S256x512_S512x1_S512x512_1_0_n_n_0_1_1512.startIndexMap, h⟩ = Predicate.ixP b := by
      intro h; funext c; apply Fin.ext
      match c with
      | ⟨0, _⟩ => rfl
      | ⟨1, _⟩ => rfl
    rw [hsi]; rfl
  | ⟨1, _⟩ =>
    show gather_S256x512_S512x1_S512x512_1_0_n_n_0_1_1512.start (ix2 b d') idx 1
        + gather_S256x512_S512x1_S512x512_1_0_n_n_0_1_1512.batchCoord (ix2 b d') 1
        + gather_S256x512_S512x1_S512x512_1_0_n_n_0_1_1512.offCoord (ix2 b d') 1 = d'.val
    have hb : (1 : Fin 2) ∉ gather_S256x512_S512x1_S512x512_1_0_n_n_0_1_1512.operandBatchingDims := by
      show (1 : Fin 2) ∉ ([] : List (Fin 2)); exact List.not_mem_nil
    rw [GatherDims.batchCoord_eq_zero _ _ _ hb, Nat.add_zero]
    unfold GatherDims.start
    rw [dif_neg (show (1 : Fin 2) ∉ gather_S256x512_S512x1_S512x512_1_0_n_n_0_1_1512.startIndexMap from by
      show (1 : Fin 2) ∉ ([0] : List (Fin 2)); decide), Nat.zero_add]
    unfold GatherDims.offCoord
    have hk : (1 : Fin 2) ∈ gather_S256x512_S512x1_S512x512_1_0_n_n_0_1_1512.sKept := by
      rw [GatherDims.mem_sKept]
      exact ⟨by show (1 : Fin 2) ∉ ([0] : List (Fin 2)); decide, by show (1 : Fin 2) ∉ ([] : List (Fin 2)); exact List.not_mem_nil⟩
    rw [dif_pos hk]
    rfl

theorem v23_at (yq : Fin 512 → BitVec 32) (i : S512.Idx) (h : (yq (i 0)).toNat < 2 ^ 31) :
    val_main_v23 (F := Ideal) (lab1 yq) i = yq (i 0) := by
  rw [val_main_v23_apply, val_main_v20_apply, val_main_v22_apply, val_main_v19_apply, val_main_c_4_apply]
  exact wrap_small _ _ h

/-- The class means gathered at the query labels: row `b` is the mean of SOME class, and of class `c` when `yq b` names `c`. -/
theorem v25_real (xq : Fin 512 → Fin 512 → ℝ) (yq : Fin 512 → BitVec 32) (mq : Fin 256 → Fin 512 → ℝ)
    (h : val_main_v18 (F := Ideal) (up2 xq) (lab1 yq) = up2 mq) :
    ∃ g : Fin 512 → Fin 256, val_main_v25 (F := Ideal) (up2 xq) (lab1 yq) = up2 (fun b d => mq (g b) d)
      ∧ ∀ b c, yq b = BitVec.ofNat 32 c.val → g b = c := by
  refine ⟨fun b => ⟨min (val_main_v24 (F := Ideal) (lab1 yq) (Predicate.ixP b)).toInt.toNat 255, by omega⟩, ?_, ?_⟩
  · funext i
    obtain ⟨b, d, rfl⟩ : ∃ (b : Fin 512) (d : Fin 512), i = ix2 b d := ⟨i 0, i 1, eq_ix2 i⟩
    unfold val_main_v25 Host.gather
    rw [opIdx25, h]
    rfl
  · intro b c hc
    apply Fin.ext
    have hcl := c.isLt
    have hn : (yq b).toNat = c.val := by rw [hc, BitVec.toNat_ofNat]; omega
    have h24 : val_main_v24 (F := Ideal) (lab1 yq) (Predicate.ixP b) = yq b := by
      rw [val_main_v24_apply, v23_at yq _ (by show (yq b).toNat < 2 ^ 31; omega)]; rfl
    show min (val_main_v24 (F := Ideal) (lab1 yq) (Predicate.ixP b)).toInt.toNat 255 = c.val
    rw [h24, Predicate.toInt_eq_toNat_of_lt (by omega), Int.toNat_natCast]
    omega

/-- An update lands on `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrArg Fin.val (congrFun (Option.some.inj e) a)
      have h' := h a
      rw [← e']
      show _ = (((d.start j idx a + ↑(d.window j a)).toNat : Nat) : Int)
      omega
    · intro e
      congr 1
      funext a
      apply Fin.ext
      have := e a
      show (d.start j idx a + ↑(d.window j a)).toNat = (i a).val
      omega
  · next h =>
    constructor
    · intro e; cases e
    · intro e; exfalso; apply h; intro a; have := e a; have := (i a).isLt; omega

section D70

theorem D70_start0 (idx : IVec S512x2 32) (j : S512x512.Idx) :
    scatter_S512x256x512_S512x2_S512x512_1_01_01_1.start j idx 0 = (idx (ix2 (j 0) 0)).toInt := by
  unfold ScatterDims.start
  rw [dif_pos (show (0 : Fin 3) ∈ scatter_S512x256x512_S512x2_S512x512_1_01_01_1.scatterDimsToOperandDims from by
    show (0 : Fin 3) ∈ ([0, 1] : List (Fin 3)); decide)]
  congr 2
  funext c; apply Fin.ext
  match c with
  | ⟨0, _⟩ => rfl
  | ⟨1, _⟩ => rfl

theorem D70_start1 (idx : IVec S512x2 32) (j : S512x512.Idx) :
    scatter_S512x256x512_S512x2_S512x512_1_01_01_1.start j idx 1 = (idx (ix2 (j 0) 1)).toInt := by
  unfold ScatterDims.start
  rw [dif_pos (show (1 : Fin 3) ∈ scatter_S512x256x512_S512x2_S512x512_1_01_01_1.scatterDimsToOperandDims from by
    show (1 : Fin 3) ∈ ([0, 1] : List (Fin 3)); decide)]
  congr 2
  funext c; apply Fin.ext
  match c with
  | ⟨0, _⟩ => rfl
  | ⟨1, _⟩ => rfl

theorem D70_start2 (idx : IVec S512x2 32) (j : S512x512.Idx) :
    scatter_S512x256x512_S512x2_S512x512_1_01_01_1.start j idx 2 = 0 := by
  unfold ScatterDims.start
  rw [dif_neg (show (2 : Fin 3) ∉ scatter_S512x256x512_S512x2_S512x512_1_01_01_1.scatterDimsToOperandDims from by
    show (2 : Fin 3) ∉ ([0, 1] : List (Fin 3)); decide)]

theorem D70_window0 (j : S512x512.Idx) : scatter_S512x256x512_S512x2_S512x512_1_01_01_1.window j 0 = 0 := by
  unfold ScatterDims.window
  rw [dif_neg (show (0 : Fin 3) ∉ scatter_S512x256x512_S512x2_S512x512_1_01_01_1.sKept from by
    show (0 : Fin 3) ∉ Shape.kept S512x256x512 ([0, 1] : List (Fin 3)); decide)]

theorem D70_window1 (j : S512x512.Idx) : scatter_S512x256x512_S512x2_S512x512_1_01_01_1.window j 1 = 0 := by
  unfold ScatterDims.window
  rw [dif_neg (show (1 : Fin 3) ∉ scatter_S512x256x512_S512x2_S512x512_1_01_01_1.sKept from by
    show (1 : Fin 3) ∉ Shape.kept S512x256x512 ([0, 1] : List (Fin 3)); decide)]

theorem D70_window2 (j : S512x512.Idx) : scatter_S512x256x512_S512x2_S512x512_1_01_01_1.window j 2 = (j 1).val := by
  unfold ScatterDims.window
  rw [dif_pos (show (2 : Fin 3) ∈ scatter_S512x256x512_S512x2_S512x512_1_01_01_1.sKept from by
    show (2 : Fin 3) ∈ Shape.kept S512x256x512 ([0, 1] : List (Fin 3)); decide)]
  rfl

/-- Where update `(b', d')` of the rank-3 scatter lands: on `(row word, class word, d')`. -/
theorem D70_lands (idx : IVec S512x2 32) (j : S512x512.Idx) (b : Fin 512) (c : Fin 256) (d : Fin 512) :
    scatter_S512x256x512_S512x2_S512x512_1_01_01_1.resultIdx? j idx = some (ix3 b c d)
      ↔ (idx (ix2 (j 0) 0)).toInt = (b.val : Int) ∧ (idx (ix2 (j 0) 1)).toInt = (c.val : Int) ∧ j 1 = d := by
  rw [resultIdx?_eq_some_iff]
  constructor
  · intro h
    have h0 := h 0; have h1 := h 1; have h2 := h 2
    rw [D70_start0, D70_window0] at h0
    rw [D70_start1, D70_window1] at h1
    rw [D70_start2, D70_window2] at h2
    refine ⟨by simpa using h0, by simpa using h1, Fin.ext ?_⟩
    have : ((j 1).val : Int) = (d.val : Int) := by simpa using h2
    exact_mod_cast this
  · rintro ⟨h0, h1, h2⟩ a
    match a with
    | ⟨0, _⟩ => show scatter_S512x256x512_S512x2_S512x512_1_01_01_1.start j idx 0 + ((scatter_S512x256x512_S512x2_S512x512_1_01_01_1.window j 0 : Nat) : Int) = (b.val : Int); rw [D70_start0, D70_window0, h0]; simp
    | ⟨1, _⟩ => show scatter_S512x256x512_S512x2_S512x512_1_01_01_1.start j idx 1 + ((scatter_S512x256x512_S512x2_S512x512_1_01_01_1.window j 1 : Nat) : Int) = (c.val : Int); rw [D70_start1, D70_window1, h1]; simp
    | ⟨2, _⟩ => show scatter_S512x256x512_S512x2_S512x512_1_01_01_1.start j idx 2 + ((scatter_S512x256x512_S512x2_S512x512_1_01_01_1.window j 2 : Nat) : Int) = (d.val : Int); rw [D70_start2, D70_window2, h2]; simp

end D70

theorem ynS_lt (ys : Fin 8192 → BitVec 32) (pos : Fin 512 → BitVec 32) (hys : ∀ j, (ys j).toNat < 256) (b : Fin 512) :
    (ynS ys pos b).toNat < 256 := hys _

/-- The first column of the index pairs: the row number. -/
theorem v69_col0 (ys : Fin 8192 → BitVec 32) (pos : Fin 512 → BitVec 32) (b' : Fin 512) :
    val_main_v69 (F := Ideal) (lab1 ys) (lab1 pos) (ix2 b' 0) = BitVec.ofNat 32 b'.val := by
  unfold val_main_v69
  rw [concatenate_pair_apply_left (t := S512x2) (s₁ := S512x1) (s₂ := S512x1) (1 : Fin 2) _ _ concatenates_S512x1_S512x1_S512x2_d1 (ix2 b' (0 : Fin 2)) rfl (ix2 b' (0 : Fin 1))
    (fun c => by match c with | ⟨0, _⟩ => rfl | ⟨1, _⟩ => rfl)]
  rw [val_main_v67_apply, val_main_v61_apply, val_main_v58_apply, val_main_v60_apply, val_main_v57_apply, val_main_c_20_apply,
    val_main_v53_apply]
  refine wrap_small _ _ ?_
  have := b'.isLt
  show (BitVec.ofNat 32 b'.val).toNat < 2 ^ 31
  rw [BitVec.toNat_ofNat]; omega

/-- The second column of the index pairs: the row's label. -/
theorem v69_col1 (ys : Fin 8192 → BitVec 32) (pos : Fin 512 → BitVec 32)
    (hys : ∀ j, (ys j).toNat < 256) (hpos : ∀ b, (pos b).toNat < 8192) (b' : Fin 512) :
    val_main_v69 (F := Ideal) (lab1 ys) (lab1 pos) (ix2 b' 1) = ynS ys pos b' := by
  unfold val_main_v69
  rw [concatenate_pair_apply_right (t := S512x2) (s₁ := S512x1) (s₂ := S512x1) (1 : Fin 2) _ _ concatenates_S512x1_S512x1_S512x2_d1 (ix2 b' (1 : Fin 2)) rfl rfl (ix2 b' (0 : Fin 1))
    (fun c hc => by match c with | ⟨0, _⟩ => rfl | ⟨1, _⟩ => exact absurd rfl hc) rfl]
  rw [val_main_v68_apply, val_main_v66_apply, val_main_v63_apply, val_main_v65_apply, val_main_v62_apply, val_main_c_22_apply,
    v6_real ys pos hpos]
  refine wrap_small _ _ ?_
  have := ynS_lt ys pos hys b'
  show (ynS ys pos b').toNat < 2 ^ 31
  omega

/-- A word below 256 names class `c` exactly when its value is `c`. -/
theorem names_iff (w : BitVec 32) (hw : w.toNat < 256) (c : Fin 256) : w = BitVec.ofNat 32 c.val ↔ w.toNat = c.val := by
  have := c.isLt
  constructor
  · intro h; rw [h, BitVec.toNat_ofNat]; omega
  · intro h; apply BitVec.eq_of_toNat_eq; rw [BitVec.toNat_ofNat, h]; omega

/-- The updates that land on `(b, c, d)`: row `b`'s, coordinate `d`, when row `b`'s label names `c`; none otherwise. -/
theorem v70_filter (ys : Fin 8192 → BitVec 32) (pos : Fin 512 → BitVec 32)
    (hys : ∀ j, (ys j).toNat < 256) (hpos : ∀ b, (pos b).toNat < 8192) (b : Fin 512) (c : Fin 256) (d : Fin 512) (j : S512x512.Idx) :
    scatter_S512x256x512_S512x2_S512x512_1_01_01_1.resultIdx? j (val_main_v69 (F := Ideal) (lab1 ys) (lab1 pos)) = some (ix3 b c d)
      ↔ (j = ix2 b d ∧ ynS ys pos b = BitVec.ofNat 32 c.val) := by
  rw [D70_lands]
  obtain ⟨b', d', rfl⟩ : ∃ (b' : Fin 512) (d' : Fin 512), j = ix2 b' d' := ⟨j 0, j 1, eq_ix2 j⟩
  show (val_main_v69 (F := Ideal) (lab1 ys) (lab1 pos) (ix2 b' 0)).toInt = _
    ∧ (val_main_v69 (F := Ideal) (lab1 ys) (lab1 pos) (ix2 b' 1)).toInt = _ ∧ d' = d ↔ _
  rw [v69_col0, v69_col1 ys pos hys hpos]
  have hb' := b'.isLt
  have hy := ynS_lt ys pos hys b'
  rw [Predicate.toInt_ofNat_small _ (by omega), Predicate.toInt_eq_toNat_of_lt (by omega)]
  constructor
  · rintro ⟨h0, h1, h2⟩
    have hbb : b' = b := Fin.ext (by exact_mod_cast h0)
    subst hbb; subst h2
    exact ⟨rfl, (names_iff _ hy c).2 (by exact_mod_cast h1)⟩
  · rintro ⟨hj, hn⟩
    have h0 : b' = b := congrFun hj 0
    have h1 : d' = d := congrFun hj 1
    subst h0; subst h1
    exact ⟨rfl, by exact_mod_cast (names_iff _ hy c).1 hn, rfl⟩

theorem v70_real (xq : Fin 512 → Fin 512 → ℝ) (xs : Fin 8192 → Fin 512 → ℝ) (ys : Fin 8192 → BitVec 32) (pos : Fin 512 → BitVec 32)
    (hys : ∀ j, (ys j).toNat < 256) (hpos : ∀ b, (pos b).toNat < 8192) :
    val_main_v70 (F := Ideal) (up2 xq) (up2 xs) (lab1 ys) (lab1 pos)
      = fun i => ((csum ys xs (i 1) (i 2) + (if ynS ys pos (i 0) = BitVec.ofNat 32 (i 1).val then -xq (i 0) (i 2) else 0) : ℝ) : EReal) := by
  funext i
  obtain ⟨b, c, d, rfl⟩ : ∃ (b : Fin 512) (c : Fin 256) (d : Fin 512), i = ix3 b c d := ⟨i 0, i 1, i 2, eq_ix3 i⟩
  show val_main_v70 (F := Ideal) (up2 xq) (up2 xs) (lab1 ys) (lab1 pos) (ix3 b c d)
    = ((csum ys xs c d + (if ynS ys pos b = BitVec.ofNat 32 c.val then -xq b d else 0) : ℝ) : EReal)
  unfold val_main_v70 Host.scatterAdd
  rw [Ideal.hostScatterAdd_def]
  unfold Ideal.hostScatterAdd
  rw [Finset.filter_congr (fun j _ => v70_filter ys pos hys hpos b c d j)]
  have hx : val_main_v55 (F := Ideal) (up2 xs) (lab1 ys) (ix3 b c d) = ((csum ys xs c d : ℝ) : EReal) := by
    rw [val_main_v55_apply, val_main_v54_apply, RScat1.v52_real]; rfl
  rw [hx]
  by_cases hn : ynS ys pos b = BitVec.ofNat 32 c.val
  · rw [if_pos hn]
    have hs : (Finset.univ.filter fun j : S512x512.Idx => j = ix2 b d ∧ ynS ys pos b = BitVec.ofNat 32 c.val) = {ix2 b d} := by
      ext j; simp [hn]
    rw [hs, Finset.sum_singleton, val_main_v56_apply]
    show _ + -(((xq b d : ℝ)) : EReal) = _
    rw [← EReal.coe_neg, ← EReal.coe_add]
  · rw [if_neg hn]
    have hs : (Finset.univ.filter fun j : S512x512.Idx => j = ix2 b d ∧ ynS ys pos b = BitVec.ofNat 32 c.val) = ∅ := by
      ext j; simp [hn]
    rw [hs, Finset.sum_empty, add_zero, add_zero]

section D87

theorem D87_start0 (idx : IVec S512x2 32) (j : S512.Idx) :
    scatter_S512x256_S512x2_S512_n_01_01_1.start j idx 0 = (idx (ix2 (j 0) 0)).toInt := by
  unfold ScatterDims.start
  rw [dif_pos (show (0 : Fin 2) ∈ scatter_S512x256_S512x2_S512_n_01_01_1.scatterDimsToOperandDims from by
    show (0 : Fin 2) ∈ ([0, 1] : List (Fin 2)); decide)]
  congr 2
  funext c; apply Fin.ext
  match c with
  | ⟨0, _⟩ => rfl
  | ⟨1, _⟩ => rfl

theorem D87_start1 (idx : IVec S512x2 32) (j : S512.Idx) :
    scatter_S512x256_S512x2_S512_n_01_01_1.start j idx 1 = (idx (ix2 (j 0) 1)).toInt := by
  unfold ScatterDims.start
  rw [dif_pos (show (1 : Fin 2) ∈ scatter_S512x256_S512x2_S512_n_01_01_1.scatterDimsToOperandDims from by
    show (1 : Fin 2) ∈ ([0, 1] : List (Fin 2)); decide)]
  congr 2
  funext c; apply Fin.ext
  match c with
  | ⟨0, _⟩ => rfl
  | ⟨1, _⟩ => rfl

theorem D87_window0 (j : S512.Idx) : scatter_S512x256_S512x2_S512_n_01_01_1.window j 0 = 0 := by
  unfold ScatterDims.window
  rw [dif_neg (show (0 : Fin 2) ∉ scatter_S512x256_S512x2_S512_n_01_01_1.sKept from by
    show (0 : Fin 2) ∉ Shape.kept S512x256 ([0, 1] : List (Fin 2)); decide)]

theorem D87_window1 (j : S512.Idx) : scatter_S512x256_S512x2_S512_n_01_01_1.window j 1 = 0 := by
  unfold ScatterDims.window
  rw [dif_neg (show (1 : Fin 2) ∉ scatter_S512x256_S512x2_S512_n_01_01_1.sKept from by
    show (1 : Fin 2) ∉ Shape.kept S512x256 ([0, 1] : List (Fin 2)); decide)]

/-- Where update `b'` of the rank-2 scatter lands: on `(row word, class word)`. -/
theorem D87_lands (idx : IVec S512x2 32) (j : S512.Idx) (b : Fin 512) (c : Fin 256) :
    scatter_S512x256_S512x2_S512_n_01_01_1.resultIdx? j idx = some (ix2 b c)
      ↔ (idx (ix2 (j 0) 0)).toInt = (b.val : Int) ∧ (idx (ix2 (j 0) 1)).toInt = (c.val : Int) := by
  rw [resultIdx?_eq_some_iff]
  constructor
  · intro h
    have h0 := h 0; have h1 := h 1
    rw [D87_start0, D87_window0] at h0
    rw [D87_start1, D87_window1] at h1
    exact ⟨by simpa using h0, by simpa using h1⟩
  · rintro ⟨h0, h1⟩ a
    match a with
    | ⟨0, _⟩ => show scatter_S512x256_S512x2_S512_n_01_01_1.start j idx 0 + ((scatter_S512x256_S512x2_S512_n_01_01_1.window j 0 : Nat) : Int) = (b.val : Int); rw [D87_start0, D87_window0, h0]; simp
    | ⟨1, _⟩ => show scatter_S512x256_S512x2_S512_n_01_01_1.start j idx 1 + ((scatter_S512x256_S512x2_S512_n_01_01_1.window j 1 : Nat) : Int) = (c.val : Int); rw [D87_start1, D87_window1, h1]; simp

end D87

theorem v85_col0 (ys : Fin 8192 → BitVec 32) (pos : Fin 512 → BitVec 32) (b' : Fin 512) :
    val_main_v85 (F := Ideal) (lab1 ys) (lab1 pos) (ix2 b' 0) = BitVec.ofNat 32 b'.val := by
  unfold val_main_v85
  rw [concatenate_pair_apply_left (t := S512x2) (s₁ := S512x1) (s₂ := S512x1) (1 : Fin 2) _ _ concatenates_S512x1_S512x1_S512x2_d1 (ix2 b' (0 : Fin 2)) rfl (ix2 b' (0 : Fin 1))
    (fun c => by match c with | ⟨0, _⟩ => rfl | ⟨1, _⟩ => rfl)]
  rw [val_main_v83_apply, val_main_v77_apply, val_main_v74_apply, val_main_v76_apply, val_main_v73_apply, val_main_c_24_apply,
    val_main_v53_apply]
  refine wrap_small _ _ ?_
  have := b'.isLt
  show (BitVec.ofNat 32 b'.val).toNat < 2 ^ 31
  rw [BitVec.toNat_ofNat]; omega

theorem v85_col1 (ys : Fin 8192 → BitVec 32) (pos : Fin 512 → BitVec 32)
    (hys : ∀ j, (ys j).toNat < 256) (hpos : ∀ b, (pos b).toNat < 8192) (b' : Fin 512) :
    val_main_v85 (F := Ideal) (lab1 ys) (lab1 pos) (ix2 b' 1) = ynS ys pos b' := by
  unfold val_main_v85
  rw [concatenate_pair_apply_right (t := S512x2) (s₁ := S512x1) (s₂ := S512x1) (1 : Fin 2) _ _ concatenates_S512x1_S512x1_S512x2_d1 (ix2 b' (1 : Fin 2)) rfl rfl (ix2 b' (0 : Fin 1))
    (fun c hc => by match c with | ⟨0, _⟩ => rfl | ⟨1, _⟩ => exact absurd rfl hc) rfl]
  rw [val_main_v84_apply, val_main_v82_apply, val_main_v79_apply, val_main_v81_apply, val_main_v78_apply, val_main_c_26_apply,
    v6_real ys pos hpos]
  refine wrap_small _ _ ?_
  have := ynS_lt ys pos hys b'
  show (ynS ys pos b').toNat < 2 ^ 31
  omega

/-- The updates that land on `(b, c)`: row `b`'s, when row `b`'s label names `c`; none otherwise. -/
theorem v87_filter (ys : Fin 8192 → BitVec 32) (pos : Fin 512 → BitVec 32)
    (hys : ∀ j, (ys j).toNat < 256) (hpos : ∀ b, (pos b).toNat < 8192) (b : Fin 512) (c : Fin 256) (j : S512.Idx) :
    scatter_S512x256_S512x2_S512_n_01_01_1.resultIdx? j (val_main_v85 (F := Ideal) (lab1 ys) (lab1 pos)) = some (ix2 b c)
      ↔ (j = ix1 b ∧ ynS ys pos b = BitVec.ofNat 32 c.val) := by
  rw [D87_lands]
  obtain ⟨b', rfl⟩ : ∃ (b' : Fin 512), j = ix1 b' := ⟨j 0, eq_ix1 j⟩
  show (val_main_v85 (F := Ideal) (lab1 ys) (lab1 pos) (ix2 b' 0)).toInt = _
    ∧ (val_main_v85 (F := Ideal) (lab1 ys) (lab1 pos) (ix2 b' 1)).toInt = _ ↔ _
  rw [v85_col0, v85_col1 ys pos hys hpos]
  have hb' := b'.isLt
  have hy := ynS_lt ys pos hys b'
  rw [Predicate.toInt_ofNat_small _ (by omega), Predicate.toInt_eq_toNat_of_lt (by omega)]
  constructor
  · rintro ⟨h0, h1⟩
    have hbb : b' = b := Fin.ext (by exact_mod_cast h0)
    subst hbb
    exact ⟨rfl, (names_iff _ hy c).2 (by exact_mod_cast h1)⟩
  · rintro ⟨hj, hn⟩
    have h0 : b' = b := congrFun hj 0
    subst h0
    exact ⟨rfl, by exact_mod_cast (names_iff _ hy c).1 hn⟩

theorem v87_real (ys : Fin 8192 → BitVec 32) (pos : Fin 512 → BitVec 32)
    (hys : ∀ j, (ys j).toNat < 256) (hpos : ∀ b, (pos b).toNat < 8192) :
    val_main_v87 (F := Ideal) (lab1 ys) (lab1 pos)
      = up2 (fun b c => cnt ys c + (if ynS ys pos b = BitVec.ofNat 32 c.val then (-1 : ℝ) else 0)) := by
  funext i
  obtain ⟨b, c, rfl⟩ : ∃ (b : Fin 512) (c : Fin 256), i = ix2 b c := ⟨i 0, i 1, eq_ix2 i⟩
  show val_main_v87 (F := Ideal) (lab1 ys) (lab1 pos) (ix2 b c)
    = ((cnt ys c + (if ynS ys pos b = BitVec.ofNat 32 c.val then (-1 : ℝ) else 0) : ℝ) : EReal)
  unfold val_main_v87 Host.scatterAdd
  rw [Ideal.hostScatterAdd_def]
  unfold Ideal.hostScatterAdd
  rw [Finset.filter_congr (fun j _ => v87_filter ys pos hys hpos b c j)]
  have hx : val_main_v72 (F := Ideal) (lab1 ys) (ix2 b c) = ((cnt ys c : ℝ) : EReal) := by
    rw [val_main_v72_apply, val_main_v71_apply, RScat1.v49_real]; rfl
  have hu : ∀ j, val_main_v86 (F := Ideal) j = (((-1 : ℝ)) : EReal) := by
    intro j; rw [val_main_v86_apply, val_main_cst_28_apply]; exact Consts.ofBits_neg_one
  rw [hx]
  by_cases hn : ynS ys pos b = BitVec.ofNat 32 c.val
  · rw [if_pos hn]
    have hs : (Finset.univ.filter fun j : S512.Idx => j = ix1 b ∧ ynS ys pos b = BitVec.ofNat 32 c.val) = {ix1 b} := by
      ext j; simp [hn]
    rw [hs, Finset.sum_singleton, hu, ← EReal.coe_add]
  · rw [if_neg hn]
    have hs : (Finset.univ.filter fun j : S512.Idx => j = ix1 b ∧ ynS ys pos b = BitVec.ofNat 32 c.val) = ∅ := by
      ext j; simp [hn]
    rw [hs, Finset.sum_empty, add_zero, add_zero]

/-- A left fold of one-bit "and" over bits that are all set, from a set bit, is a set bit. -/
theorem foldl_andi_one {ι : Type} (l : List ι) (x : ι → BitVec 1) (hx : ∀ i, x i = 1#1) :
    l.foldl (fun r i => IntOp.andi r (x i)) 1#1 = 1#1 := by
  induction l with
  | nil => rfl
  | cons a l ih =>
    rw [List.foldl_cons, hx a]
    have h11 : IntOp.andi (1#1 : BitVec 1) 1#1 = 1#1 := by decide
    rw [h11]; exact ih

/-- The index column of the last gather: the queries' own labels, not negative, so not moved. -/
theorem call4_v5_at (ys : Fin 8192 → BitVec 32) (pos : Fin 512 → BitVec 32)
    (hys : ∀ j, (ys j).toNat < 256) (hpos : ∀ b, (pos b).toNat < 8192) (i : S512x1x1.Idx) :
    val_main_call4_v5 (F := Ideal) (lab1 ys) (lab1 pos) i = ynS ys pos (i 0) := by
  rw [val_main_call4_v5_apply, val_main_call4_v4_apply, val_main_call4_v1_apply, val_main_call4_v3_apply,
    val_main_call4_v0_apply, val_main_call4_c_apply, val_main_v107_apply, v6_real ys pos hpos]
  have e : lab1 (ynS ys pos) (idx_main_v107 (idx_main_call4_v5 i)) = ynS ys pos (i 0) := by
    show ynS ys pos _ = ynS ys pos (i 0)
    congr 1; apply Fin.ext
    show (((i 0).val * 1 + (i 1).val) * 1 + (i 2).val) / 1 = (i 0).val
    have h1 : (i 1).val < 1 := (i 1).isLt
    have h2 : (i 2).val < 1 := (i 2).isLt
    omega
  rw [e]
  exact wrap_small _ _ (by have := ynS_lt ys pos hys (i 0); omega)

/-- The in-bounds test of the last gather holds at every query: its label is between 0 and 255. -/
theorem call4_v12_at (ys : Fin 8192 → BitVec 32) (pos : Fin 512 → BitVec 32)
    (hys : ∀ j, (ys j).toNat < 256) (hpos : ∀ b, (pos b).toNat < 8192) (i : S512x1.Idx) :
    val_main_call4_v12 (F := Ideal) (lab1 ys) (lab1 pos) i = 1#1 := by
  unfold val_main_call4_v12
  rw [Host.reduce_eq_foldl]
  show List.foldl (fun r i' => IntOp.andi r (val_main_call4_v11 (F := Ideal) (lab1 ys) (lab1 pos) i')) 1#1 _ = 1#1
  apply foldl_andi_one
  intro i'
  rw [val_main_call4_v11_apply, val_main_call4_v7_apply, val_main_call4_v10_apply, call4_v5_at ys pos hys hpos,
    val_main_call4_v6_apply, val_main_call4_c_2_apply, val_main_call4_v9_apply, val_main_call4_v8_apply, val_main_call4_c_1_apply]
  have hy := ynS_lt ys pos hys (i' 0)
  have h1 : IntOp.cmpi .sge (ynS ys pos (i' 0)) 0#32 = 1#1 :=
    (Predicate.sge_iff_toNat (by omega) (by decide)).2 (by simp)
  have h2 : IntOp.cmpi .sle (ynS ys pos (i' 0)) 255#32 = 1#1 :=
    (Predicate.sle_iff_toNat (by omega) (by decide)).2 (by show (ynS ys pos (i' 0)).toNat ≤ (255#32 : BitVec 32).toNat; simp; omega)
  rw [h1, h2]; decide

/-- The last gather's operand index: the query's own row, the clamped start on the class axis. -/
theorem opIdx108 (idx : IVec S512x1x1 32) (b : Fin 512) :
    gather_S512x256_S512x1x1_S512x1_n_1_0_0_1_2_11.operandIdx (ix2 b (0 : Fin 1)) idx
      = ix2 b (⟨min (idx (ix3 b 0 0)).toInt.toNat 255, by omega⟩ : Fin 256) := by
  funext a
  apply Fin.ext
  match a with
  | ⟨0, _⟩ =>
    show gather_S512x256_S512x1x1_S512x1_n_1_0_0_1_2_11.start (ix2 b (0 : Fin 1)) idx 0
        + gather_S512x256_S512x1x1_S512x1_n_1_0_0_1_2_11.batchCoord (ix2 b (0 : Fin 1)) 0
        + gather_S512x256_S512x1x1_S512x1_n_1_0_0_1_2_11.offCoord (ix2 b (0 : Fin 1)) 0 = b.val
    have hbm : (0 : Fin 2) ∈ gather_S512x256_S512x1x1_S512x1_n_1_0_0_1_2_11.operandBatchingDims := by
      show (0 : Fin 2) ∈ ([0] : List (Fin 2)); decide
    rw [GatherDims.start_batching _ _ _ _ hbm,
      GatherDims.offCoord_eq_zero _ _ _ (fun h => ((GatherDims.mem_sKept _ _).1 h).2 hbm)]
    simp only [Nat.add_zero, Nat.zero_add]
    unfold GatherDims.batchCoord
    rw [dif_pos hbm]
    rfl
  | ⟨1, _⟩ =>
    show gather_S512x256_S512x1x1_S512x1_n_1_0_0_1_2_11.start (ix2 b (0 : Fin 1)) idx 1
        + gather_S512x256_S512x1x1_S512x1_n_1_0_0_1_2_11.batchCoord (ix2 b (0 : Fin 1)) 1
        + gather_S512x256_S512x1x1_S512x1_n_1_0_0_1_2_11.offCoord (ix2 b (0 : Fin 1)) 1 = min _ 255
    have hb : (1 : Fin 2) ∉ gather_S512x256_S512x1x1_S512x1_n_1_0_0_1_2_11.operandBatchingDims := by
      show (1 : Fin 2) ∉ ([0] : List (Fin 2)); decide
    have hk : (1 : Fin 2) ∉ gather_S512x256_S512x1x1_S512x1_n_1_0_0_1_2_11.sKept := by
      rw [GatherDims.mem_sKept]
      intro h; exact h.1 (by show (1 : Fin 2) ∈ ([1] : List (Fin 2)); decide)
    rw [GatherDims.batchCoord_eq_zero _ _ _ hb, GatherDims.offCoord_eq_zero _ _ _ hk]
    simp only [Nat.add_zero]
    unfold GatherDims.start
    rw [dif_pos (show (1 : Fin 2) ∈ gather_S512x256_S512x1x1_S512x1_n_1_0_0_1_2_11.startIndexMap from List.mem_singleton.mpr rfl)]
    have hsi : ∀ h, gather_S512x256_S512x1x1_S512x1_n_1_0_0_1_2_11.siIdx (ix2 b (0 : Fin 1))
        ⟨List.idxOf (1 : Fin 2) gather_S512x256_S512x1x1_S512x1_n_1_0_0_1_2_11.startIndexMap, h⟩ = ix3 b 0 0 := by
      intro h; funext c; apply Fin.ext
      match c with
      | ⟨0, _⟩ => rfl
      | ⟨1, _⟩ => rfl
      | ⟨2, _⟩ => rfl
    rw [hsi]; rfl

/-- `take_along_axis` at the queries' own labels: inside the class axis, so the gathered entry, never the fill. -/
theorem v108_real (xq : Fin 512 → Fin 512 → ℝ) (xs : Fin 8192 → Fin 512 → ℝ) (ys : Fin 8192 → BitVec 32) (pos : Fin 512 → BitVec 32)
    (hys : ∀ j, (ys j).toNat < 256) (hpos : ∀ b, (pos b).toNat < 8192) (lp : Fin 512 → Fin 256 → ℝ)
    (h : val_main_v106 (F := Ideal) (up2 xq) (up2 xs) (lab1 ys) (lab1 pos) = up2 lp) :
    val_main_v108 (F := Ideal) (up2 xq) (up2 xs) (lab1 ys) (lab1 pos)
      = fun i => ((∑ c : Fin 256, if ynS ys pos (i 0) = BitVec.ofNat 32 c.val then lp (i 0) c else 0 : ℝ) : EReal) := by
  funext i
  obtain ⟨b, z, rfl⟩ : ∃ (b : Fin 512) (z : Fin 1), i = ix2 b z := ⟨i 0, i 1, eq_ix2 i⟩
  obtain rfl : z = 0 := Subsingleton.elim _ _
  show val_main_v108 (F := Ideal) (up2 xq) (up2 xs) (lab1 ys) (lab1 pos) (ix2 b 0)
    = ((∑ c : Fin 256, if ynS ys pos b = BitVec.ofNat 32 c.val then lp b c else 0 : ℝ) : EReal)
  rw [val_main_v108_apply, call4_v12_at ys pos hys hpos, select_one]
  unfold val_main_call4_v13 Host.gather
  rw [opIdx108, h]
  have hy := ynS_lt ys pos hys b
  have h5 : val_main_call4_v5 (F := Ideal) (lab1 ys) (lab1 pos) (ix3 b 0 0) = ynS ys pos b :=
    call4_v5_at ys pos hys hpos _
  show ((lp b _ : ℝ) : EReal) = _
  congr 1
  rw [Finset.sum_eq_single (⟨(ynS ys pos b).toNat, hy⟩ : Fin 256)]
  · rw [if_pos ((names_iff _ hy _).2 rfl)]
    congr 1; apply Fin.ext
    show min (val_main_call4_v5 (F := Ideal) (lab1 ys) (lab1 pos) (ix3 b 0 0)).toInt.toNat 255 = (ynS ys pos b).toNat
    rw [h5, Predicate.toInt_eq_toNat_of_lt (by omega), Int.toNat_natCast]; omega
  · intro c _ hc
    rw [if_neg]
    intro hn; apply hc; apply Fin.ext; exact (names_iff _ hy c).1 hn |>.symm
  · intro hne; exact absurd (Finset.mem_univ _) hne

end Cert.PP.RGather

end
-- ==== Proof.RVar.lean ====
/-
  The reference's intra-class variance over real query rows is `varS`: a class's summed squared distances divided by
  its count and multiplied by it again is the sum itself when the count is at least three.
-/
import proofs.«415011_j18580028523148_3_alg».proof.Proof.RefReadP
import proofs.«415011_j18580028523148_3_alg».proof.Proof.Spec
import proofs.«415011_j18580028523148_3_alg».proof.Proof.RScat1
import proofs.«415011_j18580028523148_3_alg».proof.Proof.RGather
import proofs.«415011_j18580028523148_3_alg».proof.Proof.LibIdealReal
import proofs.«415011_j18580028523148_3_alg».proof.Proof.Consts
import Idealize.ShloMosaic.Lib.ValueIdxRank1

noncomputable section

namespace Cert.PP.RVar

open Idealize.ShloMosaic Cert.ReferenceIdeal Cert.ReferenceIdeal.Gen Cert.ReferenceIdeal.ReadP Cert.PP

/-- A count capped below by one is never zero. -/
private theorem max_one_ne (a : ℝ) : max a 1 ≠ 0 :=
  ne_of_gt (lt_of_lt_of_le one_pos (le_max_right _ _))

/-- A sum over the indices of a 256-array of embedded reals is the embedded sum over the classes. -/
private theorem sum_S256 (f : Fin 256 → ℝ) :
    (∑ j : S256.Idx, ((f (j 0) : ℝ) : EReal)) = ((∑ c, f c : ℝ) : EReal) := by
  rw [← IdealReal.coe_sum]
  exact Equiv.sum_comp (ValueIdx.idxEquiv1 (n := 256)) (fun c => ((f c : ℝ) : EReal))

/-- The counts capped below by one. -/
private theorem v15_real (yq : Fin 512 → BitVec 32) :
    val_main_v15 (F := Ideal) (lab1 yq) = up1 (fun c => max (cnt yq c) 1) := by
  funext i
  rw [val_main_v15_apply, RScat1.v10_real, val_main_v14_apply, val_main_cst_3_apply, Ideal.maximumf_def,
    Ideal.ofBits_def, Consts.ofBits_one]
  exact IdealReal.max_coe _ _

private theorem v33_real (yq : Fin 512 → BitVec 32) :
    val_main_v33 (F := Ideal) (lab1 yq) = up1 (fun c => max (cnt yq c) 1) := by
  funext i
  rw [val_main_v33_apply, RScat1.v10_real, val_main_v32_apply, val_main_cst_8_apply, Ideal.maximumf_def,
    Ideal.ofBits_def, Consts.ofBits_one]
  exact IdealReal.max_coe _ _

/-- The class means. -/
private theorem v18_real (xq : Fin 512 → Fin 512 → ℝ) (yq : Fin 512 → BitVec 32) :
    val_main_v18 (F := Ideal) (up2 xq) (lab1 yq) = up2 (fun c d => csum yq xq c d / max (cnt yq c) 1) := by
  funext i
  rw [val_main_v18_apply, RScat1.v13_real, val_main_v17_apply, val_main_v16_apply, v15_real, Ideal.hostDivf_def]
  show Ideal.div ((csum yq xq (i 0) (i 1) : ℝ) : EReal) ((max (cnt yq (i 0)) 1 : ℝ) : EReal) = _
  rw [IdealReal.div_coe_coe _ _ (max_one_ne _)]
  rfl

/-- The squared distance of each row to the gathered mean, summed along the row. -/
private theorem v28_real (xq : Fin 512 → Fin 512 → ℝ) (yq : Fin 512 → BitVec 32) (m : Fin 512 → Fin 512 → ℝ)
    (h : val_main_v25 (F := Ideal) (up2 xq) (lab1 yq) = up2 m) :
    val_main_v28 (F := Ideal) (up2 xq) (lab1 yq) = up1 (fun b => ∑ d, (xq b d - m b d) ^ 2) := by
  funext i
  rw [val_main_v28_apply]
  have hk : ∀ k : Fin 512, val_main_v27 (F := Ideal) (up2 xq) (lab1 yq) (idx_main_v28 i k)
      = (((xq (i 0) k - m (i 0) k) ^ 2 : ℝ) : EReal) := by
    intro k
    rw [val_main_v27_apply, val_main_v26_apply, h, Ideal.mulf_def, Ideal.subf_def]
    show (((xq (i 0) k : ℝ) : EReal) - ((m (i 0) k : ℝ) : EReal)) * (((xq (i 0) k : ℝ) : EReal) - ((m (i 0) k : ℝ) : EReal)) = _
    rw [← EReal.coe_sub, ← EReal.coe_mul]
    congr 1
    ring
  rw [Finset.sum_congr rfl (fun k _ => hk k), val_main_cst_6_apply, Ideal.ofBits_def, Consts.ofBits_zero,
    IdealReal.coe_sum, ← EReal.coe_add, zero_add]
  rfl

/-- Whether a class has at least three rows. -/
private theorem v36_real (yq : Fin 512 → BitVec 32) (i : S256.Idx) :
    val_main_v36 (F := Ideal) (lab1 yq) i = if 3 ≤ cnt yq (i 0) then 1#1 else 0#1 := by
  rw [val_main_v36_apply, RScat1.v10_real, val_main_v35_apply, val_main_cst_9_apply, Ideal.cmpf_def,
    Ideal.ofBits_def, Consts.ofBits_three]
  exact IdealReal.cmp_oge_coe _ _

/-- The per-class variance times the count, kept for the classes of at least three rows. -/
private theorem v38_real (xq : Fin 512 → Fin 512 → ℝ) (yq : Fin 512 → BitVec 32) (s : Fin 256 → ℝ)
    (h : val_main_v31 (F := Ideal) (up2 xq) (lab1 yq) = up1 s) :
    val_main_v38 (F := Ideal) (up2 xq) (lab1 yq)
      = up1 (fun c => if 3 ≤ cnt yq c then s c / max (cnt yq c) 1 * cnt yq c else 0) := by
  funext i
  rw [val_main_v38_apply, v36_real, val_main_v37_apply, val_main_v34_apply, h, v33_real, RScat1.v10_real,
    val_main_call0_v1_apply, val_main_call0_v0_apply, val_main_cst_10_apply, Ideal.hostDivf_def, Ideal.mulf_def,
    Ideal.ofBits_def, Consts.ofBits_zero]
  show Scalar.select (if 3 ≤ cnt yq (i 0) then 1#1 else 0#1)
      (Ideal.div ((s (i 0) : ℝ) : EReal) ((max (cnt yq (i 0)) 1 : ℝ) : EReal) * ((cnt yq (i 0) : ℝ) : EReal)) ((0 : ℝ) : EReal)
    = (((if 3 ≤ cnt yq (i 0) then s (i 0) / max (cnt yq (i 0)) 1 * cnt yq (i 0) else 0) : ℝ) : EReal)
  rw [IdealReal.div_coe_coe _ _ (max_one_ne _), ← EReal.coe_mul]
  by_cases h3 : 3 ≤ cnt yq (i 0)
  · rw [if_pos h3, if_pos h3, ValueIdx.select_one]
  · rw [if_neg h3, if_neg h3, ValueIdx.select_zero]

/-- The counts kept for the classes of at least three rows. -/
private theorem v40_real (yq : Fin 512 → BitVec 32) :
    val_main_v40 (F := Ideal) (lab1 yq) = up1 (fun c => if 3 ≤ cnt yq c then cnt yq c else 0) := by
  funext i
  rw [val_main_v40_apply, v36_real, RScat1.v10_real, val_main_call1_v1_apply, val_main_call1_v0_apply,
    val_main_cst_12_apply, Ideal.ofBits_def, Consts.ofBits_zero]
  show Scalar.select (if 3 ≤ cnt yq (i 0) then 1#1 else 0#1) ((cnt yq (i 0) : ℝ) : EReal) ((0 : ℝ) : EReal)
    = (((if 3 ≤ cnt yq (i 0) then cnt yq (i 0) else 0) : ℝ) : EReal)
  by_cases h3 : 3 ≤ cnt yq (i 0)
  · rw [if_pos h3, if_pos h3, ValueIdx.select_one]
  · rw [if_neg h3, if_neg h3, ValueIdx.select_zero]

/-- The reference's variance from its two totals: the kept per-class terms and the kept counts. -/
private theorem v45_of (xq : Fin 512 → Fin 512 → ℝ) (yq : Fin 512 → BitVec 32) (t n : Fin 256 → ℝ)
    (h38 : val_main_v38 (F := Ideal) (up2 xq) (lab1 yq) = up1 t)
    (h40 : val_main_v40 (F := Ideal) (lab1 yq) = up1 n) :
    val_main_v45 (F := Ideal) (up2 xq) (lab1 yq)
      = up0 (if 0 < ∑ c, n c then (∑ c, t c) / max (∑ c, n c) 1 else 0) := by
  funext i
  have h39 : val_main_v39 (F := Ideal) (up2 xq) (lab1 yq) i = ((∑ c, t c : ℝ) : EReal) := by
    rw [val_main_v39_apply, h38, val_main_cst_11_apply, Ideal.ofBits_def, Consts.ofBits_zero]
    show ((0 : ℝ) : EReal) + ∑ j : S256.Idx, ((t (j 0) : ℝ) : EReal) = _
    rw [sum_S256, ← EReal.coe_add, zero_add]
  have h41 : val_main_v41 (F := Ideal) (lab1 yq) i = ((∑ c, n c : ℝ) : EReal) := by
    rw [val_main_v41_apply, h40, val_main_cst_13_apply, Ideal.ofBits_def, Consts.ofBits_zero]
    show ((0 : ℝ) : EReal) + ∑ j : S256.Idx, ((n (j 0) : ℝ) : EReal) = _
    rw [sum_S256, ← EReal.coe_add, zero_add]
  rw [val_main_v45_apply, val_main_v42_apply, val_main_v44_apply, val_main_v43_apply, h39, h41,
    val_main_cst_14_apply, val_main_cst_15_apply, val_main_call2_v0_apply, val_main_cst_16_apply,
    Ideal.cmpf_def, Ideal.hostDivf_def, Ideal.maximumf_def, Ideal.ofBits_def, Ideal.ofBits_def,
    Consts.ofBits_zero, Consts.ofBits_one, IdealReal.cmp_ogt_coe, IdealReal.max_coe,
    IdealReal.div_coe_coe _ _ (max_one_ne _)]
  show _ = (((if 0 < ∑ c, n c then (∑ c, t c) / max (∑ c, n c) 1 else 0) : ℝ) : EReal)
  by_cases hp : 0 < ∑ c, n c
  · rw [if_pos hp, if_pos hp, ValueIdx.select_one]
  · rw [if_neg hp, if_neg hp, ValueIdx.select_zero]

/-- The one piece of algebra: dividing by the count and multiplying by it again changes nothing once the count is at least three. -/
private theorem div_max_mul (s n : ℝ) (h : 3 ≤ n) : s / max n 1 * n = s := by
  have hn : n ≠ 0 := by linarith
  rw [max_eq_left (by linarith)]
  field_simp

theorem ref_var_real (xq : Fin 512 → Fin 512 → ℝ) (yq : Fin 512 → BitVec 32) :
    val_main_v45 (F := Ideal) (up2 xq) (lab1 yq) = up0 (varS xq yq) := by
  obtain ⟨g, hg, hgc⟩ := RGather.v25_real xq yq _ (v18_real xq yq)
  have h28 := v28_real xq yq _ hg
  have h31 := RScat1.v31_real xq yq _ h28
  have h38 := v38_real xq yq _ h31
  rw [v45_of xq yq _ _ h38 (v40_real yq)]
  -- on the rows of class `c` the gathered mean is the mean of `c`
  have hterm : ∀ c : Fin 256,
      (if 3 ≤ cnt yq c then
        (∑ b, if yq b = BitVec.ofNat 32 c.val then ∑ d, (xq b d - csum yq xq (g b) d / max (cnt yq (g b)) 1) ^ 2 else 0)
          / max (cnt yq c) 1 * cnt yq c
      else 0)
      = (if 3 ≤ cnt yq c then
          ∑ b, if yq b = BitVec.ofNat 32 c.val then ∑ d, (xq b d - csum yq xq c d / max (cnt yq c) 1) ^ 2 else 0
        else 0) := by
    intro c
    by_cases h3 : 3 ≤ cnt yq c
    · rw [if_pos h3, if_pos h3, div_max_mul _ _ h3]
      refine Finset.sum_congr rfl fun b _ => ?_
      by_cases hb : yq b = BitVec.ofNat 32 c.val
      · rw [if_pos hb, if_pos hb, hgc b c hb]
      · rw [if_neg hb, if_neg hb]
    · rw [if_neg h3, if_neg h3]
  rw [Finset.sum_congr rfl (fun c _ => hterm c)]
  rfl

end Cert.PP.RVar

end
-- ==== Proof.RLogit.lean ====
/-
  The reference's logits over real rows: the class sums and counts with the query's own row and a one taken out at
  its own class, divided, subtracted, squared, summed along the coordinates, halved and masked.
-/
import proofs.«415011_j18580028523148_3_alg».proof.Proof.RefReadP
import proofs.«415011_j18580028523148_3_alg».proof.Proof.Spec
import proofs.«415011_j18580028523148_3_alg».proof.Proof.RScat1
import proofs.«415011_j18580028523148_3_alg».proof.Proof.RGather
import proofs.«415011_j18580028523148_3_alg».proof.Proof.LibIdealReal
import proofs.«415011_j18580028523148_3_alg».proof.Proof.Consts

noncomputable section

namespace Cert.PP.RLogit

open Idealize.ShloMosaic Cert.ReferenceIdeal Cert.ReferenceIdeal.Gen Cert.ReferenceIdeal.ReadP Cert.PP

/-- The count of class `c` with one taken out when query `b` belongs to it. -/
private def cntL (ys : Fin 8192 → BitVec 32) (pos : Fin 512 → BitVec 32) (b : Fin 512) (c : Fin 256) : ℝ :=
  cnt ys c + (if ynS ys pos b = BitVec.ofNat 32 c.val then (-1 : ℝ) else 0)

/-- The sum of class `c` at coordinate `d` with query `b`'s row taken out when it belongs to the class. -/
private def sumL (xq : Fin 512 → Fin 512 → ℝ) (xs : Fin 8192 → Fin 512 → ℝ) (ys : Fin 8192 → BitVec 32)
    (pos : Fin 512 → BitVec 32) (b : Fin 512) (c : Fin 256) (d : Fin 512) : ℝ :=
  csum ys xs c d + (if ynS ys pos b = BitVec.ofNat 32 c.val then -xq b d else 0)

/-- The divisor is positive: a maximum with the positive tenth. -/
private theorem den_ne (x : ℝ) : max x tenth ≠ 0 :=
  ne_of_gt (lt_of_lt_of_le Consts.tenth_pos (le_max_right _ _))

/-- The query rows laid along the classes. -/
private theorem v94_at (xq : Fin 512 → Fin 512 → ℝ) (j : S512x256x512.Idx) :
    val_main_v94 (F := Ideal) (up2 xq) j = ((xq (j 0) (j 2) : ℝ) : EReal) := by
  rw [val_main_v94_apply, val_main_v93_apply]
  rfl

section
variable (xq : Fin 512 → Fin 512 → ℝ) (xs : Fin 8192 → Fin 512 → ℝ) (ys : Fin 8192 → BitVec 32) (pos : Fin 512 → BitVec 32)
  (hys : ∀ j, (ys j).toNat < 256) (hpos : ∀ b, (pos b).toNat < 8192)
include hys hpos

private theorem v87_at (j : S512x256.Idx) :
    val_main_v87 (F := Ideal) (lab1 ys) (lab1 pos) j = ((cntL ys pos (j 0) (j 1) : ℝ) : EReal) := by
  rw [RGather.v87_real ys pos hys hpos]
  rfl

private theorem v89_at (j : S512x256.Idx) :
    val_main_v89 (F := Ideal) (lab1 ys) (lab1 pos) j = ((max (cntL ys pos (j 0) (j 1)) tenth : ℝ) : EReal) := by
  rw [val_main_v89_apply, v87_at ys pos hys hpos, val_main_v88_apply, val_main_cst_29_apply]
  show max ((cntL ys pos (j 0) (j 1) : ℝ) : EReal) (Ideal.ofBits .f32 0x3DCCCCCD#32) = _
  rw [Consts.ofBits_tenth, IdealReal.max_coe]

private theorem v91_at (j : S512x256x512.Idx) :
    val_main_v91 (F := Ideal) (lab1 ys) (lab1 pos) j = ((max (cntL ys pos (j 0) (j 1)) tenth : ℝ) : EReal) := by
  rw [val_main_v91_apply, val_main_v90_apply, v89_at ys pos hys hpos]
  rfl

private theorem v70_at (j : S512x256x512.Idx) :
    val_main_v70 (F := Ideal) (up2 xq) (up2 xs) (lab1 ys) (lab1 pos) j
      = ((sumL xq xs ys pos (j 0) (j 1) (j 2) : ℝ) : EReal) := by
  rw [RGather.v70_real xq xs ys pos hys hpos]
  rfl

private theorem v92_at (j : S512x256x512.Idx) :
    val_main_v92 (F := Ideal) (up2 xq) (up2 xs) (lab1 ys) (lab1 pos) j
      = ((sumL xq xs ys pos (j 0) (j 1) (j 2) / max (cntL ys pos (j 0) (j 1)) tenth : ℝ) : EReal) := by
  rw [val_main_v92_apply, v70_at xq xs ys pos hys hpos, v91_at ys pos hys hpos]
  show Ideal.div _ _ = _
  rw [IdealReal.div_coe_coe _ _ (den_ne _)]

private theorem v96_at (j : S512x256x512.Idx) :
    val_main_v96 (F := Ideal) (up2 xq) (up2 xs) (lab1 ys) (lab1 pos) j
      = (((xq (j 0) (j 2) - sumL xq xs ys pos (j 0) (j 1) (j 2) / max (cntL ys pos (j 0) (j 1)) tenth) ^ 2 : ℝ) : EReal) := by
  rw [val_main_v96_apply, val_main_v95_apply, v94_at xq, v92_at xq xs ys pos hys hpos]
  show (_ - _) * (_ - _) = _
  rw [← EReal.coe_sub, ← EReal.coe_mul, sq]

private theorem v97_at (j : S512x256.Idx) :
    val_main_v97 (F := Ideal) (up2 xq) (up2 xs) (lab1 ys) (lab1 pos) j
      = ((∑ d : Fin 512, (xq (j 0) d - sumL xq xs ys pos (j 0) (j 1) d / max (cntL ys pos (j 0) (j 1)) tenth) ^ 2 : ℝ) : EReal) := by
  rw [val_main_v97_apply, val_main_cst_30_apply]
  simp only [v96_at xq xs ys pos hys hpos]
  show Ideal.ofBits .f32 0x00000000#32 + _ = _
  rw [Consts.ofBits_zero, IdealReal.coe_sum, ← EReal.coe_add, zero_add]
  rfl

private theorem v102_at (j : S512x256.Idx) :
    val_main_v102 (F := Ideal) (lab1 ys) (lab1 pos) j
      = (((if tenth < cntL ys pos (j 0) (j 1) then 1 else 0 : ℝ)) : EReal) := by
  rw [val_main_v102_apply, val_main_v101_apply, v87_at ys pos hys hpos, val_main_v100_apply, val_main_cst_32_apply]
  show FloatOps.uitofp (F := Ideal) .f32 (Ideal.cmp .ogt _ (Ideal.ofBits .f32 0x3DCCCCCD#32)) = _
  rw [Consts.ofBits_tenth, IdealReal.cmp_ogt_coe]
  by_cases h : tenth < cntL ys pos (j 0) (j 1)
  · rw [if_pos h, if_pos h]
    show (((1#1 : BitVec 1).toNat : ℝ) : EReal) = _
    norm_num
  · rw [if_neg h, if_neg h]
    show (((0#1 : BitVec 1).toNat : ℝ) : EReal) = _
    norm_num

private theorem v105_at (j : S512x256.Idx) :
    val_main_v105 (F := Ideal) (up2 xq) (up2 xs) (lab1 ys) (lab1 pos) j
      = (((-(1 / 2) * ∑ d : Fin 512, (xq (j 0) d - sumL xq xs ys pos (j 0) (j 1) d / max (cntL ys pos (j 0) (j 1)) tenth) ^ 2)
          * (if tenth < cntL ys pos (j 0) (j 1) then 1 else 0) : ℝ) : EReal) := by
  rw [val_main_v105_apply, val_main_v103_apply, val_main_v99_apply, v97_at xq xs ys pos hys hpos,
    v102_at ys pos hys hpos, val_main_v98_apply, val_main_cst_31_apply, val_main_v104_apply, val_main_cst_33_apply]
  show Ideal.div ((Ideal.ofBits .f32 0xBF000000#32 * _) * _) (Ideal.ofBits .f32 0x3F800000#32) = _
  rw [Consts.ofBits_neg_half, Consts.ofBits_one, ← EReal.coe_mul, ← EReal.coe_mul,
    IdealReal.div_coe_coe _ _ one_ne_zero, div_one]

end

theorem v105_real (xq : Fin 512 → Fin 512 → ℝ) (xs : Fin 8192 → Fin 512 → ℝ) (ys : Fin 8192 → BitVec 32) (pos : Fin 512 → BitVec 32)
    (hys : ∀ j, (ys j).toNat < 256) (hpos : ∀ b, (pos b).toNat < 8192) :
    val_main_v105 (F := Ideal) (up2 xq) (up2 xs) (lab1 ys) (lab1 pos)
      = up2 (logitS (cnt ys) (csum ys xs) xq (ynS ys pos)) := by
  funext i
  obtain ⟨b, c, rfl⟩ : ∃ (b : Fin 512) (c : Fin 256), i = ValueIdx.ix2 b c := ⟨i 0, i 1, ValueIdx.eq_ix2 i⟩
  rw [v105_at xq xs ys pos hys hpos]
  show ((_ : ℝ) : EReal) = ((logitS (cnt ys) (csum ys xs) xq (ynS ys pos) b c : ℝ) : EReal)
  congr 1
  show (-(1 / 2) * ∑ d : Fin 512, (xq b d - sumL xq xs ys pos b c d / max (cntL ys pos b c) tenth) ^ 2)
      * (if tenth < cntL ys pos b c then 1 else 0) = _
  unfold logitS diagS offS sumL cntL
  by_cases h : ynS ys pos b = BitVec.ofNat 32 c.val
  · simp only [if_pos h, sub_eq_add_neg]
  · simp only [if_neg h, add_zero]

end Cert.PP.RLogit

end
-- ==== Proof.RTail.lean ====
/-
  The reference's log-softmax and final mean over real logits, and with them its loss.
-/
import proofs.«415011_j18580028523148_3_alg».proof.Proof.RefReadP
import proofs.«415011_j18580028523148_3_alg».proof.Proof.Spec
import proofs.«415011_j18580028523148_3_alg».proof.Proof.RGather
import proofs.«415011_j18580028523148_3_alg».proof.Proof.RLogit
import proofs.«415011_j18580028523148_3_alg».proof.Proof.LibIdealReal
import proofs.«415011_j18580028523148_3_alg».proof.Proof.Consts

noncomputable section

namespace Cert.PP.RTail

open Idealize.ShloMosaic Cert.ReferenceIdeal Cert.ReferenceIdeal.Gen Cert.ReferenceIdeal.ReadP Cert.PP

open Idealize.ShloMosaic.ValueIdx

/-- A maximum folded from minus infinity over the 256 classes of embedded reals is the embedded maximum. -/
private theorem fold_max_bot_coe (f : Fin 256 → ℝ) :
    (Finset.univ : Finset (Fin 256)).fold max (⊥ : EReal) (fun k => ((f k : ℝ) : EReal))
      = ((Finset.univ.sup' Finset.univ_nonempty f : ℝ) : EReal) := by
  have h1 : (Finset.univ : Finset (Fin 256)).fold max (⊥ : EReal) (fun k => ((f k : ℝ) : EReal))
      = Finset.univ.sup (fun k => ((f k : ℝ) : EReal)) := rfl
  rw [h1, ← Finset.sup'_eq_sup Finset.univ_nonempty]
  exact (Finset.apply_sup'_eq_sup'_comp Finset.univ_nonempty (fun x : ℝ => (x : EReal))
    (fun x y => (IdealReal.max_coe x y).symm)).symm

/-- The largest logit of row `b`. -/
private def rowMax (L : Fin 512 → Fin 256 → ℝ) (b : Fin 512) : ℝ := Finset.univ.sup' Finset.univ_nonempty (L b)

/-- The sum over the classes of the exponentials of row `b`'s logits, the row maximum taken off. -/
private def rowSum (L : Fin 512 → Fin 256 → ℝ) (b : Fin 512) : ℝ := ∑ c' : Fin 256, Real.exp (L b c' - rowMax L b)

private theorem rowSum_pos (L : Fin 512 → Fin 256 → ℝ) (b : Fin 512) : 0 < rowSum L b :=
  Finset.sum_pos (fun _ _ => Real.exp_pos _) Finset.univ_nonempty

section
variable (xq : Fin 512 → Fin 512 → ℝ) (xs : Fin 8192 → Fin 512 → ℝ) (ys : Fin 8192 → BitVec 32) (pos : Fin 512 → BitVec 32)
  (L : Fin 512 → Fin 256 → ℝ) (h : val_main_v105 (F := Ideal) (up2 xq) (up2 xs) (lab1 ys) (lab1 pos) = up2 L)
include h

/-- The maximum reduced along the classes from minus infinity is the row maximum. -/
private theorem call3_v0_real (b : Fin 512) :
    val_main_call3_v0 (F := Ideal) (up2 xq) (up2 xs) (lab1 ys) (lab1 pos) (ix1 b) = ((rowMax L b : ℝ) : EReal) := by
  have hR : S512x256.Reduces [1] S512 := by decide
  unfold val_main_call3_v0
  rw [h]
  refine (Host.reduce_eq_fold_single (FloatOps.maximumf (F := Ideal) (φ := .f32)) (up2 L) (val_main_call3_cst (F := Ideal))
    reducesTo_S512x256_S512_d1 hR h_S_ (ix1 b)).trans ?_
  have hc : val_main_call3_cst (F := Ideal) (Shape.Idx.first h_S_) = (⊥ : EReal) := Consts.ofBits_neg_inf
  have hf : (up2 L ∘ hR.lift (ix1 b)) = fun k : Fin 256 => ((L b k : ℝ) : EReal) := by
    funext k
    show ((L ((hR.lift (ix1 b) k) 0) ((hR.lift (ix1 b) k) 1) : ℝ) : EReal) = ((L b k : ℝ) : EReal)
    have e0 : (hR.lift (ix1 b) k) 0 = b := Fin.ext rfl
    have e1 : (hR.lift (ix1 b) k) 1 = k := Fin.ext rfl
    rw [e0, e1]
  rw [hc]
  refine Eq.trans ?_ (fold_max_bot_coe (L b))
  exact congrArg (fun f => Finset.fold max (⊥ : EReal) f (Finset.univ : Finset (Fin 256))) hf

/-- Its maximum with minus infinity is the row maximum again. -/
private theorem call3_v2_real (b : Fin 512) :
    val_main_call3_v2 (F := Ideal) (up2 xq) (up2 xs) (lab1 ys) (lab1 pos) (ix1 b) = ((rowMax L b : ℝ) : EReal) := by
  rw [val_main_call3_v2_apply, call3_v0_real xq xs ys pos L h b, val_main_call3_v1_apply, val_main_call3_cst_0_apply]
  show max (Ideal.ofBits .f32 0xFF800000#32) ((rowMax L b : ℝ) : EReal) = _
  rw [Consts.ofBits_neg_inf]
  exact max_eq_right bot_le

/-- The logits with their row maximum taken off. -/
private theorem call3_v5_real (b : Fin 512) (c : Fin 256) :
    val_main_call3_v5 (F := Ideal) (up2 xq) (up2 xs) (lab1 ys) (lab1 pos) (ix2 b c) = ((L b c - rowMax L b : ℝ) : EReal) := by
  rw [val_main_call3_v5_apply, val_main_call3_v4_apply, val_main_call3_v3_apply, h]
  have e : idx_main_call3_v3 (idx_main_call3_v4 (ix2 b c)) = ix1 b := by
    funext a; match a with | ⟨0, _⟩ => rfl
  rw [e, call3_v2_real xq xs ys pos L h b]
  show ((L b c : ℝ) : EReal) - ((rowMax L b : ℝ) : EReal) = _
  rw [← EReal.coe_sub]

/-- Their exponentials. -/
private theorem call3_v6_real (b : Fin 512) (c : Fin 256) :
    val_main_call3_v6 (F := Ideal) (up2 xq) (up2 xs) (lab1 ys) (lab1 pos) (ix2 b c)
      = ((Real.exp (L b c - rowMax L b) : ℝ) : EReal) := by
  rw [val_main_call3_v6_apply, call3_v5_real xq xs ys pos L h b c]
  exact IdealReal.exp_coe' _

/-- The exponentials summed along the classes. -/
private theorem call3_v7_real (b : Fin 512) :
    val_main_call3_v7 (F := Ideal) (up2 xq) (up2 xs) (lab1 ys) (lab1 pos) (ix1 b) = ((rowSum L b : ℝ) : EReal) := by
  rw [val_main_call3_v7_apply, val_main_call3_cst_1_apply]
  have e : ∀ k : Fin 256, val_main_call3_v6 (F := Ideal) (up2 xq) (up2 xs) (lab1 ys) (lab1 pos) (idx_main_call3_v7 (ix1 b) k)
      = ((Real.exp (L b k - rowMax L b) : ℝ) : EReal) := by
    intro k
    have ei : idx_main_call3_v7 (ix1 b) k = ix2 b k := by
      funext a; match a with | ⟨0, _⟩ => rfl | ⟨1, _⟩ => rfl
    rw [ei]; exact call3_v6_real xq xs ys pos L h b k
  rw [Finset.sum_congr rfl (fun k _ => e k), IdealReal.coe_sum]
  show Ideal.ofBits .f32 0x00000000#32 + _ = _
  rw [Consts.ofBits_zero, ← EReal.coe_add, zero_add]
  rfl

/-- The logarithm of that sum. -/
private theorem call3_v9_real (b : Fin 512) (z : Fin 1) :
    val_main_call3_v9 (F := Ideal) (up2 xq) (up2 xs) (lab1 ys) (lab1 pos) (ix2 b z) = ((Real.log (rowSum L b) : ℝ) : EReal) := by
  rw [val_main_call3_v9_apply, val_main_call3_v8_apply]
  have e : idx_main_call3_v8 (ix2 b z) = ix1 b := by
    funext a; match a with | ⟨0, _⟩ => rfl
  rw [e, call3_v7_real xq xs ys pos L h b]
  exact IdealReal.log_coe_pos (rowSum_pos L b)

end

theorem v106_real (xq : Fin 512 → Fin 512 → ℝ) (xs : Fin 8192 → Fin 512 → ℝ) (ys : Fin 8192 → BitVec 32) (pos : Fin 512 → BitVec 32)
    (L : Fin 512 → Fin 256 → ℝ) (h : val_main_v105 (F := Ideal) (up2 xq) (up2 xs) (lab1 ys) (lab1 pos) = up2 L) :
    val_main_v106 (F := Ideal) (up2 xq) (up2 xs) (lab1 ys) (lab1 pos) = up2 (logpS L) := by
  funext i
  obtain ⟨b, c, rfl⟩ : ∃ (b : Fin 512) (c : Fin 256), i = ix2 b c := ⟨i 0, i 1, eq_ix2 i⟩
  rw [val_main_v106_apply, call3_v5_real xq xs ys pos L h b c, val_main_call3_v10_apply]
  have e : idx_main_call3_v10 (ix2 b c) = ix2 b (0 : Fin 1) := by
    funext a; match a with | ⟨0, _⟩ => rfl | ⟨1, _⟩ => rfl
  rw [e, call3_v9_real xq xs ys pos L h b 0]
  show ((L b c - rowMax L b : ℝ) : EReal) - ((Real.log (rowSum L b) : ℝ) : EReal) = ((logpS L b c : ℝ) : EReal)
  rw [← EReal.coe_sub]
  rfl

theorem ref_loss_real (xq : Fin 512 → Fin 512 → ℝ) (xs : Fin 8192 → Fin 512 → ℝ) (ys : Fin 8192 → BitVec 32) (pos : Fin 512 → BitVec 32)
    (hys : ∀ j, (ys j).toNat < 256) (hpos : ∀ b, (pos b).toNat < 8192) :
    val_main_v111 (F := Ideal) (up2 xq) (up2 xs) (lab1 ys) (lab1 pos) = up0 (lossSpec xq xs ys pos) := by
  have h105 := RLogit.v105_real xq xs ys pos hys hpos
  have h106 := v106_real xq xs ys pos _ h105
  have h108 := RGather.v108_real xq xs ys pos hys hpos _ h106
  funext i
  rw [val_main_v111_apply, val_main_v110_apply, val_main_v109_apply, h108, val_main_cst_34_apply, val_main_cst_35_apply]
  -- the entries of the 512x1 array, summed: one per query
  have hs : (∑ j : S512x1.Idx, (((∑ c : Fin 256, if ynS ys pos (j 0) = BitVec.ofNat 32 c.val
        then logpS (logitS (cnt ys) (csum ys xs) xq (ynS ys pos)) (j 0) c else 0 : ℝ)) : EReal))
      = (((∑ b : Fin 512, ∑ c : Fin 256, if ynS ys pos b = BitVec.ofNat 32 c.val
        then logpS (logitS (cnt ys) (csum ys xs) xq (ynS ys pos)) b c else 0 : ℝ)) : EReal) := by
    rw [IdealReal.coe_sum]
    refine congrArg (fun x : ℝ => (x : EReal)) ?_
    rw [sum_idx2]
    refine Finset.sum_congr rfl fun b _ => ?_
    rw [Fin.sum_univ_one]
  show -(Ideal.div (Ideal.ofBits .f32 0x00000000#32 + ∑ j : S512x1.Idx, (((∑ c : Fin 256, if ynS ys pos (j 0) = BitVec.ofNat 32 c.val
        then logpS (logitS (cnt ys) (csum ys xs) xq (ynS ys pos)) (j 0) c else 0 : ℝ)) : EReal)) (Ideal.ofBits .f32 0x44000000#32))
      = ((lossSpec xq xs ys pos : ℝ) : EReal)
  rw [hs, Consts.ofBits_zero, Consts.ofBits_512, ← EReal.coe_add, zero_add,
    IdealReal.div_coe_coe _ _ (by norm_num : (512 : ℝ) ≠ 0), ← EReal.coe_neg]
  rfl

end Cert.PP.RTail

end
-- ==== Proof.Bridge.lean ====
/-
  Both programs' results over real rows, labels in 0 … 255 and positions in 0 … 8191 are the same real numbers: the
  kernel's loss term and the reference's loss stage are both `lossSpec`, the kernel's variance term and the reference's
  variance stage both `varS`.
-/
import proofs.«415011_j18580028523148_3_alg».proof.Proof.KTerm
import proofs.«415011_j18580028523148_3_alg».proof.Proof.KAcc
import proofs.«415011_j18580028523148_3_alg».proof.Proof.KVar
import proofs.«415011_j18580028523148_3_alg».proof.Proof.KLogp
import proofs.«415011_j18580028523148_3_alg».proof.Proof.Pre
import proofs.«415011_j18580028523148_3_alg».proof.Proof.RVar
import proofs.«415011_j18580028523148_3_alg».proof.Proof.RTail

noncomputable section

namespace Cert.PP.Bridge

open Idealize.ShloMosaic Cert.PP

/-- A label list laid out as a rank-1 array and then as a column is the column layout. -/
theorem col_lab1 {n : ℕ} (l : Fin n → BitVec 32) : KT.col (lab1 l) = labCol l := by
  funext i; rfl

theorem lossT_real (xq : Fin 512 → Fin 512 → ℝ) (xs : Fin 8192 → Fin 512 → ℝ) (ys : Fin 8192 → BitVec 32)
    (pos : Fin 512 → BitVec 32) (hpos : ∀ b, (pos b).toNat < 8192) :
    KT.lossT (F := Ideal) (up2 xq) (up2 xs) (lab1 ys) (lab1 pos) = up0 (lossSpec xq xs ys pos) := by
  funext i
  unfold KT.lossT
  rw [Pre.takeT_eq ys pos hpos, col_lab1, col_lab1, KAcc.mus4_real, KAcc.cc4_real, KLogp.kLoss_real]
  rfl

theorem varT_real (xq : Fin 512 → Fin 512 → ℝ) (yq : Fin 512 → BitVec 32) :
    KT.varT (F := Ideal) (up2 xq) (lab1 yq) = up0 (varS xq yq) := by
  funext i
  unfold KT.varT
  rw [col_lab1, KVar.kVar_real]
  rfl

/-- A rank-1 array of label words is the layout of its own list. -/
theorem eq_lab1 {n : ℕ} (a : (⟨1, ![n]⟩ : Shape).Idx → BitVec 32) : a = lab1 (fun j => a (ValueIdx.ix1 j)) := by
  funext i
  exact congrArg a (ValueIdx.eq_ix1 i)

end Cert.PP.Bridge

end
-- ==== Proof.lean ====
/-
  The certificate of a fused prototype-loss kernel against its jnp reference: five claims.

  The kernel streams the 8192 support rows in four tiles, adding into a scratch the one-hot product of each tile's labels
  with its rows (the class sums) and the one-hot column sums (the class counts); at the last tile it computes, from those
  sums and the 512 query rows, (i) the intra-class variance of the queries over the classes of at least three rows and
  (ii) the loss: for each query minus half its squared distance to every class mean — its own class taken with the
  query itself left out —, a log-softmax along the classes, and minus the mean of the log-probabilities at the queries'
  own classes. The reference computes the same with accumulating scatters, a dense 512 × 256 × 512 difference, and
  `take_along_axis`.

  Over the reals the two agree. A scatter-add of rows by label is the sum, class by class, of the rows of that class; a
  one-hot product gathers a class row exactly (the split of a value into a rounded part and a remainder adds back to the
  value); |x|² − 2 x·μ + |μ|² is Σ (x − μ)²; a class total divided by its count and multiplied by it again is the total.
  They agree only where every position word lies in 0 … 8191 and every support label in 0 … 255 (outside, the kernel's
  `take` returns a fill where the reference's gather clamps, and the reference's `take_along_axis` reads outside the
  class axis): the precondition says so, besides the finiteness of the float inputs, which the laws above need.

  The frames of the two kernel programs are the generated frame certificates; the reference's frame and run are a
  repaired copy of its generated run (Proof/RefRunP.lean); `preserves` is the ideal pass's two ledger entries, both the
  removal of a round trip through bf16, which is the identity on extended reals. The value side: Proof/KRun.lean names
  the kernel's two results as the terms of Proof/KTerm.lean, Proof/Bridge.lean carries both programs' results to the real
  specification of Proof/Spec.lean.
-/
import proofs.«415011_j18580028523148_3_alg».proof.Defs
import proofs.«415011_j18580028523148_3_alg».proof.Proof.Gen.Kernel
import proofs.«415011_j18580028523148_3_alg».proof.Proof.Gen.Kernel.Frame
import proofs.«415011_j18580028523148_3_alg».proof.Proof.Gen.KernelIdeal
import proofs.«415011_j18580028523148_3_alg».proof.Proof.Gen.KernelIdeal.Frame
import proofs.«415011_j18580028523148_3_alg».proof.Proof.Gen.ReferenceIdeal
import proofs.«415011_j18580028523148_3_alg».proof.Proof.Gen.Pre_finite_inputs
import proofs.«415011_j18580028523148_3_alg».proof.Proof.RefRunP
import proofs.«415011_j18580028523148_3_alg».proof.Proof.RefReadP
import proofs.«415011_j18580028523148_3_alg».proof.Proof.KRun
import proofs.«415011_j18580028523148_3_alg».proof.Proof.Bridge
import Idealize.ShloMosaic.Adequacy
import Idealize.ShloMosaic.Init

noncomputable section

namespace Cert.Proof

open Idealize.ShloMosaic Idealize.ShloMosaic.TcCoe Idealize.SL.Sem Cert.PP

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ledger's two entries: narrowing to bf16 and widening back is the identity on extended reals. -/
theorem preserves : Cert.preserves_Kernel_KernelIdeal :=
  ⟨IdealRules.truncf_extf.statement _ _ _, IdealRules.truncf_extf.statement _ _ _⟩

/-- Both programs end with the loss `lossSpec` and the variance `varS` of the real rows the precondition gives. -/
theorem algebraic : Cert.algebraic_KernelIdeal_ReferenceIdeal := by
  intro m ρ m' ρ' hpre hagree
  refine ⟨fun c => KT.lossT (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => KT.varT (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.PP.KRun.kernel_run m ρ, ?_⟩
  refine (θ_run Cert.ReferenceIdeal.defs _ _).mono (fun r h c => ?_) (Cert.ReferenceIdeal.ValueP.run (F := Ideal) m' ρ')
  obtain ⟨h1, h2, h3⟩ := h c
  obtain ⟨⟨xq, hxq⟩, ⟨xs, hxs⟩, hys, hpos⟩ := Cert.PP.Pre.pre_decode _ _ _ _ _ (hpre c)
  obtain ⟨a0, a1, a2, a3, a4⟩ := hagree c
  refine ⟨?_, ?_, h3⟩
  · rw [h1, Cert.ReferenceIdeal.ReadP.val_main_v111_eq, a0, a2, a3, a4]
    show Cert.ReferenceIdeal.ReadP.val_main_v111 (F := Ideal) _ _ _ _ = KT.lossT (F := Ideal) _ _ _ _
    rw [hxq, hxs, Bridge.eq_lab1 (m ((c.tc : Thread Cert.KernelIdeal.nD Cert.KernelIdeal.τ).loc Cert.KernelIdeal.main_arg3)), Bridge.eq_lab1 (m ((c.tc : Thread Cert.KernelIdeal.nD Cert.KernelIdeal.τ).loc Cert.KernelIdeal.main_arg4))]
    rw [Cert.PP.RTail.ref_loss_real xq xs _ _ (fun j => hys _) (fun b => hpos _),
      Cert.PP.Bridge.lossT_real xq xs _ _ (fun b => hpos _)]
  · rw [h2, Cert.ReferenceIdeal.ReadP.val_main_v45_eq, a0, a1]
    show Cert.ReferenceIdeal.ReadP.val_main_v45 (F := Ideal) _ _ = KT.varT (F := Ideal) _ _
    rw [hxq, Bridge.eq_lab1 (m ((c.tc : Thread Cert.KernelIdeal.nD Cert.KernelIdeal.τ).loc Cert.KernelIdeal.main_arg1))]
    rw [Cert.PP.RVar.ref_var_real xq _, Cert.PP.Bridge.varT_real xq _]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
